-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S4x64x64 : Shape := ⟨3, ![4, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) (main_arg2 : IVec S4x64x64 32) (main_arg3 : IVec S4x64x64 32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S4x64x64 : Shape := ⟨3, ![4, 64, 64]⟩
abbrev S_ : Shape := ⟨0, ![]⟩
abbrev S4x1x64x64 : Shape := ⟨4, ![4, 1, 64, 64]⟩
abbrev S4x256x4096 : Shape := ⟨3, ![4, 256, 4096]⟩
abbrev S4x4096x256 : Shape := ⟨3, ![4, 4096, 256]⟩
abbrev S4x4096 : Shape := ⟨2, ![4, 4096]⟩
abbrev S4x1x4096 : Shape := ⟨3, ![4, 1, 4096]⟩
abbrev S1x512x256 : Shape := ⟨3, ![1, 512, 256]⟩
abbrev S1x256x512 : Shape := ⟨3, ![1, 256, 512]⟩
abbrev S1x1x512 : Shape := ⟨3, ![1, 1, 512]⟩
abbrev S1x1x4096 : Shape := ⟨3, ![1, 1, 4096]⟩
abbrev S512x1 : Shape := ⟨2, ![512, 1]⟩
abbrev S1x4096 : Shape := ⟨2, ![1, 4096]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S1x512 : Shape := ⟨2, ![1, 512]⟩
abbrev S4096 : Shape := ⟨1, ![4096]⟩
abbrev S8x4096 : Shape := ⟨2, ![8, 4096]⟩

abbrev nBuf : Space → Nat
  | .hbm => 66
  | .vmem => 16
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x64x64, .i32⟩
  | .hbm, ⟨3, _⟩ => ⟨S4x64x64, .i32⟩
  | .hbm, ⟨4, _⟩ => ⟨S4x256x64x64, .f32⟩
  | .hbm, ⟨5, _⟩ => ⟨S_, .f32⟩
  | .hbm, ⟨6, _⟩ => ⟨S4x64x64, .f32⟩
  | .hbm, ⟨7, _⟩ => ⟨S4x1x64x64, .f32⟩
  | .hbm, ⟨8, _⟩ => ⟨S4x1x64x64, .f32⟩
  | .hbm, ⟨9, _⟩ => ⟨S_, .f32⟩
  | .hbm, ⟨10, _⟩ => ⟨S4x1x64x64, .f32⟩
  | .hbm, ⟨11, _⟩ => ⟨S4x1x64x64, .f32⟩
  | .hbm, ⟨12, _⟩ => ⟨S4x256x64x64, .f32⟩
  | .hbm, ⟨13, _⟩ => ⟨S4x256x64x64, .f32⟩
  | .hbm, ⟨14, _⟩ => ⟨S4x256x4096, .f32⟩
  | .hbm, ⟨15, _⟩ => ⟨S4x256x64x64, .f32⟩
  | .hbm, ⟨16, _⟩ => ⟨S_, .f32⟩
  | .hbm, ⟨17, _⟩ => ⟨S4x64x64, .f32⟩
  | .hbm, ⟨18, _⟩ => ⟨S4x1x64x64, .f32⟩
  | .hbm, ⟨19, _⟩ => ⟨S4x1x64x64, .f32⟩
  | .hbm, ⟨20, _⟩ => ⟨S_, .f32⟩
  | .hbm, ⟨21, _⟩ => ⟨S4x1x64x64, .f32⟩
  | .hbm, ⟨22, _⟩ => ⟨S4x1x64x64, .f32⟩
  | .hbm, ⟨23, _⟩ => ⟨S4x256x64x64, .f32⟩
  | .hbm, ⟨24, _⟩ => ⟨S4x256x64x64, .f32⟩
  | .hbm, ⟨25, _⟩ => ⟨S4x256x4096, .f32⟩
  | .hbm, ⟨26, _⟩ => ⟨S4x4096x256, .f32⟩
  | .hbm, ⟨27, _⟩ => ⟨S4x4096x256, .bf16⟩
  | .hbm, ⟨28, _⟩ => ⟨S4x256x4096, .bf16⟩
  | .hbm, ⟨29, _⟩ => ⟨S4x4096, .i32⟩
  | .hbm, ⟨30, _⟩ => ⟨S4x4096, .i32⟩
  | .hbm, ⟨31, _⟩ => ⟨S4x1x4096, .i32⟩
  | .hbm, ⟨32, _⟩ => ⟨S4x1x4096, .i32⟩
  | .hbm, ⟨33, _⟩ => ⟨S4x1x4096, .f32⟩
  | .hbm, ⟨34, _⟩ => ⟨S4x1x4096, .f32⟩
  | .hbm, ⟨35, _⟩ => ⟨S4x4096, .f32⟩
  | .hbm, ⟨36, _⟩ => ⟨S4x4096, .f32⟩
  | .hbm, ⟨37, _⟩ => ⟨S8x4096, .i32⟩
  | .hbm, ⟨38, _⟩ => ⟨S_, .i32⟩
  | .hbm, ⟨39, _⟩ => ⟨S8x4096, .i32⟩
  | .hbm, ⟨40, _⟩ => ⟨S8x4096, .i1⟩
  | .hbm, ⟨41, _⟩ => ⟨S8x4096, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S_, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S_, .f32⟩
  | .hbm, ⟨58, _⟩ => ⟨S_, .f32⟩
  | .hbm, ⟨59, _⟩ => ⟨S8x4096, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1x512x256, .bf16⟩
  | .local _ .vmem, ⟨1, _⟩ => ⟨S1x512x256, .bf16⟩
  | .local _ .vmem, ⟨2, _⟩ => ⟨S1x256x512, .bf16⟩
  | .local _ .vmem, ⟨3, _⟩ => ⟨S1x256x512, .bf16⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x512, .f32⟩
  | .local _ .vmem, ⟨9, _⟩ => ⟨S1x1x512, .f32⟩
  | .local _ .vmem, ⟨10, _⟩ => ⟨S1x1x4096, .f32⟩
  | .local _ .vmem, ⟨11, _⟩ => ⟨S1x1x4096, .f32⟩
  | .local _ .vmem, ⟨12, _⟩ => ⟨S512x1, .f32⟩
  | .local _ .vmem, ⟨13, _⟩ => ⟨S512x1, .f32⟩
  | .local _ .vmem, ⟨14, _⟩ => ⟨S1x4096, .f32⟩
  | .local _ .vmem, ⟨15, _⟩ => ⟨S1x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c512_i32 : BitVec 32 := 512#32
  let v50 : BitVec 32 := Scalar.muli arg2 c512_i32
  v50
def k0_off1 (i : grid0.Coords) : Fin 2 → Nat :=
  let c0_30 : Index := 0#32
  let arg2 : BitVec 32 := BitVec.ofNat 32 (i 2).val
  let c512_i32 : BitVec 32 := 512#32
  let v50 : BitVec 32 := Scalar.muli arg2 c512_i32
  let v51 : BitVec 32 := v50
  let v52 : Index := Scalar.indexCast v51
  ![0, v52.toNat]
def k0_cond3 (i : grid0.Coords) : BitVec 1 :=
  let arg2 : BitVec 32 := BitVec.ofNat 32 (i 2).val
  let c7_i32 : BitVec 32 := 7#32
  let v66 : BitVec 1 := Scalar.cmpi .eq arg2 c7_i32
  let v67 : BitVec 32 := Scalar.extui v66
  let c0_i32_34 : BitVec 32 := 0#32
  let v68 : BitVec 1 := Scalar.cmpi .ne v67 c0_i32_34
  v68

def k0_cond4 (i : grid0.Coords) : BitVec 1 :=
  let arg1 : BitVec 32 := BitVec.ofNat 32 (i 1).val
  let c7_i32_35 : BitVec 32 := 7#32
  let v69 : BitVec 1 := Scalar.cmpi .eq arg1 c7_i32_35
  let arg2 : BitVec 32 := BitVec.ofNat 32 (i 2).val
  let c7_i32_36 : BitVec 32 := 7#32
  let v70 : BitVec 1 := Scalar.cmpi .eq arg2 c7_i32_36
  let v71 : BitVec 1 := Scalar.andi v69 v70
  let v72 : BitVec 32 := Scalar.extui v71
  let c0_i32_37 : BitVec 32 := 0#32
  let v73 : BitVec 1 := Scalar.cmpi .ne v72 c0_i32_37
  v73

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  reducesTo_S4x256x64x64_S4x64x64_d1 : S4x256x64x64.ReducesTo [1] S4x64x64
  h_S_ : 0 < S_.numel
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  transposes_S4x256x4096_S4x4096x256_0_2_1 : S4x256x4096.Transposes [0, 2, 1] S4x4096x256
  bitsLt_bf16_f32 : FTy.bits .bf16 < FTy.bits .f32
  shapeCasts_S4x64x64_S4x4096 : S4x64x64.ShapeCasts S4x4096
  shapeCasts_S4x4096_S4x1x4096 : S4x4096.ShapeCasts S4x1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  natLt_1_32 : 1 < 32
  reduces_S512x512_S512 : S512x512.Reduces [1] S512
  reduces_S512x512_S512_2 : S512x512.Reduces [0] S512
  h_S1x512 : 0 < S1x512.numel
  shapeCasts_S1x512_S1x512 : S1x512.ShapeCasts S1x512
  shapeCasts_S512x1_S512 : S512x1.ShapeCasts S512
  shapeCasts_S512_S1x1x512 : S512.ShapeCasts S1x1x512
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S4x1x4096_S4x4096 : S4x1x4096.ShapeCasts S4x4096
  concatenates_S4x4096_S4x4096_S8x4096_d0 : Shape.Concatenates [S4x4096, S4x4096] S8x4096 0
  bcast_S_S8x4096 : S_.BroadcastsInDim S8x4096 (![] : Fin 0 → Fin S8x4096.rank)
  reducesTo_S8x4096_S_d0_1 : S8x4096.ReducesTo [0, 1] S_
  dot_S512x256_S256x512_S512x512_1_0_0_1_n_n_wf : DotDims.WF S512x256 S256x512 S512x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x512.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .bf16 = 32 ∨ (Rect.block (s := S4x4096x256) S1x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x256x4096.size a
  hwx0_1 : ∀ i : grid0.Coords, EltTy.bits .bf16 = 32 ∨ (Rect.block (s := S4x256x4096) S1x256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x4096.size a
  hwx0_2 : ∀ i : grid0.Coords, EltTy.bits .i32 = 32 ∨ (Rect.block (s := S4x1x4096) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S4x1x4096.size a
  hwx0_3 : ∀ i : grid0.Coords, EltTy.bits .i32 = 32 ∨ (Rect.block (s := S4x1x4096) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x4096.size a
  hwx0_4 : ∀ i : grid0.Coords, EltTy.bits .f32 = 32 ∨ (Rect.block (s := S4x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S4x1x4096.size a
  hwx0_5 : ∀ i : grid0.Coords, EltTy.bits .f32 = 32 ∨ (Rect.block (s := S4x1x4096) S1x1x4096.size (cc0_transform_5 i) (hinb0_5 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v19) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_0) S1x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25_1) S1x1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S4x64x64 : Shape := ⟨3, ![4, 64, 64]⟩
abbrev S_ : Shape := ⟨0, ![]⟩
abbrev S4x1x64x64 : Shape := ⟨4, ![4, 1, 64, 64]⟩
abbrev S4x256x4096 : Shape := ⟨3, ![4, 256, 4096]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S8x4096 : Shape := ⟨2, ![8, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x64x64, .i32⟩
  | .hbm, ⟨3, _⟩ => ⟨S4x64x64, .i32⟩
  | .hbm, ⟨4, _⟩ => ⟨S4x256x64x64, .f32⟩
  | .hbm, ⟨5, _⟩ => ⟨S_, .f32⟩
  | .hbm, ⟨6, _⟩ => ⟨S4x64x64, .f32⟩
  | .hbm, ⟨7, _⟩ => ⟨S4x1x64x64, .f32⟩
  | .hbm, ⟨8, _⟩ => ⟨S4x1x64x64, .f32⟩
  | .hbm, ⟨9, _⟩ => ⟨S_, .f32⟩
  | .hbm, ⟨10, _⟩ => ⟨S4x1x64x64, .f32⟩
  | .hbm, ⟨11, _⟩ => ⟨S4x1x64x64, .f32⟩
  | .hbm, ⟨12, _⟩ => ⟨S4x256x64x64, .f32⟩
  | .hbm, ⟨13, _⟩ => ⟨S4x256x64x64, .f32⟩
  | .hbm, ⟨14, _⟩ => ⟨S4x256x4096, .f32⟩
  | .hbm, ⟨15, _⟩ => ⟨S4x256x64x64, .f32⟩
  | .hbm, ⟨16, _⟩ => ⟨S_, .f32⟩
  | .hbm, ⟨17, _⟩ => ⟨S4x64x64, .f32⟩
  | .hbm, ⟨18, _⟩ => ⟨S4x1x64x64, .f32⟩
  | .hbm, ⟨19, _⟩ => ⟨S4x1x64x64, .f32⟩
  | .hbm, ⟨20, _⟩ => ⟨S_, .f32⟩
  | .hbm, ⟨21, _⟩ => ⟨S4x1x64x64, .f32⟩
  | .hbm, ⟨22, _⟩ => ⟨S4x1x64x64, .f32⟩
  | .hbm, ⟨23, _⟩ => ⟨S4x256x64x64, .f32⟩
  | .hbm, ⟨24, _⟩ => ⟨S4x256x64x64, .f32⟩
  | .hbm, ⟨25, _⟩ => ⟨S4x256x4096, .f32⟩
  | .hbm, ⟨26, _⟩ => ⟨S4x4096, .i32⟩
  | .hbm, ⟨27, _⟩ => ⟨S4x4096, .i32⟩
  | .hbm, ⟨28, _⟩ => ⟨S4x4096x1, .i32⟩
  | .hbm, ⟨29, _⟩ => ⟨S4x1x4096, .i32⟩
  | .hbm, ⟨30, _⟩ => ⟨S4x4096x4096, .i32⟩
  | .hbm, ⟨31, _⟩ => ⟨S4x4096x4096, .i32⟩
  | .hbm, ⟨32, _⟩ => ⟨S4x4096x4096, .i1⟩
  | .hbm, ⟨33, _⟩ => ⟨S4x4096x4096, .f32⟩
  | .hbm, ⟨34, _⟩ => ⟨S8x4096, .i32⟩
  | .hbm, ⟨35, _⟩ => ⟨S_, .i32⟩
  | .hbm, ⟨36, _⟩ => ⟨S8x4096, .i32⟩
  | .hbm, ⟨37, _⟩ => ⟨S8x4096, .i1⟩
  | .hbm, ⟨38, _⟩ => ⟨S4x4096x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S_, .f32⟩
  | .hbm, ⟨57, _⟩ => ⟨S4x4096, .f32⟩
  | .hbm, ⟨58, _⟩ => ⟨S4x4096, .f32⟩
  | .hbm, ⟨59, _⟩ => ⟨S4x4096, .f32⟩
  | .hbm, ⟨60, _⟩ => ⟨S_, .f32⟩
  | .hbm, ⟨61, _⟩ => ⟨S4x4096, .f32⟩
  | .hbm, ⟨62, _⟩ => ⟨S_, .f32⟩
  | .hbm, ⟨63, _⟩ => ⟨S4x4096, .f32⟩
  | .hbm, ⟨64, _⟩ => ⟨S_, .f32⟩
  | .hbm, ⟨65, _⟩ => ⟨S4x4096, .f32⟩
  | .hbm, ⟨66, _⟩ => ⟨S4x4096, .f32⟩
  | .hbm, ⟨67, _⟩ => ⟨S4x4096, .f32⟩
  | .hbm, ⟨68, _⟩ => ⟨S8x4096, .f32⟩
  | .hbm, ⟨69, _⟩ => ⟨S8x4096, .f32⟩
  | .hbm, ⟨70, _⟩ => ⟨S8x4096, .f32⟩
  | .hbm, ⟨71, _⟩ => ⟨S_, .f32⟩
  | .hbm, ⟨72, _⟩ => ⟨S8x4096, .f32⟩
  | .hbm, ⟨73, _⟩ => ⟨S8x4096, .i1⟩
  | .hbm, ⟨74, _⟩ => ⟨S_, .f32⟩
  | .hbm, ⟨75, _⟩ => ⟨S_, .f32⟩
  | .hbm, ⟨76, _⟩ => ⟨S8x4096, .f32⟩
  | .hbm, ⟨77, _⟩ => ⟨S8x4096, .f32⟩
  | .hbm, ⟨78, _⟩ => ⟨S8x4096, .f32⟩
  | .hbm, ⟨79, _⟩ => ⟨S8x4096, .f32⟩
  | .hbm, ⟨80, _⟩ => ⟨S_, .f32⟩
  | .hbm, ⟨81, _⟩ => ⟨S_, .f32⟩
  | .hbm, ⟨82, _⟩ => ⟨S8x4096, .f32⟩
  | .hbm, ⟨83, _⟩ => ⟨S8x4096, .f32⟩
  | .hbm, ⟨84, _⟩ => ⟨S_, .f32⟩
  | .hbm, ⟨85, _⟩ => ⟨S_, .f32⟩
  | .hbm, ⟨86, _⟩ => ⟨S8x4096, .i32⟩
  | .hbm, ⟨87, _⟩ => ⟨S_, .i32⟩
  | .hbm, ⟨88, _⟩ => ⟨S_, .i32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_call1_v0 : Ref sig .tc := ⟨.hbm, 75, rfl⟩
abbrev main_call1_v1 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_call2_v0 : Ref sig .tc := ⟨.hbm, 81, rfl⟩
abbrev main_call2_v1 : Ref sig .tc := ⟨.hbm, 82, rfl⟩
abbrev main_v53 : Ref sig .tc := ⟨.hbm, 83, rfl⟩
abbrev main_cst_15 : Ref sig .tc := ⟨.hbm, 84, rfl⟩
abbrev main_v54 : Ref sig .tc := ⟨.hbm, 85, rfl⟩
abbrev main_v55 : Ref sig .tc := ⟨.hbm, 86, rfl⟩
abbrev main_c_16 : Ref sig .tc := ⟨.hbm, 87, rfl⟩
abbrev main_v56 : Ref sig .tc := ⟨.hbm, 88, rfl⟩
abbrev main_v57 : Ref sig .tc := ⟨.hbm, 89, rfl⟩
abbrev main_cst_17 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]

class Facts₀ : Prop where
  reducesTo_S4x256x64x64_S4x64x64_d1 : S4x256x64x64.ReducesTo [1] S4x64x64
  h_S_ : 0 < S_.numel
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  shapeCasts_S4x64x64_S4x4096 : S4x64x64.ShapeCasts S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  concatenates_S4x4096_S4x4096_S8x4096_d0 : Shape.Concatenates [S4x4096, S4x4096] S8x4096 0
  bcast_S_S8x4096 : S_.BroadcastsInDim S8x4096 (![] : Fin 0 → Fin S8x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  reducesTo_S4x4096x4096_S4x4096_d1 : S4x4096x4096.ReducesTo [1] S4x4096
  reducesTo_S8x4096_S_d0_1 : S8x4096.ReducesTo [0, 1] S_
  natLt_1_32 : 1 < 32
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.Spec.lean ====
/-
  The cross-pixel contrastive ratios, as functions of the two normalised feature arrays and the two label arrays.

  For a batch `n`, pixels `p, q` (4096 of them) and channels `c` (256):
    sim n p q     = Σ_c a n c p · b n c q                         the similarity of pixel p of the first map and pixel q of the second
    expSim n p q  = exp (min 1 (max (-1) (sim n p q)) · s)        clipped to [-1, 1], scaled by the inverse temperature s, exponentiated
    same n p q    = 1 when the two labels agree, 0 otherwise
  and the two ratios
    rowRatio n p  = (Σ_q expSim n p q · same n p q) / (Σ_q expSim n p q + ε)
    colRatio n q  = (Σ_p expSim n p q · same n p q) / (Σ_p expSim n p q + ε).
  The inverse temperature is the rational 2^28 / 13421773, the exact reciprocal of the binary fraction 13421773 / 2^28
  that the decimal 0.05 rounds to in single precision; a product with it is a quotient by that fraction on every
  extended real (`scale_eq_div`). Sums on the extended reals are commutative and associative, so the order and the
  grouping in which a row or a column is added up do not matter; no finiteness of the inputs is used anywhere.
-/
import Idealize.ShloMosaic.PureOps.Ideal
import Idealize.ShloMosaic.Lib.ValueIdx

noncomputable section

namespace Cert.Contrastive

open Idealize.ShloMosaic

/-- The inverse temperature: the exact reciprocal of the single-precision word of 0.05. -/
def invTemp : EReal := ((268435456 / 13421773 : ℝ) : EReal)

/-- The single-precision word of 0.05 denotes the binary fraction 13421773 / 2^28. -/
def temp : EReal := ((13421773 / 268435456 : ℝ) : EReal)

/-- The lower and upper clipping bounds and the guard added to a denominator, as the words both programs carry. -/
def negOne : EReal := Ideal.ofBits .f32 0xBF800000#32
def posOne : EReal := Ideal.ofBits .f32 0x3F800000#32
def guard : EReal := Ideal.ofBits .f32 0x358637BD#32

variable (a b : Fin 4 → Fin 256 → Fin 4096 → EReal) (la lb : Fin 4 → Fin 4096 → BitVec 32)

/-- The similarity of pixel `p` of the first map and pixel `q` of the second: the inner product over the channels. -/
def sim (n : Fin 4) (p q : Fin 4096) : EReal := ∑ c : Fin 256, a n c p * b n c q

/-- The similarity clipped to [-1, 1], scaled by the inverse temperature and exponentiated. -/
def expSim (n : Fin 4) (p q : Fin 4096) : EReal := Ideal.exp (min posOne (max negOne (sim a b n p q)) * invTemp)

/-- One where the labels of the two pixels agree, zero elsewhere. -/
def same (n : Fin 4) (p q : Fin 4096) : EReal := if la n p = lb n q then 1 else 0

/-- The share of a row's mass that sits on equally labelled pixels. -/
def rowRatio (n : Fin 4) (p : Fin 4096) : EReal :=
  Ideal.div (∑ q : Fin 4096, expSim a b n p q * same la lb n p q) ((∑ q : Fin 4096, expSim a b n p q) + guard)

/-- The share of a column's mass that sits on equally labelled pixels. -/
def colRatio (n : Fin 4) (q : Fin 4096) : EReal :=
  Ideal.div (∑ p : Fin 4096, expSim a b n p q * same la lb n p q) ((∑ p : Fin 4096, expSim a b n p q) + guard)

/-! ## Tiles and accumulators

The kernel walks the 4096 × 4096 matrix of one batch in 8 × 8 tiles of 512 × 512, row tile by row tile and inside a row tile
column tile by column tile. A row's sum is built up over the column tiles of its row tile; a column's sum over the row tiles,
each column receiving a row tile's share when the walk reaches its own column tile. -/

/-- Pixel `i` of tile `T`. -/
def pix (T : Fin 8) (i : Fin 512) : Fin 4096 := ⟨512 * T.val + i.val, by have := T.isLt; have := i.isLt; omega⟩

variable (g : Fin 4096 → Fin 4096 → EReal)

/-- What a row of row tile `P` has accumulated once column tiles `0 … Q` have been visited. -/
def rowAcc (P : Fin 8) (Q : ℕ) (i : Fin 512) : EReal :=
  ∑ T : Fin 8, if T.val ≤ Q then ∑ j : Fin 512, g (pix P i) (pix T j) else 0

/-- What column `q` has accumulated when the walk has finished column tile `Q` of row tile `P`: the whole of the row tiles
    before `P`, and of row tile `P` itself if the column's own tile is not after `Q`. -/
def colAcc (P Q : ℕ) (q : Fin 4096) : EReal :=
  ∑ T : Fin 8, if T.val < P ∨ (T.val = P ∧ q.val / 512 ≤ Q) then ∑ i : Fin 512, g (pix T i) q else 0

end Cert.Contrastive

end
-- ==== Proof.KArrays.lean ====
/-
  The four arrays the kernel region finds, in the specification's coordinates, and what block of them each grid
  point's input windows hold.

  The region runs over the grid (4, 8, 8) in row-major order: point t has batch n = t / 64, row tile P = (t mod 64) / 8
  and column tile Q = t mod 8. Its four input arrays are
    the first feature map   [4, 4096, 256]   pixel before channel, read in blocks [1, 512, 256] at block index (n, P, 0),
    the second feature map  [4, 256, 4096]   channel before pixel, read in blocks [1, 256, 512] at block index (n, 0, Q),
    the first label map     [4, 1, 4096]     read in blocks [1, 1, 512] at block index (n, 0, P),
    the second label map    [4, 1, 4096]     read in blocks [1, 1, 512] at block index (n, 0, Q).
  A block's coordinate on an axis is the block index times the block's extent plus the coordinate inside the block, so
  entry (0, i, ch) of the first block is the first map at batch n, channel ch and pixel 512 P + i, and likewise for the others.
-/
import proofs.«168801_j41678362640816_1_alg».proof.Proof.Gen.KernelIdeal.Frame
import proofs.«168801_j41678362640816_1_alg».proof.Proof.Spec
import Idealize.ShloMosaic.Lib.ValueIdx

noncomputable section

namespace Cert.Contrastive

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## The point's batch and tiles -/

/-- The grid has 256 points. -/
theorem lt_256 (t : Fin cfg0.N) : t.val < 256 := lt_of_lt_of_eq t.isLt (show cfg0.N = 256 from N_0)

/-- The batch of grid point t. -/
def nOf (t : Fin cfg0.N) : Fin 4 := ⟨t.val / 64, by have := lt_256 t; omega⟩
/-- Its row tile. -/
def pOf (t : Fin cfg0.N) : Fin 8 := ⟨t.val % 64 / 8, by omega⟩
/-- Its column tile. -/
def qOf (t : Fin cfg0.N) : Fin 8 := ⟨t.val % 8, by omega⟩

theorem nOf_val (t : Fin cfg0.N) : (nOf t).val = t.val / 64 := rfl
theorem pOf_val (t : Fin cfg0.N) : (pOf t).val = t.val % 64 / 8 := rfl
theorem qOf_val (t : Fin cfg0.N) : (qOf t).val = t.val % 8 := rfl

/-! ## The arrays -/

/-- The first feature map as the region finds it: batch, channel, pixel (the array itself is pixel before channel). -/
def ka (c : Dev nD) : Fin 4 → Fin 256 → Fin 4096 → EReal :=
  fun n ch s => (V m c main_v19 : Vec Ideal S4x4096x256 .bf16) (ix3 n s ch)
/-- The second feature map as the region finds it: batch, channel, pixel. -/
def kb (c : Dev nD) : Fin 4 → Fin 256 → Fin 4096 → EReal :=
  fun n ch s => (V m c main_v20 : Vec Ideal S4x256x4096 .bf16) (ix3 n ch s)
/-- The first label map as the region finds it: batch, pixel. -/
def kla (c : Dev nD) : Fin 4 → Fin 4096 → BitVec 32 :=
  fun n s => (V m c main_v23 : Vec Ideal S4x1x4096 .i32) (ix3 n 0 s)
/-- The second label map as the region finds it: batch, pixel. -/
def klb (c : Dev nD) : Fin 4 → Fin 4096 → BitVec 32 :=
  fun n s => (V m c main_v24 : Vec Ideal S4x1x4096 .i32) (ix3 n 0 s)

/-! ## The point's input blocks, at their literal types -/

/-- The block of the first feature map at point t: 512 pixels by 256 channels. -/
abbrev xblk0 (c : Dev nD) (t : Fin cfg0.N) : Vec Ideal S1x512x256 .bf16 := iblk m c 0 t
/-- The block of the second feature map at point t: 256 channels by 512 pixels. -/
abbrev xblk1 (c : Dev nD) (t : Fin cfg0.N) : Vec Ideal S1x256x512 .bf16 := iblk m c 1 t
/-- The block of the first label map at point t: 512 pixels. -/
abbrev xblk2 (c : Dev nD) (t : Fin cfg0.N) : Vec Ideal S1x1x512 .i32 := iblk m c 2 t
/-- The block of the second label map at point t: 512 pixels. -/
abbrev xblk3 (c : Dev nD) (t : Fin cfg0.N) : Vec Ideal S1x1x512 .i32 := iblk m c 3 t

/-! ## The block indices, decided over the grid -/

/-- The first feature map's block index at point t is (t / 64, (t mod 64) / 8, 0). -/
theorem index0 : ∀ t : Fin cfg0.N, win0_0.index t (0 : Fin 3) = t.val / 64
    ∧ win0_0.index t (1 : Fin 3) = t.val % 64 / 8 ∧ win0_0.index t (2 : Fin 3) = 0 :=
  (by decide +kernel : ∀ t : Fin grid0.N, _)
/-- The second feature map's block index at point t is (t / 64, 0, t mod 8). -/
theorem index1 : ∀ t : Fin cfg0.N, win0_1.index t (0 : Fin 3) = t.val / 64
    ∧ win0_1.index t (1 : Fin 3) = 0 ∧ win0_1.index t (2 : Fin 3) = t.val % 8 :=
  (by decide +kernel : ∀ t : Fin grid0.N, _)
/-- The first label map's block index at point t is (t / 64, 0, (t mod 64) / 8). -/
theorem index2 : ∀ t : Fin cfg0.N, win0_2.index t (0 : Fin 3) = t.val / 64
    ∧ win0_2.index t (1 : Fin 3) = 0 ∧ win0_2.index t (2 : Fin 3) = t.val % 64 / 8 :=
  (by decide +kernel : ∀ t : Fin grid0.N, _)
/-- The second label map's block index at point t is (t / 64, 0, t mod 8). -/
theorem index3 : ∀ t : Fin cfg0.N, win0_3.index t (0 : Fin 3) = t.val / 64
    ∧ win0_3.index t (1 : Fin 3) = 0 ∧ win0_3.index t (2 : Fin 3) = t.val % 8 :=
  (by decide +kernel : ∀ t : Fin grid0.N, _)

/-! ## A block read off any array, entry by entry

Each window's block is read off an arbitrary array of the window's type first: the block's coordinate on an axis is the
block index times the block's extent plus the coordinate inside the block, and the decided block indices turn that into
the point's batch and tile. -/

/-- Entry (0, i, ch) of the first window's block of an array A of shape [4, 4096, 256] is A at batch t / 64, pixel i of row tile (t mod 64) / 8, channel ch. -/
theorem read0 (t : Fin cfg0.N) (i : Fin 512) (ch : Fin 256) (A : Vec Ideal S4x4096x256 .bf16) :
    ((cfg0.win 0).blk t).view.read (Elt Ideal) A (ix3 0 i ch) = A (ix3 (nOf t) (pix (pOf t) i) ch) := by
  obtain ⟨e0, e1, e2⟩ := index0 t
  show A (((cfg0.win 0).blk t).view.emb (ix3 0 i ch)) = A (ix3 (nOf t) (pix (pOf t) i) ch)
  refine congrArg A ?_
  funext a
  apply Fin.ext
  match a with
  | ⟨0, _⟩ => show win0_0.index t (0 : Fin 3) * 1 + 1 * 0 = t.val / 64; omega
  | ⟨1, _⟩ => show win0_0.index t (1 : Fin 3) * 512 + 1 * i.val = 512 * (t.val % 64 / 8) + i.val; omega
  | ⟨2, _⟩ => show win0_0.index t (2 : Fin 3) * 256 + 1 * ch.val = ch.val; omega

/-- Entry (0, ch, j) of the second window's block of an array A of shape [4, 256, 4096] is A at batch t / 64, channel ch, pixel j of column tile t mod 8. -/
theorem read1 (t : Fin cfg0.N) (ch : Fin 256) (j : Fin 512) (A : Vec Ideal S4x256x4096 .bf16) :
    ((cfg0.win 1).blk t).view.read (Elt Ideal) A (ix3 0 ch j) = A (ix3 (nOf t) ch (pix (qOf t) j)) := by
  obtain ⟨e0, e1, e2⟩ := index1 t
  show A (((cfg0.win 1).blk t).view.emb (ix3 0 ch j)) = A (ix3 (nOf t) ch (pix (qOf t) j))
  refine congrArg A ?_
  funext a
  apply Fin.ext
  match a with
  | ⟨0, _⟩ => show win0_1.index t (0 : Fin 3) * 1 + 1 * 0 = t.val / 64; omega
  | ⟨1, _⟩ => show win0_1.index t (1 : Fin 3) * 256 + 1 * ch.val = ch.val; omega
  | ⟨2, _⟩ => show win0_1.index t (2 : Fin 3) * 512 + 1 * j.val = 512 * (t.val % 8) + j.val; omega

/-- Entry (0, 0, i) of the third window's block of an array A of shape [4, 1, 4096] is A at batch t / 64, pixel i of row tile (t mod 64) / 8. -/
theorem read2 (t : Fin cfg0.N) (i : Fin 512) (A : Vec Ideal S4x1x4096 .i32) :
    ((cfg0.win 2).blk t).view.read (Elt Ideal) A (ix3 0 0 i) = A (ix3 (nOf t) 0 (pix (pOf t) i)) := by
  obtain ⟨e0, e1, e2⟩ := index2 t
  show A (((cfg0.win 2).blk t).view.emb (ix3 0 0 i)) = A (ix3 (nOf t) 0 (pix (pOf t) i))
  refine congrArg A ?_
  funext a
  apply Fin.ext
  match a with
  | ⟨0, _⟩ => show win0_2.index t (0 : Fin 3) * 1 + 1 * 0 = t.val / 64; omega
  | ⟨1, _⟩ => show win0_2.index t (1 : Fin 3) * 1 + 1 * 0 = 0; omega
  | ⟨2, _⟩ => show win0_2.index t (2 : Fin 3) * 512 + 1 * i.val = 512 * (t.val % 64 / 8) + i.val; omega

/-- Entry (0, 0, j) of the fourth window's block of an array A of shape [4, 1, 4096] is A at batch t / 64, pixel j of column tile t mod 8. -/
theorem read3 (t : Fin cfg0.N) (j : Fin 512) (A : Vec Ideal S4x1x4096 .i32) :
    ((cfg0.win 3).blk t).view.read (Elt Ideal) A (ix3 0 0 j) = A (ix3 (nOf t) 0 (pix (qOf t) j)) := by
  obtain ⟨e0, e1, e2⟩ := index3 t
  show A (((cfg0.win 3).blk t).view.emb (ix3 0 0 j)) = A (ix3 (nOf t) 0 (pix (qOf t) j))
  refine congrArg A ?_
  funext a
  apply Fin.ext
  match a with
  | ⟨0, _⟩ => show win0_3.index t (0 : Fin 3) * 1 + 1 * 0 = t.val / 64; omega
  | ⟨1, _⟩ => show win0_3.index t (1 : Fin 3) * 1 + 1 * 0 = 0; omega
  | ⟨2, _⟩ => show win0_3.index t (2 : Fin 3) * 512 + 1 * j.val = 512 * (t.val % 8) + j.val; omega

/-! ## The blocks, entry by entry -/

/-- Entry (0, i, ch) of the first block is the first map at the point's batch, channel ch, pixel i of the point's row tile. -/
theorem blk0 (c : Dev nD) (t : Fin cfg0.N) (i : Fin 512) (ch : Fin 256) :
    xblk0 m c t (ix3 0 i ch) = ka m c (nOf t) ch (pix (pOf t) i) :=
  read0 t i ch (V m c main_v19)

/-- Entry (0, ch, j) of the second block is the second map at the point's batch, channel ch, pixel j of the point's column tile. -/
theorem blk1 (c : Dev nD) (t : Fin cfg0.N) (ch : Fin 256) (j : Fin 512) :
    xblk1 m c t (ix3 0 ch j) = kb m c (nOf t) ch (pix (qOf t) j) :=
  read1 t ch j (V m c main_v20)

/-- Entry (0, 0, i) of the third block is the first label map at the point's batch, pixel i of the point's row tile. -/
theorem blk2 (c : Dev nD) (t : Fin cfg0.N) (i : Fin 512) :
    xblk2 m c t (ix3 0 0 i) = kla m c (nOf t) (pix (pOf t) i) :=
  read2 t i (V m c main_v23)

/-- Entry (0, 0, j) of the fourth block is the second label map at the point's batch, pixel j of the point's column tile. -/
theorem blk3 (c : Dev nD) (t : Fin cfg0.N) (j : Fin 512) :
    xblk3 m c t (ix3 0 0 j) = klb m c (nOf t) (pix (qOf t) j) :=
  read3 t j (V m c main_v24)

end Cert.Contrastive

end
-- ==== Proof.Tile.lean ====
/-
  The tile's values read one element at a time, on the extended reals.

  One step of the walk takes a 512 × 256 block x0 of the first feature map (pixel by channel), a 256 × 512 block x1 of the
  second (channel by pixel) and the two blocks of 512 labels, and forms
    E i j  = exp (min 1 (max (-1) (Σ_ch x0 i ch · x1 ch j)) · s)         the clipped, scaled and exponentiated similarities,
    EM i j = E i j · [label i = label j]                                  the same kept where the labels agree,
  then adds the row sums of E and EM to two columns of 512 running sums, the column sums to two 512-slices of rows of
  4096 running sums, and at the end of a row (of a batch) divides the masked sums by the plain sums plus a guard.
  Each of these is stated here at one index: a sum over the 256 channels, over the 512 columns of a row or over the 512
  rows of a column, with the scale s the exact rational the inverse temperature denotes. The reshapes between a vector
  of 512, a column 512 × 1, a row 1 × 512 and a block 1 × 1 × 512 move no element; they are read through first.
-/
import proofs.«168801_j41678362640816_1_alg».proof.Proof.Gen.KernelIdeal.Skeleton
import proofs.«168801_j41678362640816_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Contrastive

open Cert.KernelIdeal Cert.KernelIdeal.Gen Idealize.ShloMosaic
open Idealize.ShloMosaic.ValueIdx

namespace Tile

/-! ## Reshapes that keep the row-major order: a trailing unit axis, two leading unit axes, a column spread over columns -/

section Layout
variable {α : Type}

/-- A vector of length a seen as a column a × 1 has, at (i, u), the vector's element i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column a × 1 seen as a vector of length a has, at i, the column's element (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A block 1 × 1 × a seen as a vector of length a has, at i, the block's element (0, 0, i). -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A vector of length a seen as a block 1 × 1 × a has, at (u, v, i), the vector's element i. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- A column a × 1 spread over b columns has, at (p, c), the column's element (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two sums of a 512 × 512 tile along an axis -/

/-- The sum along the columns, at row i, is the sum of row i. -/
theorem rowSum_apply (v : FVec Ideal S512x512 .f32) (h : S512x512.Reduces [1] S512) (hφ : FKind.Formats .f32)
    (hacc : (0x00000000#32 : BitVec 32) = 0x00000000#32) (i : Fin 512) :
    multiReduction (F := Ideal) .add [1] S512 v 0x00000000#32 h hφ hacc (ix1 i) = ∑ j : Fin 512, v (ix2 i j) := by
  refine (Ideal.multiReduction_add_single v 0x00000000#32 h hφ hacc (ix1 i)).trans ?_
  refine Finset.sum_congr rfl fun j _ => congrArg v (funext fun a => Fin.ext ?_)
  match a with
  | ⟨0, _⟩ => rfl
  | ⟨1, _⟩ => rfl

/-- The sum along the rows, at column j, is the sum of column j. -/
theorem colSum_apply (v : FVec Ideal S512x512 .f32) (h : S512x512.Reduces [0] S512) (hφ : FKind.Formats .f32)
    (hacc : (0x00000000#32 : BitVec 32) = 0x00000000#32) (j : Fin 512) :
    multiReduction (F := Ideal) .add [0] S512 v 0x00000000#32 h hφ hacc (ix1 j) = ∑ i : Fin 512, v (ix2 i j) := by
  refine (Ideal.multiReduction_add_single v 0x00000000#32 h hφ hacc (ix1 j)).trans ?_
  refine Finset.sum_congr rfl fun i _ => congrArg v (funext fun a => Fin.ext ?_)
  match a with
  | ⟨0, _⟩ => rfl
  | ⟨1, _⟩ => rfl

/-! ## One element of the label mask -/

/-- The one-bit word "the two labels are equal", widened to 32 bits and read as a signed integer, is 1 or 0. -/
theorem mask_word (a b : BitVec 32) :
    FloatOps.sitofp (F := Ideal) .f32 ((IntOp.cmpi .eq a b).setWidth 32) = if a = b then 1 else 0 := by
  show ((((IntOp.cmpi .eq a b).setWidth 32).toInt : ℝ) : EReal) = _
  by_cases hab : a = b
  · subst hab
    rw [if_pos rfl]
    simp [IntOp.cmpi]
  · have hne : (a == b) = false := by simpa using hab
    rw [if_neg hab]
    simp [IntOp.cmpi, hne]

/-! ## The matrix product of the tile

The contraction runs over one axis of 256 channels; its index set is matched with Fin 256, and the two operand indices
at output (i, j) and channel k are (i, k) and (k, j), coordinate by coordinate. -/

theorem lhs_dot_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
theorem lhs_dot_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_dot_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_dot_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The product of a 512 × 256 and a 256 × 512 matrix added to the zero tile, at (i, j): the inner product over the 256 channels. -/
theorem matmul_tile_apply (l : FVec Ideal S512x256 .bf16) (r : FVec Ideal S256x512 .bf16) (i j : Fin 512) :
    matmul (F := Ideal) dot_S512x256_S256x512_S512x512_1_0_0_1_n_n none l r (constant (F := Ideal) S512x512 .f32 0x00000000#32) (ix2 i j)
      = ∑ ch : Fin 256, l (ix2 i ch) * r (ix2 ch j) := by
  simp only [matmul]
  rw [Ideal.matmul_constant_zero_apply,
    ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 i j)
      ((ValueIdx.contrEquiv1 dot_S512x256_S256x512_S512x512_1_0_0_1_n_n 256 rfl rfl).symm k) = ix2 i k :=
    funext fun a => Fin.ext (by
      match a with
      | ⟨0, _⟩ => exact lhs_dot_0 _ _
      | ⟨1, _⟩ => exact (lhs_dot_1 _ _).trans hk)
  have er : dot_S512x256_S256x512_S512x512_1_0_0_1_n_n.rhsIdx (ix2 i j)
      ((ValueIdx.contrEquiv1 dot_S512x256_S256x512_S512x512_1_0_0_1_n_n 256 rfl rfl).symm k) = ix2 k j :=
    funext fun a => Fin.ext (by
      match a with
      | ⟨0, _⟩ => exact (rhs_dot_0 _ _).trans hk
      | ⟨1, _⟩ => exact rhs_dot_1 _ _)
  rw [el, er]

end Tile

open Tile

/-! ## The scale -/

/-- The scale denotes the inverse temperature: the rational 2^28 / 13421773. -/
theorem named_invTemp : Named.named (F := Ideal) Cert.KernelIdeal.κ "fold_c_268435456_13421773" (φ := .f32) 0x41A00000#32 = invTemp :=
  IdealRules.named_const.ideal_named_scalar _ _ _ _ rfl

/-! ## The tile of exponentiated similarities, and the same under the label mask -/

/-- E i j = exp (min 1 (max (-1) (Σ_ch x0 i ch · x1 ch j)) · s). -/
theorem pay6_apply (x0 : Vec Ideal S1x512x256 .bf16) (x1 : Vec Ideal S1x256x512 .bf16) (i j : Fin 512) :
    k0_pay6 (F := Ideal) x0 x1 (ix2 i j)
      = Ideal.exp (min posOne (max negOne (∑ ch : Fin 256, x0 (ix3 0 i ch) * x1 (ix3 0 ch j))) * invTemp) := by
  unfold k0_pay6
  show Ideal.exp (min (Ideal.ofBits .f32 0x3F800000#32) (max (Ideal.ofBits .f32 0xBF800000#32)
      (matmul (F := Ideal) dot_S512x256_S256x512_S512x512_1_0_0_1_n_n none
        (shapeCast S512x256 x0 Facts₀.shapeCasts_S1x512x256_S512x256)
        (shapeCast S256x512 x1 Facts₀.shapeCasts_S1x256x512_S256x512)
        (constant (F := Ideal) S512x512 .f32 0x00000000#32) (ix2 i j)))
      * Named.named (F := Ideal) Cert.KernelIdeal.κ "fold_c_268435456_13421773" (φ := .f32) 0x41A00000#32) = _
  rw [matmul_tile_apply, named_invTemp]
  refine congrArg (fun s => Ideal.exp (min posOne (max negOne s) * invTemp)) (Finset.sum_congr rfl fun ch _ => ?_)
  rw [shapeCast_1ab_ab_apply, shapeCast_1ab_ab_apply]

/-- EM i j = E i j · [x2 i = x3 j]. -/
theorem pay7_apply (x0 : Vec Ideal S1x512x256 .bf16) (x1 : Vec Ideal S1x256x512 .bf16) (x2 x3 : Vec Ideal S1x1x512 .i32)
    (i j : Fin 512) :
    k0_pay7 (F := Ideal) x0 x1 x2 x3 (ix2 i j)
      = k0_pay6 (F := Ideal) x0 x1 (ix2 i j) * (if x2 (ix3 0 0 i) = x3 (ix3 0 0 j) then 1 else 0) := by
  unfold k0_pay7
  show k0_pay6 (F := Ideal) x0 x1 (ix2 i j) * FloatOps.sitofp (F := Ideal) .f32 ((IntOp.cmpi .eq
      (broadcastTo S512x512 (shapeCast S512x1 (shapeCast S512 x2 Facts₀.shapeCasts_S1x1x512_S512) Facts₀.shapeCasts_S512_S512x1)
        Facts₀.broadcasts_S512x1_S512x512 (ix2 i j))
      (broadcastTo S512x512 (shapeCast S1x512 (shapeCast S512 x3 Facts₀.shapeCasts_S1x1x512_S512) Facts₀.shapeCasts_S512_S1x512)
        Facts₀.broadcasts_S1x512_S512x512 (ix2 i j))).setWidth 32) = _
  rw [mask_word, broadcastTo_a1_ab_apply, broadcastTo_1b_ab_apply, shapeCast_a_a1_apply, shapeCast_a_1a_apply,
    shapeCast_11a_a_apply, shapeCast_11a_a_apply]

/-! ## The running sums: a row's, and a column's slice -/

/-- A row's running sum after the tile: what it was plus the sum of the tile's row. -/
theorem pay8_apply (v19 : FVec Ideal S512x512 .f32) (v32 : Vec Ideal S512x1 .f32) (i : Fin 512) :
    k0_pay8 (F := Ideal) v19 v32 (ix2 i 0) = v32 (ix2 i 0) + ∑ j : Fin 512, v19 (ix2 i j) := by
  unfold k0_pay8
  rw [shapeCast_self]
  show v32 (ix2 i 0) + shapeCast S512x1 (multiReduction (F := Ideal) .add [1] S512 v19 0x00000000#32 Facts₀.reduces_S512x512_S512 (.inl rfl) rfl)
      Facts₀.shapeCasts_S512_S512x1 (ix2 i 0) = _
  rw [shapeCast_a_a1_apply, rowSum_apply]

/-- The same for the masked tile's row. -/
theorem pay9_apply (v31 : FVec Ideal S512x512 .f32) (v39 : Vec Ideal S512x1 .f32) (i : Fin 512) :
    k0_pay9 (F := Ideal) v31 v39 (ix2 i 0) = v39 (ix2 i 0) + ∑ j : Fin 512, v31 (ix2 i j) := by
  unfold k0_pay9
  rw [shapeCast_self]
  show v39 (ix2 i 0) + shapeCast S512x1 (multiReduction (F := Ideal) .add [1] S512 v31 0x00000000#32 Facts₀.reduces_S512x512_S512 (.inl rfl) rfl)
      Facts₀.shapeCasts_S512_S512x1 (ix2 i 0) = _
  rw [shapeCast_a_a1_apply, rowSum_apply]

/-- A column's running sum after the tile, inside the tile's slice: what it was plus the sum of the tile's column. -/
theorem pay10_apply (v19 : FVec Ideal S512x512 .f32) (v53 : Vec Ideal S1x512 .f32) (j : Fin 512) :
    k0_pay10 (F := Ideal) v19 v53 (ix2 0 j) = v53 (ix2 0 j) + ∑ i : Fin 512, v19 (ix2 i j) := by
  unfold k0_pay10
  rw [shapeCast_self]
  show v53 (ix2 0 j) + shapeCast S1x512 (multiReduction (F := Ideal) .add [0] S512 v19 0x00000000#32 Facts₀.reduces_S512x512_S512_2 (.inl rfl) rfl)
      Facts₀.shapeCasts_S512_S1x512 (ix2 0 j) = _
  rw [shapeCast_a_1a_apply, colSum_apply]

/-- The same for the masked tile's column. -/
theorem pay11_apply (v31 : FVec Ideal S512x512 .f32) (v60 : Vec Ideal S1x512 .f32) (j : Fin 512) :
    k0_pay11 (F := Ideal) v31 v60 (ix2 0 j) = v60 (ix2 0 j) + ∑ i : Fin 512, v31 (ix2 i j) := by
  unfold k0_pay11
  rw [shapeCast_self]
  show v60 (ix2 0 j) + shapeCast S1x512 (multiReduction (F := Ideal) .add [0] S512 v31 0x00000000#32 Facts₀.reduces_S512x512_S512_2 (.inl rfl) rfl)
      Facts₀.shapeCasts_S512_S1x512 (ix2 0 j) = _
  rw [shapeCast_a_1a_apply, colSum_apply]

/-! ## The two ratios -/

/-- A row's ratio: the masked sum over the plain sum plus the guard. -/
theorem pay12_apply (v74 v75 : Vec Ideal S512x1 .f32) (i : Fin 512) :
    k0_pay12 (F := Ideal) v74 v75 (ix3 0 0 i) = Ideal.div (v74 (ix2 i 0)) (v75 (ix2 i 0) + guard) := by
  unfold k0_pay12
  rw [shapeCast_a_11a_apply, shapeCast_a1_a_apply]
  rfl

/-- A column's ratio: the masked sum over the plain sum plus the guard. -/
theorem pay1_apply (v74 v75 : Vec Ideal S1x4096 .f32) (q : Fin 4096) :
    k0_pay1 (F := Ideal) v74 v75 (ix3 0 0 q) = Ideal.div (v74 (ix2 0 q)) (v75 (ix2 0 q) + guard) := by
  unfold k0_pay1
  rw [shapeCast_a_11a_apply, shapeCast_1a_a_apply]
  rfl

/-! ## The running sums at the start of a row, and of a batch: zero -/

theorem pay2_apply (y : S512x1.Idx) : k0_pay2 (F := Ideal) y = 0 := by
  unfold k0_pay2
  rw [shapeCast_self]
  exact Ideal.ofBits_zero_f32

theorem pay3_apply (y : S512x1.Idx) : k0_pay3 (F := Ideal) y = 0 := by
  unfold k0_pay3
  rw [shapeCast_self]
  exact Ideal.ofBits_zero_f32

theorem pay4_apply (y : S1x4096.Idx) : k0_pay4 (F := Ideal) y = 0 := by
  unfold k0_pay4
  rw [shapeCast_self]
  exact Ideal.ofBits_zero_f32

theorem pay5_apply (y : S1x4096.Idx) : k0_pay5 (F := Ideal) y = 0 := by
  unfold k0_pay5
  rw [shapeCast_self]
  exact Ideal.ofBits_zero_f32

end Cert.Contrastive

end
-- ==== Proof.Pieces.lean ====
/-
  What one grid point's body leaves in the four carried accumulators and in the two output staging buffers, case by case.

  The launch grid is (4, 8, 8): a point is a batch, a tile P of 512 rows and a tile Q of 512 columns. The body forms the
  512 × 512 tile of exponentiated similarities and its masked copy (`k0_pay6`, `k0_pay7`), adds their row sums to the
  two row accumulators (512 entries each; `k0_pay8`, `k0_pay9`) and their column sums to the `Q`-th tile of the two column
  accumulators (4096 entries each; `k0_pay10`, `k0_pay11`). At the first column tile (Q = 0) the row accumulators start
  from zero (`k0_pay2`, `k0_pay3`), at the first point of a batch (P = Q = 0) the column accumulators do (`k0_pay4`,
  `k0_pay5`). At the last column tile (Q = 7) the row ratio of the finished row accumulators is stored to the first
  output's staging buffer (`k0_pay12`), at the last point of a batch (P = Q = 7) the column ratio to the second's
  (`k0_pay1`). The five combinations that occur:
    A  P = 0, Q = 0     both pairs start from zero
    D  P > 0, Q = 0     the row pair starts from zero, the column pair continues
    B  0 < Q < 7        everything continues
    C  Q = 7, P < 7     everything continues, the row ratio is stored
    E  P = 7, Q = 7     everything continues, both ratios are stored.
  A row accumulator is rewritten whole at every point, so it is stated as an equation of rows. A column accumulator is
  rewritten only on the `Q`-th tile: it is stated column by column — inside the tile the new tile at the column's
  position, outside it the old entry.

  This module has the shared vocabulary and the three cases B, C, E in which all four accumulators continue; the two cases
  with a fresh start (A, D) are stated in the same form in a module of their own.

  First the statements over arbitrary staging memrefs and contents (`piece_*`, for any float type), then at a point `t`
  of the grid over the point's input blocks and what the point before left (`step_*`).
-/
import proofs.«168801_j41678362640816_1_alg».proof.Proof.Gen.KernelIdeal.Frame
import Idealize.ShloMosaic.Lib.WritesUnit
import Idealize.ShloMosaic.Lib.Pipeline.Value
import Idealize.ShloMosaic.Lib.ValueIdx
import Idealize.ShloMosaic.Lib.Tactic

set_option maxRecDepth 16384

noncomputable section

namespace Cert.Contrastive

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F] [Named F]

/-! ## Tiles of 512 columns of a row of 4096 -/

/-- Column `q` lies in the `Q`-th tile of 512 consecutive columns. -/
def inTile (Q : Fin 8) (q : Fin 4096) : Prop := 512 * Q.val ≤ q.val ∧ q.val < 512 * Q.val + 512

instance (Q : Fin 8) (q : Fin 4096) : Decidable (inTile Q q) := by unfold inTile; infer_instance

/-- The position of a column of the `Q`-th tile within that tile. -/
def tileLocal (Q : Fin 8) (q : Fin 4096) (h : inTile Q q) : Fin 512 :=
  ⟨q.val - 512 * Q.val, by unfold inTile at h; omega⟩

/-- The column at position `j` of the `Q`-th tile. -/
def tileCol (Q : Fin 8) (j : Fin 512) : Fin 4096 := ⟨512 * Q.val + j.val, by omega⟩

@[simp] theorem tileLocal_val (Q : Fin 8) (q : Fin 4096) (h : inTile Q q) : (tileLocal Q q h).val = q.val - 512 * Q.val := rfl
@[simp] theorem tileCol_val (Q : Fin 8) (j : Fin 512) : (tileCol Q j).val = 512 * Q.val + j.val := rfl

theorem inTile_tileCol (Q : Fin 8) (j : Fin 512) : inTile Q (tileCol Q j) := by
  unfold inTile; rw [tileCol_val]; omega

theorem tileCol_tileLocal (Q : Fin 8) (q : Fin 4096) (h : inTile Q q) : tileCol Q (tileLocal Q q h) = q :=
  Fin.ext (by rw [tileCol_val, tileLocal_val]; unfold inTile at h; omega)

theorem tileLocal_tileCol (Q : Fin 8) (j : Fin 512) (h : inTile Q (tileCol Q j)) : tileLocal Q (tileCol Q j) h = j :=
  Fin.ext (by rw [tileLocal_val, tileCol_val]; omega)

/-- Every column lies in the tile of its quotient by 512. -/
theorem inTile_div (q : Fin 4096) : inTile ⟨q.val / 512, by omega⟩ q := by
  unfold inTile; dsimp only; omega

/-- A column lies in at most one tile. -/
theorem inTile_unique {Q Q' : Fin 8} {q : Fin 4096} (h : inTile Q q) (h' : inTile Q' q) : Q = Q' :=
  Fin.ext (by unfold inTile at h h'; omega)

/-- The `Q`-th tile of a row of 4096 entries, as a row of 512. -/
def colSlice (Q : Fin 8) (v : Vec F S1x4096 .f32) : Vec F S1x512 .f32 :=
  fun x => v (ix2 (0 : Fin 1) (tileCol Q (x 1)))

theorem colSlice_apply (Q : Fin 8) (v : Vec F S1x4096 .f32) (j : Fin 512) :
    colSlice Q v (ix2 (0 : Fin 1) j) = v (ix2 (0 : Fin 1) (tileCol Q j)) := rfl

/-- A load of the 512 columns from column `512 · Q` on reads the `Q`-th tile. -/
theorem ld_tile {off : Fin 2 → ℕ} (inb : ∀ a, off a + S1x512.size a ≤ S1x4096.size a) (Q : Fin 8)
    (heq : off = ![0, 512 * Q.val]) (X : Vec F S1x4096 .f32) :
    View.ld (Val := Elt F) X (Rect.unit (s := S1x4096) off S1x512.size inb) = colSlice Q X := by
  subst heq
  funext x
  refine congrArg X (funext fun a => ?_)
  match a with
  | ⟨0, _⟩ => exact Fin.ext (by have := (x 0).isLt; have h1 : (x 0).val < 1 := this; show 0 + 1 * (x 0).val = 0; omega)
  | ⟨1, _⟩ => exact Fin.ext (by show 512 * Q.val + 1 * (x 1).val = 512 * Q.val + (x 1).val; omega)

/-- After a store of a row of 512 at column `512 · Q`, made last, a column of the `Q`-th tile reads the stored row at
its position in the tile. -/
theorem read_tile_in {sig : RefSig} {κ : Kind} {sp : Space} (v : View sig κ sp S1x4096 .f32) (f : v.ty.Contents (Elt F))
    {off : Fin 2 → ℕ} (inb : ∀ a, off a + S1x512.size a ≤ S1x4096.size a)
    (w : (Rect.unit (s := S1x4096) off S1x512.size inb).shape.Idx → Elt F .f32) (L : List (View.Piece (Elt F) S1x4096 .f32))
    (Q : Fin 8) (heq : off = ![0, 512 * Q.val]) (j : Fin 512) :
    v.read (Elt F) (v.writes (Elt F) f ((⟨Rect.unit off S1x512.size inb, w⟩ : View.Piece (Elt F) S1x4096 .f32) :: L))
        (ix2 (0 : Fin 1) (tileCol Q j)) = w (ix2 (0 : Fin 1) j) :=
  View.read_writes_cons_unit_of_mem v f inb w L (ix2 (0 : Fin 1) (tileCol Q j)) (ix2 (0 : Fin 1) j) heq fun a => by
    match a with
    | ⟨0, _⟩ => rfl
    | ⟨1, _⟩ => rfl

/-- A column outside the `Q`-th tile reads what the earlier stores left. -/
theorem read_tile_out {sig : RefSig} {κ : Kind} {sp : Space} (v : View sig κ sp S1x4096 .f32) (f : v.ty.Contents (Elt F))
    {off : Fin 2 → ℕ} (inb : ∀ a, off a + S1x512.size a ≤ S1x4096.size a)
    (w : (Rect.unit (s := S1x4096) off S1x512.size inb).shape.Idx → Elt F .f32) (L : List (View.Piece (Elt F) S1x4096 .f32))
    (Q : Fin 8) (heq : off = ![0, 512 * Q.val]) (q : Fin 4096) (hq : ¬inTile Q q) :
    v.read (Elt F) (v.writes (Elt F) f ((⟨Rect.unit off S1x512.size inb, w⟩ : View.Piece (Elt F) S1x4096 .f32) :: L))
        (ix2 (0 : Fin 1) q) = v.read (Elt F) (v.writes (Elt F) f L) (ix2 (0 : Fin 1) q) :=
  View.read_writes_cons_unit_of_not_mem v f inb w L (ix2 (0 : Fin 1) q) heq 1 (by
    unfold inTile at hq
    show q.val < 512 * Q.val ∨ 512 * Q.val + 512 ≤ q.val
    omega)

theorem hz2 : (![0, 0] : Fin 2 → Nat) = fun _ => 0 := funext fun a => by fin_cases a <;> rfl
theorem hz3 : (![0, 0, 0] : Fin 3 → Nat) = fun _ => 0 := funext fun a => by fin_cases a <;> rfl

/-- ONE store of a whole buffer, and nothing else, reads back as what was stored. -/
theorem read_store_whole {S : Shape} {e : EltTy} {sig : RefSig} {κ : Kind} {sp : Space} (v : View sig κ sp S e)
    (f : v.ty.Contents (Elt F)) {off0 : Fin S.rank → ℕ} (h0 : off0 = fun _ => 0) (inb0 : ∀ a, off0 a + S.size a ≤ S.size a)
    (w : S.Idx → Elt F e) :
    v.read (Elt F) (v.writes (Elt F) f [(⟨Rect.unit off0 S.size inb0, w⟩ : View.Piece (Elt F) S e)]) = w := by
  subst h0
  exact View.read_writes_whole v f w

/-- A load of the `Q`-th tile, after ONE store of a whole row of 4096 and nothing else, reads that row's `Q`-th tile. -/
theorem readCov_tile [∀ e, Nonempty (Elt F e)] {sig : RefSig} {κ : Kind} {sp : Space} (v : View sig κ sp S1x4096 .f32)
    {off0 : Fin 2 → ℕ} (h0 : off0 = fun _ => 0) (inb0 : ∀ a, off0 a + S1x4096.size a ≤ S1x4096.size a) (w : Vec F S1x4096 .f32)
    {off : Fin 2 → ℕ} (inb : ∀ a, off a + S1x512.size a ≤ S1x4096.size a) (Q : Fin 8) (heq : off = ![0, 512 * Q.val]) :
    v.readCov [(⟨Rect.unit off0 S1x4096.size inb0, w⟩ : View.Piece (Elt F) S1x4096 .f32)]
        (Rect.unit (s := S1x4096) off S1x512.size inb).toLoadRect = colSlice Q w := by
  have e : v.readCov [(⟨Rect.unit off0 S1x4096.size inb0, w⟩ : View.Piece (Elt F) S1x4096 .f32)]
        (Rect.unit (s := S1x4096) off S1x512.size inb).toLoadRect
      = View.ld (Val := Elt F) (v.read (Elt F) (v.writes (Elt F) v.junk
          [(⟨Rect.unit off0 S1x4096.size inb0, w⟩ : View.Piece (Elt F) S1x4096 .f32)]))
          (Rect.unit (s := S1x4096) off S1x512.size inb) := rfl
  rw [e, read_store_whole v _ h0 inb0 w]
  exact ld_tile inb Q heq w

/-! ## Over arbitrary staging memrefs and contents -/

section Pieces

variable (c : Dev nD) (i : grid0.Coords)
  (arg3 : Memref sig .tc .vmem S1x512x256 .bf16) (harg3 : arg3.IsWhole) (arg4 : Memref sig .tc .vmem S1x256x512 .bf16) (harg4 : arg4.IsWhole)
  (arg5 : Memref sig .tc .vmem S1x1x512 .i32) (harg5 : arg5.IsWhole) (arg6 : Memref sig .tc .vmem S1x1x512 .i32) (harg6 : arg6.IsWhole)
  (arg7 : Memref sig .tc .vmem S1x1x512 .f32) (harg7 : arg7.IsWhole) (arg8 : Memref sig .tc .vmem S1x1x4096 .f32) (harg8 : arg8.IsWhole)
  (arg9 : Memref sig .tc .vmem S512x1 .f32) (harg9 : arg9.IsWhole) (arg10 : Memref sig .tc .vmem S512x1 .f32) (harg10 : arg10.IsWhole)
  (arg11 : Memref sig .tc .vmem S1x4096 .f32) (harg11 : arg11.IsWhole) (arg12 : Memref sig .tc .vmem S1x4096 .f32) (harg12 : arg12.IsWhole)
  (x0 : Vec F S1x512x256 .bf16) (x1 : Vec F S1x256x512 .bf16) (x2 : Vec F S1x1x512 .i32) (x3 : Vec F S1x1x512 .i32)
  (xs0 : Vec F S512x1 .f32) (xs1 : Vec F S512x1 .f32) (xs2 : Vec F S1x4096 .f32) (xs3 : Vec F S1x4096 .f32)

/-! ### Case B (0 < Q < 7) -/

/-- Case B: the first row accumulator after the body. -/
theorem piece_B_rowE (hc0 : ¬cond0_0 i) (hc1 : ¬cond0_1 i) (hc2 : ¬cond0_2 i) (hc3 : ¬cond0_3 i) :
    sout0_B_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay8 (k0_pay6 x0 x1) xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_B
  dsimp only
  sl_unfold_words
  rw [View.canon_unit_zero (S := S512x1) hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case B: the second row accumulator after the body. -/
theorem piece_B_rowNum (hc0 : ¬cond0_0 i) (hc1 : ¬cond0_1 i) (hc2 : ¬cond0_2 i) (hc3 : ¬cond0_3 i) :
    sout0_B_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay9 (k0_pay7 x0 x1 x2 x3) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_B
  dsimp only
  sl_unfold_words
  rw [View.canon_unit_zero (S := S512x1) hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case B: the first column accumulator after the body, at a column of the tile. -/
theorem piece_B_colE_in (hc0 : ¬cond0_0 i) (hc1 : ¬cond0_1 i) (hc2 : ¬cond0_2 i) (hc3 : ¬cond0_3 i) (Q : Fin 8) (hQ : (i 2).val = Q.val) (j : Fin 512) :
    sout0_B_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) (tileCol Q j))
      = k0_pay10 (k0_pay6 x0 x1) (colSlice Q xs2) (ix2 (0 : Fin 1) j) := by
  have hoff : k0_off1 i = ![0, 512 * Q.val] := by rw [k0_off1_eq, hQ]
  unfold sout0_B_2
  unfold kernelRun0_B
  dsimp only
  sl_unfold_run_names
  rw [read_tile_in _ _ (k0_off1_inb i) _ _ Q hoff j]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2, ld_tile (k0_off1_inb i) Q hoff]

/-- Case B: the first column accumulator after the body, at a column outside the tile. -/
theorem piece_B_colE_out (hc0 : ¬cond0_0 i) (hc1 : ¬cond0_1 i) (hc2 : ¬cond0_2 i) (hc3 : ¬cond0_3 i) (Q : Fin 8) (hQ : (i 2).val = Q.val) (q : Fin 4096) (hq : ¬inTile Q q) :
    sout0_B_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q) = xs2 (ix2 (0 : Fin 1) q) := by
  have hoff : k0_off1 i = ![0, 512 * Q.val] := by rw [k0_off1_eq, hQ]
  unfold sout0_B_2
  unfold kernelRun0_B
  dsimp only
  sl_unfold_run_names
  rw [read_tile_out _ _ (k0_off1_inb i) _ _ Q hoff q hq, View.writes_nil, harg11.read_unread]

/-- Case B: the first column accumulator after the body, column by column. -/
theorem piece_B_colE (hc0 : ¬cond0_0 i) (hc1 : ¬cond0_1 i) (hc2 : ¬cond0_2 i) (hc3 : ¬cond0_3 i) (Q : Fin 8) (hQ : (i 2).val = Q.val) (q : Fin 4096) :
    sout0_B_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q)
      = if h : inTile Q q then k0_pay10 (k0_pay6 x0 x1) (colSlice Q xs2) (ix2 (0 : Fin 1) (tileLocal Q q h))
        else xs2 (ix2 (0 : Fin 1) q) := by
  by_cases h : inTile Q q
  · rw [dif_pos h]
    have e := piece_B_colE_in (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ (tileLocal Q q h)
    rw [tileCol_tileLocal] at e
    exact e
  · rw [dif_neg h]
    exact piece_B_colE_out (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ q h

/-- Case B: the second column accumulator after the body, at a column of the tile. -/
theorem piece_B_colNum_in (hc0 : ¬cond0_0 i) (hc1 : ¬cond0_1 i) (hc2 : ¬cond0_2 i) (hc3 : ¬cond0_3 i) (Q : Fin 8) (hQ : (i 2).val = Q.val) (j : Fin 512) :
    sout0_B_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) (tileCol Q j))
      = k0_pay11 (k0_pay7 x0 x1 x2 x3) (colSlice Q xs3) (ix2 (0 : Fin 1) j) := by
  have hoff : k0_off1 i = ![0, 512 * Q.val] := by rw [k0_off1_eq, hQ]
  unfold sout0_B_3
  unfold kernelRun0_B
  dsimp only
  sl_unfold_run_names
  rw [read_tile_in _ _ (k0_off1_inb i) _ _ Q hoff j]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2, ld_tile (k0_off1_inb i) Q hoff]

/-- Case B: the second column accumulator after the body, at a column outside the tile. -/
theorem piece_B_colNum_out (hc0 : ¬cond0_0 i) (hc1 : ¬cond0_1 i) (hc2 : ¬cond0_2 i) (hc3 : ¬cond0_3 i) (Q : Fin 8) (hQ : (i 2).val = Q.val) (q : Fin 4096) (hq : ¬inTile Q q) :
    sout0_B_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q) = xs3 (ix2 (0 : Fin 1) q) := by
  have hoff : k0_off1 i = ![0, 512 * Q.val] := by rw [k0_off1_eq, hQ]
  unfold sout0_B_3
  unfold kernelRun0_B
  dsimp only
  sl_unfold_run_names
  rw [read_tile_out _ _ (k0_off1_inb i) _ _ Q hoff q hq, View.writes_nil, harg12.read_unread]

/-- Case B: the second column accumulator after the body, column by column. -/
theorem piece_B_colNum (hc0 : ¬cond0_0 i) (hc1 : ¬cond0_1 i) (hc2 : ¬cond0_2 i) (hc3 : ¬cond0_3 i) (Q : Fin 8) (hQ : (i 2).val = Q.val) (q : Fin 4096) :
    sout0_B_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q)
      = if h : inTile Q q then k0_pay11 (k0_pay7 x0 x1 x2 x3) (colSlice Q xs3) (ix2 (0 : Fin 1) (tileLocal Q q h))
        else xs3 (ix2 (0 : Fin 1) q) := by
  by_cases h : inTile Q q
  · rw [dif_pos h]
    have e := piece_B_colNum_in (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ (tileLocal Q q h)
    rw [tileCol_tileLocal] at e
    exact e
  · rw [dif_neg h]
    exact piece_B_colNum_out (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ q h

/-! ### Case C (Q = 7, P < 7) -/

/-- Case C: the first row accumulator after the body. -/
theorem piece_C_rowE (hc0 : ¬cond0_0 i) (hc1 : ¬cond0_1 i) (hc2 : cond0_2 i) (hc3 : ¬cond0_3 i) :
    sout0_C_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay8 (k0_pay6 x0 x1) xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_unit_zero (S := S512x1) hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case C: the second row accumulator after the body. -/
theorem piece_C_rowNum (hc0 : ¬cond0_0 i) (hc1 : ¬cond0_1 i) (hc2 : cond0_2 i) (hc3 : ¬cond0_3 i) :
    sout0_C_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay9 (k0_pay7 x0 x1 x2 x3) xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_unit_zero (S := S512x1) hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case C: the first column accumulator after the body, at a column of the tile. -/
theorem piece_C_colE_in (hc0 : ¬cond0_0 i) (hc1 : ¬cond0_1 i) (hc2 : cond0_2 i) (hc3 : ¬cond0_3 i) (Q : Fin 8) (hQ : (i 2).val = Q.val) (j : Fin 512) :
    sout0_C_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) (tileCol Q j))
      = k0_pay10 (k0_pay6 x0 x1) (colSlice Q xs2) (ix2 (0 : Fin 1) j) := by
  have hoff : k0_off1 i = ![0, 512 * Q.val] := by rw [k0_off1_eq, hQ]
  unfold sout0_C_2
  unfold kernelRun0_C
  dsimp only
  sl_unfold_run_names
  rw [read_tile_in _ _ (k0_off1_inb i) _ _ Q hoff j]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2, ld_tile (k0_off1_inb i) Q hoff]

/-- Case C: the first column accumulator after the body, at a column outside the tile. -/
theorem piece_C_colE_out (hc0 : ¬cond0_0 i) (hc1 : ¬cond0_1 i) (hc2 : cond0_2 i) (hc3 : ¬cond0_3 i) (Q : Fin 8) (hQ : (i 2).val = Q.val) (q : Fin 4096) (hq : ¬inTile Q q) :
    sout0_C_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q) = xs2 (ix2 (0 : Fin 1) q) := by
  have hoff : k0_off1 i = ![0, 512 * Q.val] := by rw [k0_off1_eq, hQ]
  unfold sout0_C_2
  unfold kernelRun0_C
  dsimp only
  sl_unfold_run_names
  rw [read_tile_out _ _ (k0_off1_inb i) _ _ Q hoff q hq, View.writes_nil, harg11.read_unread]

/-- Case C: the first column accumulator after the body, column by column. -/
theorem piece_C_colE (hc0 : ¬cond0_0 i) (hc1 : ¬cond0_1 i) (hc2 : cond0_2 i) (hc3 : ¬cond0_3 i) (Q : Fin 8) (hQ : (i 2).val = Q.val) (q : Fin 4096) :
    sout0_C_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q)
      = if h : inTile Q q then k0_pay10 (k0_pay6 x0 x1) (colSlice Q xs2) (ix2 (0 : Fin 1) (tileLocal Q q h))
        else xs2 (ix2 (0 : Fin 1) q) := by
  by_cases h : inTile Q q
  · rw [dif_pos h]
    have e := piece_C_colE_in (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ (tileLocal Q q h)
    rw [tileCol_tileLocal] at e
    exact e
  · rw [dif_neg h]
    exact piece_C_colE_out (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ q h

/-- Case C: the second column accumulator after the body, at a column of the tile. -/
theorem piece_C_colNum_in (hc0 : ¬cond0_0 i) (hc1 : ¬cond0_1 i) (hc2 : cond0_2 i) (hc3 : ¬cond0_3 i) (Q : Fin 8) (hQ : (i 2).val = Q.val) (j : Fin 512) :
    sout0_C_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) (tileCol Q j))
      = k0_pay11 (k0_pay7 x0 x1 x2 x3) (colSlice Q xs3) (ix2 (0 : Fin 1) j) := by
  have hoff : k0_off1 i = ![0, 512 * Q.val] := by rw [k0_off1_eq, hQ]
  unfold sout0_C_3
  unfold kernelRun0_C
  dsimp only
  sl_unfold_run_names
  rw [read_tile_in _ _ (k0_off1_inb i) _ _ Q hoff j]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2, ld_tile (k0_off1_inb i) Q hoff]

/-- Case C: the second column accumulator after the body, at a column outside the tile. -/
theorem piece_C_colNum_out (hc0 : ¬cond0_0 i) (hc1 : ¬cond0_1 i) (hc2 : cond0_2 i) (hc3 : ¬cond0_3 i) (Q : Fin 8) (hQ : (i 2).val = Q.val) (q : Fin 4096) (hq : ¬inTile Q q) :
    sout0_C_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q) = xs3 (ix2 (0 : Fin 1) q) := by
  have hoff : k0_off1 i = ![0, 512 * Q.val] := by rw [k0_off1_eq, hQ]
  unfold sout0_C_3
  unfold kernelRun0_C
  dsimp only
  sl_unfold_run_names
  rw [read_tile_out _ _ (k0_off1_inb i) _ _ Q hoff q hq, View.writes_nil, harg12.read_unread]

/-- Case C: the second column accumulator after the body, column by column. -/
theorem piece_C_colNum (hc0 : ¬cond0_0 i) (hc1 : ¬cond0_1 i) (hc2 : cond0_2 i) (hc3 : ¬cond0_3 i) (Q : Fin 8) (hQ : (i 2).val = Q.val) (q : Fin 4096) :
    sout0_C_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q)
      = if h : inTile Q q then k0_pay11 (k0_pay7 x0 x1 x2 x3) (colSlice Q xs3) (ix2 (0 : Fin 1) (tileLocal Q q h))
        else xs3 (ix2 (0 : Fin 1) q) := by
  by_cases h : inTile Q q
  · rw [dif_pos h]
    have e := piece_C_colNum_in (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ (tileLocal Q q h)
    rw [tileCol_tileLocal] at e
    exact e
  · rw [dif_neg h]
    exact piece_C_colNum_out (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ q h

/-- Case C: the first output's staging buffer holds the row ratio of the row accumulators the body has just left. -/
theorem piece_C_out4 (hc0 : ¬cond0_0 i) (hc1 : ¬cond0_1 i) (hc2 : cond0_2 i) (hc3 : ¬cond0_3 i) :
    out0_C_4 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay12 (sout0_C_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3) (sout0_C_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3) := by
  rw [piece_C_rowNum (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3, piece_C_rowE (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3]
  unfold out0_C_4
  rw [View.read_writes_eq_canon _ _ _ (cover0_C_4 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_unit_zero (S := S1x1x512) hz3, View.readCov_unit_zero (S := S512x1) _ hz2, View.readCov_unit_zero (S := S512x1) _ hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-! ### Case E (P = 7, Q = 7) -/

/-- Case E: the first row accumulator after the body. -/
theorem piece_E_rowE (hc0 : ¬cond0_0 i) (hc1 : ¬cond0_1 i) (hc2 : cond0_2 i) (hc3 : cond0_3 i) :
    sout0_E_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay8 (k0_pay6 x0 x1) xs0 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_E
  dsimp only
  sl_unfold_words
  rw [View.canon_unit_zero (S := S512x1) hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case E: the second row accumulator after the body. -/
theorem piece_E_rowNum (hc0 : ¬cond0_0 i) (hc1 : ¬cond0_1 i) (hc2 : cond0_2 i) (hc3 : cond0_3 i) :
    sout0_E_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay9 (k0_pay7 x0 x1 x2 x3) xs1 := by
  unfold sout0_E_1
  rw [View.read_writes_eq_canon _ _ _ (scover0_E_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_E
  dsimp only
  sl_unfold_words
  rw [View.canon_unit_zero (S := S512x1) hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case E: the first column accumulator after the body, at a column of the tile. -/
theorem piece_E_colE_in (hc0 : ¬cond0_0 i) (hc1 : ¬cond0_1 i) (hc2 : cond0_2 i) (hc3 : cond0_3 i) (Q : Fin 8) (hQ : (i 2).val = Q.val) (j : Fin 512) :
    sout0_E_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) (tileCol Q j))
      = k0_pay10 (k0_pay6 x0 x1) (colSlice Q xs2) (ix2 (0 : Fin 1) j) := by
  have hoff : k0_off1 i = ![0, 512 * Q.val] := by rw [k0_off1_eq, hQ]
  unfold sout0_E_2
  unfold kernelRun0_E
  dsimp only
  sl_unfold_run_names
  rw [read_tile_in _ _ (k0_off1_inb i) _ _ Q hoff j]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2, ld_tile (k0_off1_inb i) Q hoff]

/-- Case E: the first column accumulator after the body, at a column outside the tile. -/
theorem piece_E_colE_out (hc0 : ¬cond0_0 i) (hc1 : ¬cond0_1 i) (hc2 : cond0_2 i) (hc3 : cond0_3 i) (Q : Fin 8) (hQ : (i 2).val = Q.val) (q : Fin 4096) (hq : ¬inTile Q q) :
    sout0_E_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q) = xs2 (ix2 (0 : Fin 1) q) := by
  have hoff : k0_off1 i = ![0, 512 * Q.val] := by rw [k0_off1_eq, hQ]
  unfold sout0_E_2
  unfold kernelRun0_E
  dsimp only
  sl_unfold_run_names
  rw [read_tile_out _ _ (k0_off1_inb i) _ _ Q hoff q hq, View.writes_nil, harg11.read_unread]

/-- Case E: the first column accumulator after the body, column by column. -/
theorem piece_E_colE (hc0 : ¬cond0_0 i) (hc1 : ¬cond0_1 i) (hc2 : cond0_2 i) (hc3 : cond0_3 i) (Q : Fin 8) (hQ : (i 2).val = Q.val) (q : Fin 4096) :
    sout0_E_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q)
      = if h : inTile Q q then k0_pay10 (k0_pay6 x0 x1) (colSlice Q xs2) (ix2 (0 : Fin 1) (tileLocal Q q h))
        else xs2 (ix2 (0 : Fin 1) q) := by
  by_cases h : inTile Q q
  · rw [dif_pos h]
    have e := piece_E_colE_in (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ (tileLocal Q q h)
    rw [tileCol_tileLocal] at e
    exact e
  · rw [dif_neg h]
    exact piece_E_colE_out (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ q h

/-- Case E: the second column accumulator after the body, at a column of the tile. -/
theorem piece_E_colNum_in (hc0 : ¬cond0_0 i) (hc1 : ¬cond0_1 i) (hc2 : cond0_2 i) (hc3 : cond0_3 i) (Q : Fin 8) (hQ : (i 2).val = Q.val) (j : Fin 512) :
    sout0_E_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) (tileCol Q j))
      = k0_pay11 (k0_pay7 x0 x1 x2 x3) (colSlice Q xs3) (ix2 (0 : Fin 1) j) := by
  have hoff : k0_off1 i = ![0, 512 * Q.val] := by rw [k0_off1_eq, hQ]
  unfold sout0_E_3
  unfold kernelRun0_E
  dsimp only
  sl_unfold_run_names
  rw [read_tile_in _ _ (k0_off1_inb i) _ _ Q hoff j]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2, ld_tile (k0_off1_inb i) Q hoff]

/-- Case E: the second column accumulator after the body, at a column outside the tile. -/
theorem piece_E_colNum_out (hc0 : ¬cond0_0 i) (hc1 : ¬cond0_1 i) (hc2 : cond0_2 i) (hc3 : cond0_3 i) (Q : Fin 8) (hQ : (i 2).val = Q.val) (q : Fin 4096) (hq : ¬inTile Q q) :
    sout0_E_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q) = xs3 (ix2 (0 : Fin 1) q) := by
  have hoff : k0_off1 i = ![0, 512 * Q.val] := by rw [k0_off1_eq, hQ]
  unfold sout0_E_3
  unfold kernelRun0_E
  dsimp only
  sl_unfold_run_names
  rw [read_tile_out _ _ (k0_off1_inb i) _ _ Q hoff q hq, View.writes_nil, harg12.read_unread]

/-- Case E: the second column accumulator after the body, column by column. -/
theorem piece_E_colNum (hc0 : ¬cond0_0 i) (hc1 : ¬cond0_1 i) (hc2 : cond0_2 i) (hc3 : cond0_3 i) (Q : Fin 8) (hQ : (i 2).val = Q.val) (q : Fin 4096) :
    sout0_E_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 (ix2 (0 : Fin 1) q)
      = if h : inTile Q q then k0_pay11 (k0_pay7 x0 x1 x2 x3) (colSlice Q xs3) (ix2 (0 : Fin 1) (tileLocal Q q h))
        else xs3 (ix2 (0 : Fin 1) q) := by
  by_cases h : inTile Q q
  · rw [dif_pos h]
    have e := piece_E_colNum_in (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ (tileLocal Q q h)
    rw [tileCol_tileLocal] at e
    exact e
  · rw [dif_neg h]
    exact piece_E_colNum_out (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3 Q hQ q h

/-- Case E: the first output's staging buffer holds the row ratio of the row accumulators the body has just left. -/
theorem piece_E_out4 (hc0 : ¬cond0_0 i) (hc1 : ¬cond0_1 i) (hc2 : cond0_2 i) (hc3 : cond0_3 i) :
    out0_E_4 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay12 (sout0_E_1 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3) (sout0_E_0 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3) := by
  rw [piece_E_rowNum (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3, piece_E_rowE (F := F) c i arg3 harg3 arg4 harg4 arg5 harg5 arg6 harg6 arg7 harg7 arg8 harg8 arg9 harg9 arg10 harg10 arg11 harg11 arg12 harg12 x0 x1 x2 x3 xs0 xs1 xs2 xs3 hc0 hc1 hc2 hc3]
  unfold out0_E_4
  rw [View.read_writes_eq_canon _ _ _ (cover0_E_4 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_E
  dsimp only
  sl_unfold_words
  rw [View.canon_unit_zero (S := S1x1x512) hz3, View.readCov_unit_zero (S := S512x1) _ hz2, View.readCov_unit_zero (S := S512x1) _ hz2]
  simp only [View.readAt_eq_ld, harg3.read_unread, harg4.read_unread, harg5.read_unread, harg6.read_unread, harg9.read_unread, harg10.read_unread, harg11.read_unread, harg12.read_unread, View.ld_unit_zero (S := S1x512x256) hz3, View.ld_unit_zero (S := S1x256x512) hz3, View.ld_unit_zero (S := S1x1x512) hz3, View.ld_unit_zero (S := S512x1) hz2, View.ld_unit_zero (S := S1x4096) hz2]

/-- Case E: the second output's staging buffer holds the column ratio of the column accumulators the body has just left. -/
theorem piece_E_out5 (hc0 : ¬cond0_0 i) (hc1 : ¬cond0_1 i) (hc2 : cond0_2 i) (hc3 : cond0_3 i) :
    out0_E_5 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3 = k0_pay1 (sout0_E_3 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3) (sout0_E_2 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3) := by
  unfold out0_E_5
  rw [View.read_writes_eq_canon _ _ _ (cover0_E_5 c i arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold sout0_E_3 sout0_E_2
  unfold kernelRun0_E
  dsimp only
  sl_unfold_run_names
  rw [View.canon_unit_zero (S := S1x1x4096) hz3]
  simp only [View.readAt_eq_ld, View.ld_unit_zero (S := S1x4096) hz2]

end Pieces

/-! ## At a point of the grid -/

variable (m : (ℓ : Loc nD τ sig) → Buf (Elt F) ℓ)

/-- The four input blocks of point `t`, at their literal types. -/
abbrev pblk0 (c : Dev nD) (t : Fin cfg0.N) : Vec F S1x512x256 .bf16 := iblk m c 0 t
abbrev pblk1 (c : Dev nD) (t : Fin cfg0.N) : Vec F S1x256x512 .bf16 := iblk m c 1 t
abbrev pblk2 (c : Dev nD) (t : Fin cfg0.N) : Vec F S1x1x512 .i32 := iblk m c 2 t
abbrev pblk3 (c : Dev nD) (t : Fin cfg0.N) : Vec F S1x1x512 .i32 := iblk m c 3 t

/-- What the point before `t` left: the two staging buffers, then the row pair and the column pair of accumulators. -/
abbrev prevOuts (c : Dev nD) (t : Fin cfg0.N) :
    Vec F S1x1x512 .f32 × Vec F S1x1x4096 .f32 × Vec F S512x1 .f32 × Vec F S512x1 .f32 × Vec F S1x4096 .f32 × Vec F S1x4096 .f32 :=
  outsAt0 m c (t.val - 1) (Nat.lt_of_le_of_lt (Nat.sub_le t.val 1) t.isLt)

/-- The column tile of point `t`. -/
def tileOf (t : Fin cfg0.N) : Fin 8 := ⟨t.val % 8, Nat.mod_lt _ (by decide)⟩

@[simp] theorem tileOf_val (t : Fin cfg0.N) : (tileOf t).val = t.val % 8 := rfl

/-- The last grid coordinate of point `t` is its column tile — decided over the grid. -/
theorem coords_tile : ∀ t : Fin cfg0.N, ((grid0.coords t) 2).val = (tileOf t).val :=
  (by decide +kernel : ∀ t : Fin grid0.N, ((grid0.coords t) 2).val = t.val % 8)

/-! ### Case B (0 < Q < 7) -/

theorem step_B_rowE (c : Dev nD) (t : Fin cfg0.N) (h0 : ¬t.val % 8 = 0) (h1 : ¬t.val % 64 = 0) (h2 : ¬t.val % 8 = 7) (h3 : ¬t.val % 64 = 63) :
    (outsAt0 m c t.val t.isLt).2.2.1 = k0_pay8 (k0_pay6 (pblk0 m c t) (pblk1 m c t)) (prevOuts m c t).2.2.1 := by
  rw [outsAt0_B m c t h0 h1 h2 h3]; dsimp only
  exact piece_B_rowE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) (fun h => h2 ((hcond0_2 t).mp h)) (fun h => h3 ((hcond0_3 t).mp h))

theorem step_B_rowNum (c : Dev nD) (t : Fin cfg0.N) (h0 : ¬t.val % 8 = 0) (h1 : ¬t.val % 64 = 0) (h2 : ¬t.val % 8 = 7) (h3 : ¬t.val % 64 = 63) :
    (outsAt0 m c t.val t.isLt).2.2.2.1 = k0_pay9 (k0_pay7 (pblk0 m c t) (pblk1 m c t) (pblk2 m c t) (pblk3 m c t)) (prevOuts m c t).2.2.2.1 := by
  rw [outsAt0_B m c t h0 h1 h2 h3]; dsimp only
  exact piece_B_rowNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) (fun h => h2 ((hcond0_2 t).mp h)) (fun h => h3 ((hcond0_3 t).mp h))

theorem step_B_colE (c : Dev nD) (t : Fin cfg0.N) (h0 : ¬t.val % 8 = 0) (h1 : ¬t.val % 64 = 0) (h2 : ¬t.val % 8 = 7) (h3 : ¬t.val % 64 = 63) (q : Fin 4096) :
    (outsAt0 m c t.val t.isLt).2.2.2.2.1 (ix2 (0 : Fin 1) q)
      = if h : inTile (tileOf t) q then k0_pay10 (k0_pay6 (pblk0 m c t) (pblk1 m c t)) (colSlice (tileOf t) (prevOuts m c t).2.2.2.2.1) (ix2 (0 : Fin 1) (tileLocal (tileOf t) q h))
        else (prevOuts m c t).2.2.2.2.1 (ix2 (0 : Fin 1) q) := by
  rw [outsAt0_B m c t h0 h1 h2 h3]; dsimp only
  exact piece_B_colE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) (fun h => h2 ((hcond0_2 t).mp h)) (fun h => h3 ((hcond0_3 t).mp h)) (tileOf t) (coords_tile t) q

theorem step_B_colNum (c : Dev nD) (t : Fin cfg0.N) (h0 : ¬t.val % 8 = 0) (h1 : ¬t.val % 64 = 0) (h2 : ¬t.val % 8 = 7) (h3 : ¬t.val % 64 = 63) (q : Fin 4096) :
    (outsAt0 m c t.val t.isLt).2.2.2.2.2 (ix2 (0 : Fin 1) q)
      = if h : inTile (tileOf t) q then k0_pay11 (k0_pay7 (pblk0 m c t) (pblk1 m c t) (pblk2 m c t) (pblk3 m c t)) (colSlice (tileOf t) (prevOuts m c t).2.2.2.2.2) (ix2 (0 : Fin 1) (tileLocal (tileOf t) q h))
        else (prevOuts m c t).2.2.2.2.2 (ix2 (0 : Fin 1) q) := by
  rw [outsAt0_B m c t h0 h1 h2 h3]; dsimp only
  exact piece_B_colNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) (fun h => h2 ((hcond0_2 t).mp h)) (fun h => h3 ((hcond0_3 t).mp h)) (tileOf t) (coords_tile t) q

/-! ### Case C (Q = 7, P < 7) -/

theorem step_C_rowE (c : Dev nD) (t : Fin cfg0.N) (h0 : ¬t.val % 8 = 0) (h1 : ¬t.val % 64 = 0) (h2 : t.val % 8 = 7) (h3 : ¬t.val % 64 = 63) :
    (outsAt0 m c t.val t.isLt).2.2.1 = k0_pay8 (k0_pay6 (pblk0 m c t) (pblk1 m c t)) (prevOuts m c t).2.2.1 := by
  rw [outsAt0_C m c t h0 h1 h2 h3]; dsimp only
  exact piece_C_rowE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) (fun h => h3 ((hcond0_3 t).mp h))

theorem step_C_rowNum (c : Dev nD) (t : Fin cfg0.N) (h0 : ¬t.val % 8 = 0) (h1 : ¬t.val % 64 = 0) (h2 : t.val % 8 = 7) (h3 : ¬t.val % 64 = 63) :
    (outsAt0 m c t.val t.isLt).2.2.2.1 = k0_pay9 (k0_pay7 (pblk0 m c t) (pblk1 m c t) (pblk2 m c t) (pblk3 m c t)) (prevOuts m c t).2.2.2.1 := by
  rw [outsAt0_C m c t h0 h1 h2 h3]; dsimp only
  exact piece_C_rowNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) (fun h => h3 ((hcond0_3 t).mp h))

theorem step_C_colE (c : Dev nD) (t : Fin cfg0.N) (h0 : ¬t.val % 8 = 0) (h1 : ¬t.val % 64 = 0) (h2 : t.val % 8 = 7) (h3 : ¬t.val % 64 = 63) (q : Fin 4096) :
    (outsAt0 m c t.val t.isLt).2.2.2.2.1 (ix2 (0 : Fin 1) q)
      = if h : inTile (tileOf t) q then k0_pay10 (k0_pay6 (pblk0 m c t) (pblk1 m c t)) (colSlice (tileOf t) (prevOuts m c t).2.2.2.2.1) (ix2 (0 : Fin 1) (tileLocal (tileOf t) q h))
        else (prevOuts m c t).2.2.2.2.1 (ix2 (0 : Fin 1) q) := by
  rw [outsAt0_C m c t h0 h1 h2 h3]; dsimp only
  exact piece_C_colE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) (fun h => h3 ((hcond0_3 t).mp h)) (tileOf t) (coords_tile t) q

theorem step_C_colNum (c : Dev nD) (t : Fin cfg0.N) (h0 : ¬t.val % 8 = 0) (h1 : ¬t.val % 64 = 0) (h2 : t.val % 8 = 7) (h3 : ¬t.val % 64 = 63) (q : Fin 4096) :
    (outsAt0 m c t.val t.isLt).2.2.2.2.2 (ix2 (0 : Fin 1) q)
      = if h : inTile (tileOf t) q then k0_pay11 (k0_pay7 (pblk0 m c t) (pblk1 m c t) (pblk2 m c t) (pblk3 m c t)) (colSlice (tileOf t) (prevOuts m c t).2.2.2.2.2) (ix2 (0 : Fin 1) (tileLocal (tileOf t) q h))
        else (prevOuts m c t).2.2.2.2.2 (ix2 (0 : Fin 1) q) := by
  rw [outsAt0_C m c t h0 h1 h2 h3]; dsimp only
  exact piece_C_colNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) (fun h => h3 ((hcond0_3 t).mp h)) (tileOf t) (coords_tile t) q

theorem step_C_out4 (c : Dev nD) (t : Fin cfg0.N) (h0 : ¬t.val % 8 = 0) (h1 : ¬t.val % 64 = 0) (h2 : t.val % 8 = 7) (h3 : ¬t.val % 64 = 63) :
    (outsAt0 m c t.val t.isLt).1 = k0_pay12 (outsAt0 m c t.val t.isLt).2.2.2.1 (outsAt0 m c t.val t.isLt).2.2.1 := by
  rw [outsAt0_C m c t h0 h1 h2 h3]; dsimp only
  exact piece_C_out4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) (fun h => h3 ((hcond0_3 t).mp h))

/-! ### Case E (P = 7, Q = 7) -/

theorem step_E_rowE (c : Dev nD) (t : Fin cfg0.N) (h0 : ¬t.val % 8 = 0) (h1 : ¬t.val % 64 = 0) (h2 : t.val % 8 = 7) (h3 : t.val % 64 = 63) :
    (outsAt0 m c t.val t.isLt).2.2.1 = k0_pay8 (k0_pay6 (pblk0 m c t) (pblk1 m c t)) (prevOuts m c t).2.2.1 := by
  rw [outsAt0_E m c t h0 h1 h2 h3]; dsimp only
  exact piece_E_rowE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) ((hcond0_3 t).mpr h3)

theorem step_E_rowNum (c : Dev nD) (t : Fin cfg0.N) (h0 : ¬t.val % 8 = 0) (h1 : ¬t.val % 64 = 0) (h2 : t.val % 8 = 7) (h3 : t.val % 64 = 63) :
    (outsAt0 m c t.val t.isLt).2.2.2.1 = k0_pay9 (k0_pay7 (pblk0 m c t) (pblk1 m c t) (pblk2 m c t) (pblk3 m c t)) (prevOuts m c t).2.2.2.1 := by
  rw [outsAt0_E m c t h0 h1 h2 h3]; dsimp only
  exact piece_E_rowNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) ((hcond0_3 t).mpr h3)

theorem step_E_colE (c : Dev nD) (t : Fin cfg0.N) (h0 : ¬t.val % 8 = 0) (h1 : ¬t.val % 64 = 0) (h2 : t.val % 8 = 7) (h3 : t.val % 64 = 63) (q : Fin 4096) :
    (outsAt0 m c t.val t.isLt).2.2.2.2.1 (ix2 (0 : Fin 1) q)
      = if h : inTile (tileOf t) q then k0_pay10 (k0_pay6 (pblk0 m c t) (pblk1 m c t)) (colSlice (tileOf t) (prevOuts m c t).2.2.2.2.1) (ix2 (0 : Fin 1) (tileLocal (tileOf t) q h))
        else (prevOuts m c t).2.2.2.2.1 (ix2 (0 : Fin 1) q) := by
  rw [outsAt0_E m c t h0 h1 h2 h3]; dsimp only
  exact piece_E_colE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) ((hcond0_3 t).mpr h3) (tileOf t) (coords_tile t) q

theorem step_E_colNum (c : Dev nD) (t : Fin cfg0.N) (h0 : ¬t.val % 8 = 0) (h1 : ¬t.val % 64 = 0) (h2 : t.val % 8 = 7) (h3 : t.val % 64 = 63) (q : Fin 4096) :
    (outsAt0 m c t.val t.isLt).2.2.2.2.2 (ix2 (0 : Fin 1) q)
      = if h : inTile (tileOf t) q then k0_pay11 (k0_pay7 (pblk0 m c t) (pblk1 m c t) (pblk2 m c t) (pblk3 m c t)) (colSlice (tileOf t) (prevOuts m c t).2.2.2.2.2) (ix2 (0 : Fin 1) (tileLocal (tileOf t) q h))
        else (prevOuts m c t).2.2.2.2.2 (ix2 (0 : Fin 1) q) := by
  rw [outsAt0_E m c t h0 h1 h2 h3]; dsimp only
  exact piece_E_colNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) ((hcond0_3 t).mpr h3) (tileOf t) (coords_tile t) q

theorem step_E_out4 (c : Dev nD) (t : Fin cfg0.N) (h0 : ¬t.val % 8 = 0) (h1 : ¬t.val % 64 = 0) (h2 : t.val % 8 = 7) (h3 : t.val % 64 = 63) :
    (outsAt0 m c t.val t.isLt).1 = k0_pay12 (outsAt0 m c t.val t.isLt).2.2.2.1 (outsAt0 m c t.val t.isLt).2.2.1 := by
  rw [outsAt0_E m c t h0 h1 h2 h3]; dsimp only
  exact piece_E_out4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) ((hcond0_3 t).mpr h3)

theorem step_E_out5 (c : Dev nD) (t : Fin cfg0.N) (h0 : ¬t.val % 8 = 0) (h1 : ¬t.val % 64 = 0) (h2 : t.val % 8 = 7) (h3 : t.val % 64 = 63) :
    (outsAt0 m c t.val t.isLt).2.1 = k0_pay1 (outsAt0 m c t.val t.isLt).2.2.2.2.2 (outsAt0 m c t.val t.isLt).2.2.2.2.1 := by
  rw [outsAt0_E m c t h0 h1 h2 h3]; dsimp only
  exact piece_E_out5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le t.val 1) t.isLt)).2.2.1 (outsAt0 m c (t.val - 1) (Nat.lt_of_le_of_lt (Nat.sub_le t.val 1) t.isLt)).2.2.2.1 (outsAt0 m c (t.val - 1) (Nat.lt_of_le_of_lt (Nat.sub_le t.val 1) t.isLt)).2.2.2.2.1 (outsAt0 m c (t.val - 1) (Nat.lt_of_le_of_lt (Nat.sub_le t.val 1) t.isLt)).2.2.2.2.2 (fun h => h0 ((hcond0_0 t).mp h)) (fun h => h1 ((hcond0_1 t).mp h)) ((hcond0_2 t).mpr h2) ((hcond0_3 t).mpr h3)

end Cert.Contrastive

end
-- ==== Proof.Accum.lean ====
/-
  How the tile-by-tile accumulators step and where they end: sums over the 4096 pixels regrouped as 8 tiles of 512.
  Everything here is about finite sums on the extended reals, where addition is commutative and associative with unit 0;
  nothing needs the summands to be finite.
-/
import proofs.«168801_j41678362640816_1_alg».proof.Proof.Spec
import Mathlib.Data.EReal.Basic
import Mathlib.Algebra.BigOperators.Group.Finset.Basic
import Mathlib.Algebra.BigOperators.Group.Finset.Piecewise
import Mathlib.Data.Fintype.BigOperators
import Mathlib.Logic.Equiv.Fin.Basic

noncomputable section

namespace Cert.Contrastive

open Idealize.ShloMosaic

variable (g : Fin 4096 → Fin 4096 → EReal)

/-! ### Conditional sums over a finite index -/

/-- Two conditional sums whose conditions agree pointwise are equal. -/
private theorem sum_ite_congr {ι : Type} [Fintype ι] (F : ι → EReal) (p p' : ι → Prop) [DecidablePred p] [DecidablePred p']
    (h : ∀ T, p' T ↔ p T) : (∑ T, if p' T then F T else 0) = ∑ T, if p T then F T else 0 :=
  Fintype.sum_congr _ _ fun T => if_congr (h T) rfl rfl

/-- Enlarging the condition of a conditional sum by exactly one index, not yet counted, adds that index's term. -/
private theorem sum_ite_insert {ι : Type} [Fintype ι] [DecidableEq ι] (F : ι → EReal) (p p' : ι → Prop) [DecidablePred p]
    [DecidablePred p'] (t : ι) (h : ∀ T, p' T ↔ (p T ∨ T = t)) (ht : ¬ p t) :
    (∑ T, if p' T then F T else 0) = (∑ T, if p T then F T else 0) + F t := by
  have e : F t = ∑ T, if T = t then F T else 0 := by
    rw [Finset.sum_ite_eq' Finset.univ t F, if_pos (Finset.mem_univ t)]
  rw [e, ← Finset.sum_add_distrib]
  refine Fintype.sum_congr _ _ fun T => ?_
  by_cases hT : T = t
  · subst hT
    rw [if_pos ((h T).2 (Or.inr rfl)), if_neg ht, if_pos rfl, zero_add]
  · rw [if_neg hT, add_zero]
    exact if_congr ((h T).trans ⟨fun h' => h'.resolve_right hT, Or.inl⟩) rfl rfl

/-- A conditional sum whose condition singles out one index is that index's term. -/
private theorem sum_ite_single {ι : Type} [Fintype ι] [DecidableEq ι] (F : ι → EReal) (p : ι → Prop) [DecidablePred p]
    (t : ι) (h : ∀ T, p T ↔ T = t) : (∑ T, if p T then F T else 0) = F t := by
  rw [sum_ite_congr F (fun T => T = t) p h, Finset.sum_ite_eq' Finset.univ t F, if_pos (Finset.mem_univ t)]

/-- A conditional sum whose condition always holds is the whole sum. -/
private theorem sum_ite_all {ι : Type} [Fintype ι] (F : ι → EReal) (p : ι → Prop) [DecidablePred p]
    (h : ∀ T, p T) : (∑ T, if p T then F T else 0) = ∑ T, F T :=
  Fintype.sum_congr _ _ fun T => if_pos (h T)

/-- A conditional sum whose condition never holds is zero. -/
private theorem sum_ite_none {ι : Type} [Fintype ι] (F : ι → EReal) (p : ι → Prop) [DecidablePred p]
    (h : ∀ T, ¬ p T) : (∑ T, if p T then F T else 0) = 0 := by
  rw [Fintype.sum_congr _ (fun _ => (0 : EReal)) fun T => if_neg (h T)]
  exact Finset.sum_const_zero

/-! ### Pixels and tiles -/

theorem pix_val (T : Fin 8) (i : Fin 512) : (pix T i).val = 512 * T.val + i.val := rfl

theorem pix_div (T : Fin 8) (i : Fin 512) : (pix T i).val / 512 = T.val := by
  have := i.isLt
  rw [pix_val]; omega

/-- Every pixel is pixel `q % 512` of tile `q / 512`. -/
theorem pix_div_mod (q : Fin 4096) :
    pix ⟨q.val / 512, by have := q.isLt; omega⟩ ⟨q.val % 512, Nat.mod_lt _ (by norm_num)⟩ = q := by
  apply Fin.ext
  rw [pix_val]
  exact Nat.div_add_mod q.val 512

/-- A sum over the 4096 pixels is the sum over the 8 tiles of the sums over a tile's 512 pixels. -/
theorem sum_pix (f : Fin 4096 → EReal) : ∑ q : Fin 4096, f q = ∑ T : Fin 8, ∑ j : Fin 512, f (pix T j) := by
  rw [← Fintype.sum_prod_type' (fun T j => f (pix T j))]
  rw [← Equiv.sum_comp (finProdFinEquiv : Fin 8 × Fin 512 ≃ Fin 4096) f]
  refine Fintype.sum_congr _ _ fun x => ?_
  congr 1
  apply Fin.ext
  rw [pix_val]
  show x.2.val + 512 * x.1.val = 512 * x.1.val + x.2.val
  exact Nat.add_comm _ _

/-! ### Rows -/

/-- After the first column tile a row holds that tile's share. -/
theorem rowAcc_zero (P : Fin 8) (i : Fin 512) : rowAcc g P 0 i = ∑ j : Fin 512, g (pix P i) (pix 0 j) := by
  unfold rowAcc
  exact sum_ite_single (fun T : Fin 8 => ∑ j : Fin 512, g (pix P i) (pix T j)) (fun T => T.val ≤ 0) 0
    fun T => by rw [Fin.ext_iff]; show T.val ≤ 0 ↔ T.val = 0; omega

/-- Visiting column tile `Q + 1` adds its share. -/
theorem rowAcc_succ (P : Fin 8) (Q : ℕ) (hQ : Q + 1 < 8) (i : Fin 512) :
    rowAcc g P (Q + 1) i = rowAcc g P Q i + ∑ j : Fin 512, g (pix P i) (pix ⟨Q + 1, hQ⟩ j) := by
  unfold rowAcc
  exact sum_ite_insert (fun T : Fin 8 => ∑ j : Fin 512, g (pix P i) (pix T j)) (fun T => T.val ≤ Q)
    (fun T => T.val ≤ Q + 1) ⟨Q + 1, hQ⟩
    (fun T => by rw [Fin.ext_iff]; show T.val ≤ Q + 1 ↔ T.val ≤ Q ∨ T.val = Q + 1; omega)
    (by show ¬ (Q + 1 ≤ Q); omega)

/-- After the last column tile a row holds its whole sum. -/
theorem rowAcc_last (P : Fin 8) (i : Fin 512) : rowAcc g P 7 i = ∑ q : Fin 4096, g (pix P i) q := by
  unfold rowAcc
  rw [sum_pix (g (pix P i))]
  exact sum_ite_all (fun T : Fin 8 => ∑ j : Fin 512, g (pix P i) (pix T j)) (fun T => T.val ≤ 7)
    fun T => by have := T.isLt; show T.val ≤ 7; omega

/-! ### Columns -/

/-- At the very first tile of a batch a column of column tile 0 holds row tile 0's share, every other column nothing. -/
theorem colAcc_first (q : Fin 4096) :
    colAcc g 0 0 q = if q.val / 512 = 0 then ∑ i : Fin 512, g (pix 0 i) q else 0 := by
  unfold colAcc
  by_cases hq : q.val / 512 = 0
  · rw [if_pos hq]
    exact sum_ite_single (fun T : Fin 8 => ∑ i : Fin 512, g (pix T i) q)
      (fun T => T.val < 0 ∨ (T.val = 0 ∧ q.val / 512 ≤ 0)) 0
      fun T => by rw [Fin.ext_iff]; show (T.val < 0 ∨ (T.val = 0 ∧ q.val / 512 ≤ 0)) ↔ T.val = 0; omega
  · rw [if_neg hq]
    exact sum_ite_none (fun T : Fin 8 => ∑ i : Fin 512, g (pix T i) q)
      (fun T => T.val < 0 ∨ (T.val = 0 ∧ q.val / 512 ≤ 0))
      fun T => by show ¬ (T.val < 0 ∨ (T.val = 0 ∧ q.val / 512 ≤ 0)); omega

/-- Inside a row tile, moving on to column tile `Q + 1`: its own columns receive row tile `P`'s share, the others keep what they had. -/
theorem colAcc_succ (P : ℕ) (hP : P < 8) (Q : ℕ) (hQ : Q + 1 < 8) (q : Fin 4096) :
    colAcc g P (Q + 1) q
      = if q.val / 512 = Q + 1 then colAcc g P Q q + ∑ i : Fin 512, g (pix ⟨P, hP⟩ i) q else colAcc g P Q q := by
  unfold colAcc
  by_cases hq : q.val / 512 = Q + 1
  · rw [if_pos hq]
    exact sum_ite_insert (fun T : Fin 8 => ∑ i : Fin 512, g (pix T i) q)
      (fun T => T.val < P ∨ (T.val = P ∧ q.val / 512 ≤ Q))
      (fun T => T.val < P ∨ (T.val = P ∧ q.val / 512 ≤ Q + 1)) ⟨P, hP⟩
      (fun T => by
        rw [Fin.ext_iff]
        show (T.val < P ∨ (T.val = P ∧ q.val / 512 ≤ Q + 1)) ↔ ((T.val < P ∨ (T.val = P ∧ q.val / 512 ≤ Q)) ∨ T.val = P)
        omega)
      (by show ¬ (P < P ∨ (P = P ∧ q.val / 512 ≤ Q)); omega)
  · rw [if_neg hq]
    exact sum_ite_congr (fun T : Fin 8 => ∑ i : Fin 512, g (pix T i) q)
      (fun T => T.val < P ∨ (T.val = P ∧ q.val / 512 ≤ Q))
      (fun T => T.val < P ∨ (T.val = P ∧ q.val / 512 ≤ Q + 1))
      fun T => by
        show (T.val < P ∨ (T.val = P ∧ q.val / 512 ≤ Q + 1)) ↔ (T.val < P ∨ (T.val = P ∧ q.val / 512 ≤ Q))
        omega

/-- Starting row tile `P + 1` at column tile 0 from the end of row tile `P`: the columns of tile 0 receive the new row tile's share. -/
theorem colAcc_next (P : ℕ) (hP : P + 1 < 8) (q : Fin 4096) :
    colAcc g (P + 1) 0 q
      = if q.val / 512 = 0 then colAcc g P 7 q + ∑ i : Fin 512, g (pix ⟨P + 1, hP⟩ i) q else colAcc g P 7 q := by
  unfold colAcc
  have hq7 : q.val / 512 ≤ 7 := by have := q.isLt; omega
  by_cases hq : q.val / 512 = 0
  · rw [if_pos hq]
    exact sum_ite_insert (fun T : Fin 8 => ∑ i : Fin 512, g (pix T i) q)
      (fun T => T.val < P ∨ (T.val = P ∧ q.val / 512 ≤ 7))
      (fun T => T.val < P + 1 ∨ (T.val = P + 1 ∧ q.val / 512 ≤ 0)) ⟨P + 1, hP⟩
      (fun T => by
        rw [Fin.ext_iff]
        show (T.val < P + 1 ∨ (T.val = P + 1 ∧ q.val / 512 ≤ 0)) ↔ ((T.val < P ∨ (T.val = P ∧ q.val / 512 ≤ 7)) ∨ T.val = P + 1)
        omega)
      (by show ¬ (P + 1 < P ∨ (P + 1 = P ∧ q.val / 512 ≤ 7)); omega)
  · rw [if_neg hq]
    exact sum_ite_congr (fun T : Fin 8 => ∑ i : Fin 512, g (pix T i) q)
      (fun T => T.val < P ∨ (T.val = P ∧ q.val / 512 ≤ 7))
      (fun T => T.val < P + 1 ∨ (T.val = P + 1 ∧ q.val / 512 ≤ 0))
      fun T => by
        show (T.val < P + 1 ∨ (T.val = P + 1 ∧ q.val / 512 ≤ 0)) ↔ (T.val < P ∨ (T.val = P ∧ q.val / 512 ≤ 7))
        omega

/-- At the end of the walk every column holds its whole sum. -/
theorem colAcc_last (q : Fin 4096) : colAcc g 7 7 q = ∑ p : Fin 4096, g p q := by
  unfold colAcc
  rw [sum_pix (fun p => g p q)]
  have hq7 : q.val / 512 ≤ 7 := by have := q.isLt; omega
  exact sum_ite_all (fun T : Fin 8 => ∑ i : Fin 512, g (pix T i) q)
    (fun T => T.val < 7 ∨ (T.val = 7 ∧ q.val / 512 ≤ 7))
    fun T => by have := T.isLt; show T.val < 7 ∨ (T.val = 7 ∧ q.val / 512 ≤ 7); omega

end Cert.Contrastive

end
-- ==== Proof.PiecesAD.lean ====
/-
  What one grid point's body leaves in the four carried accumulators at the first column tile of a row of tiles.

  At column tile Q = 0 the two row accumulators are first set to zero and then receive the row sums of the point's
  512 × 512 tile of exponentiated similarities and of its masked copy: zero plus the sums. At the first point of a
  batch (row tile P = 0 as well, case A) the two column accumulators are set to zero too before the tile's column sums
  are added to their first 512 columns; every other column is left at zero. At a later row tile (P > 0, case D) the
  column accumulators continue from what the point before left: the tile's column sums are added to their first 512
  columns and the other columns keep their entries.
  As for the other cases, a row accumulator is stated as an equation of rows and a column accumulator column by column.
-/
import proofs.«168801_j41678362640816_1_alg».proof.Proof.Pieces

set_option maxRecDepth 16384

noncomputable section

namespace Cert.Contrastive

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F] [Named F]

/-! ## Over arbitrary staging memrefs and contents -/

section PiecesAD

variable (c : Dev nD) (i : grid0.Coords)
  (arg3 : Memref sig .tc .vmem S1x512x256 .bf16) (harg3 : arg3.IsWhole) (arg4 : Memref sig .tc .vmem S1x256x512 .bf16) (harg4 : arg4.IsWhole)
  (arg5 : Memref sig .tc .vmem S1x1x512 .i32) (harg5 : arg5.IsWhole) (arg6 : Memref sig .tc .vmem S1x1x512 .i32) (harg6 : arg6.IsWhole)
  (arg7 : Memref sig .tc .vmem S1x1x512 .f32) (harg7 : arg7.IsWhole) (arg8 : Memref sig .tc .vmem S1x1x4096 .f32) (harg8 : arg8.IsWhole)
  (arg9 : Memref sig .tc .vmem S512x1 .f32) (harg9 : arg9.IsWhole) (arg10 : Memref sig .tc .vmem S512x1 .f32) (harg10 : arg10.IsWhole)
  (arg11 : Memref sig .tc .vmem S1x4096 .f32) (harg11 : arg11.IsWhole) (arg12 : Memref sig .tc .vmem S1x4096 .f32) (harg12 : arg12.IsWhole)
  (x0 : Vec F S1x512x256 .bf16) (x1 : Vec F S1x256x512 .bf16) (x2 : Vec F S1x1x512 .i32) (x3 : Vec F S1x1x512 .i32)
  (xs2 : Vec F S1x4096 .f32) (xs3 : Vec F S1x4096 .f32)

/-! ### Case D (P > 0, Q = 0) -/

/-- Case D: the first row accumulator after the body. -/
theorem piece_D_rowE (hc0 : cond0_0 i) (hc1 : ¬cond0_1 i) (hc2 : ¬cond0_2 i) (hc3 : ¬cond0_3 i) :
    sout0_D_0 c i arg3 harg3 arg4 harg4 arg5 harg5 arg6 harg6 arg7 harg7 arg8 harg8 arg9 harg9 arg10 harg10 arg11 harg11 arg12 harg12 hc0 hc1 hc2 hc3 x0 x1 x2 x3 xs2 xs3 = k0_pay8 (k0_pay6 x0 x1) (k0_pay2 (F := F)) := by
  unfold sout0_D_0
  rw [View.read_writes_eq_canon _ _ _ (scover0_D_0 c i arg3 harg3 arg4 harg4 arg5 harg5 arg6 harg6 arg7 harg7 arg8 harg8 arg9 harg9 arg10 harg10 arg11 harg11 arg12 harg12 hc0 hc1 hc2 hc3 x0 x1 x2 x3 xs2 xs3)]
  unfold kernelRun0_D
  dsimp only
  sl_unfold_words
  rw [View.canon_cons_unit_zero (S := S512x1) hz2, View.readCov_unit_zero (S := S512x1) _ hz2]
  simp only [View.readAt_eq_ld, harg3.read_unread, harg4.read_unread, harg5.read_unread, harg6.read_unread,
    View.ld_unit_zero (S := S1x512x256) hz3, View.ld_unit_zero (S := S1x256x512) hz3, View.ld_unit_zero (S := S1x1x512) hz3]

/-- Case D: the second row accumulator after the body. -/
theorem piece_D_rowNum (hc0 : cond0_0 i) (hc1 : ¬cond0_1 i) (hc2 : ¬cond0_2 i) (hc3 : ¬cond0_3 i) :
    sout0_D_1 c i arg3 harg3 arg4 harg4 arg5 harg5 arg6 harg6 arg7 harg7 arg8 harg8 arg9 harg9 arg10 harg10 arg11 harg11 arg12 harg12 hc0 hc1 hc2 hc3 x0 x1 x2 x3 xs2 xs3 = k0_pay9 (k0_pay7 x0 x1 x2 x3) (k0_pay3 (F := F)) := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 hc0 hc1 hc2 hc3 x0 x1 x2 x3 xs2 xs3)]
  unfold kernelRun0_D
  dsimp only
  sl_unfold_words
  rw [View.canon_cons_unit_zero (S := S512x1) hz2, View.readCov_unit_zero (S := S512x1) _ hz2]
  simp only [View.readAt_eq_ld, harg3.read_unread, harg4.read_unread, harg5.read_unread, harg6.read_unread,
    View.ld_unit_zero (S := S1x512x256) hz3, View.ld_unit_zero (S := S1x256x512) hz3, View.ld_unit_zero (S := S1x1x512) hz3]

/-- Case D: the first column accumulator after the body, at a column of the tile. -/
theorem piece_D_colE_in (hc0 : cond0_0 i) (hc1 : ¬cond0_1 i) (hc2 : ¬cond0_2 i) (hc3 : ¬cond0_3 i) (Q : Fin 8) (hQ : (i 2).val = Q.val) (j : Fin 512) :
    sout0_D_2 c i arg3 harg3 arg4 harg4 arg5 harg5 arg6 harg6 arg7 harg7 arg8 harg8 arg9 harg9 arg10 harg10 arg11 harg11 arg12 harg12 hc0 hc1 hc2 hc3 x0 x1 x2 x3 xs2 xs3 (ix2 (0 : Fin 1) (tileCol Q j))
      = k0_pay10 (k0_pay6 x0 x1) (colSlice Q xs2) (ix2 (0 : Fin 1) j) := by
  have heq : k0_off1 i = ![0, 512 * Q.val] := by rw [k0_off1_eq, hQ]
  unfold sout0_D_2 kernelRun0_D
  dsimp only
  sl_unfold_words
  refine (read_tile_in (F := F) arg11.view _ (k0_off1_inb i) _ _ Q heq j).trans ?_
  simp only [View.readAt_eq_ld, harg3.read_unread, harg4.read_unread, harg5.read_unread, harg6.read_unread, harg11.read_unread,
    View.ld_unit_zero (S := S1x512x256) hz3, View.ld_unit_zero (S := S1x256x512) hz3, View.ld_unit_zero (S := S1x1x512) hz3]
  exact congrFun (congrArg (k0_pay10 (k0_pay6 x0 x1)) (ld_tile (F := F) (k0_off1_inb i) Q heq xs2)) (ix2 (0 : Fin 1) j)

/-- Case D: the first column accumulator after the body, at a column outside the tile. -/
theorem piece_D_colE_out (hc0 : cond0_0 i) (hc1 : ¬cond0_1 i) (hc2 : ¬cond0_2 i) (hc3 : ¬cond0_3 i) (Q : Fin 8) (hQ : (i 2).val = Q.val) (q : Fin 4096) (hq : ¬inTile Q q) :
    sout0_D_2 c i arg3 harg3 arg4 harg4 arg5 harg5 arg6 harg6 arg7 harg7 arg8 harg8 arg9 harg9 arg10 harg10 arg11 harg11 arg12 harg12 hc0 hc1 hc2 hc3 x0 x1 x2 x3 xs2 xs3 (ix2 (0 : Fin 1) q) = xs2 (ix2 (0 : Fin 1) q) := by
  have heq : k0_off1 i = ![0, 512 * Q.val] := by rw [k0_off1_eq, hQ]
  unfold sout0_D_2 kernelRun0_D
  dsimp only
  sl_unfold_words
  refine (read_tile_out (F := F) arg11.view _ (k0_off1_inb i) _ _ Q heq q hq).trans ?_
  exact congrFun (harg11.read_unread xs2) (ix2 (0 : Fin 1) q)

/-- Case D: the first column accumulator after the body, column by column. -/
theorem piece_D_colE (hc0 : cond0_0 i) (hc1 : ¬cond0_1 i) (hc2 : ¬cond0_2 i) (hc3 : ¬cond0_3 i) (Q : Fin 8) (hQ : (i 2).val = Q.val) (q : Fin 4096) :
    sout0_D_2 c i arg3 harg3 arg4 harg4 arg5 harg5 arg6 harg6 arg7 harg7 arg8 harg8 arg9 harg9 arg10 harg10 arg11 harg11 arg12 harg12 hc0 hc1 hc2 hc3 x0 x1 x2 x3 xs2 xs3 (ix2 (0 : Fin 1) q)
      = if h : inTile Q q then k0_pay10 (k0_pay6 x0 x1) (colSlice Q xs2) (ix2 (0 : Fin 1) (tileLocal Q q h))
        else xs2 (ix2 (0 : Fin 1) q) := by
  by_cases h : inTile Q q
  · rw [dif_pos h]
    have e := piece_D_colE_in (F := F) c i arg3 harg3 arg4 harg4 arg5 harg5 arg6 harg6 arg7 harg7 arg8 harg8 arg9 harg9 arg10 harg10 arg11 harg11 arg12 harg12 x0 x1 x2 x3 xs2 xs3 hc0 hc1 hc2 hc3 Q hQ (tileLocal Q q h)
    rw [tileCol_tileLocal] at e
    exact e
  · rw [dif_neg h]
    exact piece_D_colE_out (F := F) c i arg3 harg3 arg4 harg4 arg5 harg5 arg6 harg6 arg7 harg7 arg8 harg8 arg9 harg9 arg10 harg10 arg11 harg11 arg12 harg12 x0 x1 x2 x3 xs2 xs3 hc0 hc1 hc2 hc3 Q hQ q h

/-- Case D: the second column accumulator after the body, at a column of the tile. -/
theorem piece_D_colNum_in (hc0 : cond0_0 i) (hc1 : ¬cond0_1 i) (hc2 : ¬cond0_2 i) (hc3 : ¬cond0_3 i) (Q : Fin 8) (hQ : (i 2).val = Q.val) (j : Fin 512) :
    sout0_D_3 c i arg3 harg3 arg4 harg4 arg5 harg5 arg6 harg6 arg7 harg7 arg8 harg8 arg9 harg9 arg10 harg10 arg11 harg11 arg12 harg12 hc0 hc1 hc2 hc3 x0 x1 x2 x3 xs2 xs3 (ix2 (0 : Fin 1) (tileCol Q j))
      = k0_pay11 (k0_pay7 x0 x1 x2 x3) (colSlice Q xs3) (ix2 (0 : Fin 1) j) := by
  have heq : k0_off1 i = ![0, 512 * Q.val] := by rw [k0_off1_eq, hQ]
  unfold sout0_D_3 kernelRun0_D
  dsimp only
  sl_unfold_words
  refine (read_tile_in (F := F) arg12.view _ (k0_off1_inb i) _ _ Q heq j).trans ?_
  simp only [View.readAt_eq_ld, harg3.read_unread, harg4.read_unread, harg5.read_unread, harg6.read_unread, harg12.read_unread,
    View.ld_unit_zero (S := S1x512x256) hz3, View.ld_unit_zero (S := S1x256x512) hz3, View.ld_unit_zero (S := S1x1x512) hz3]
  exact congrFun (congrArg (k0_pay11 (k0_pay7 x0 x1 x2 x3)) (ld_tile (F := F) (k0_off1_inb i) Q heq xs3)) (ix2 (0 : Fin 1) j)

/-- Case D: the second column accumulator after the body, at a column outside the tile. -/
theorem piece_D_colNum_out (hc0 : cond0_0 i) (hc1 : ¬cond0_1 i) (hc2 : ¬cond0_2 i) (hc3 : ¬cond0_3 i) (Q : Fin 8) (hQ : (i 2).val = Q.val) (q : Fin 4096) (hq : ¬inTile Q q) :
    sout0_D_3 c i arg3 harg3 arg4 harg4 arg5 harg5 arg6 harg6 arg7 harg7 arg8 harg8 arg9 harg9 arg10 harg10 arg11 harg11 arg12 harg12 hc0 hc1 hc2 hc3 x0 x1 x2 x3 xs2 xs3 (ix2 (0 : Fin 1) q) = xs3 (ix2 (0 : Fin 1) q) := by
  have heq : k0_off1 i = ![0, 512 * Q.val] := by rw [k0_off1_eq, hQ]
  unfold sout0_D_3 kernelRun0_D
  dsimp only
  sl_unfold_words
  refine (read_tile_out (F := F) arg12.view _ (k0_off1_inb i) _ _ Q heq q hq).trans ?_
  exact congrFun (harg12.read_unread xs3) (ix2 (0 : Fin 1) q)

/-- Case D: the second column accumulator after the body, column by column. -/
theorem piece_D_colNum (hc0 : cond0_0 i) (hc1 : ¬cond0_1 i) (hc2 : ¬cond0_2 i) (hc3 : ¬cond0_3 i) (Q : Fin 8) (hQ : (i 2).val = Q.val) (q : Fin 4096) :
    sout0_D_3 c i arg3 harg3 arg4 harg4 arg5 harg5 arg6 harg6 arg7 harg7 arg8 harg8 arg9 harg9 arg10 harg10 arg11 harg11 arg12 harg12 hc0 hc1 hc2 hc3 x0 x1 x2 x3 xs2 xs3 (ix2 (0 : Fin 1) q)
      = if h : inTile Q q then k0_pay11 (k0_pay7 x0 x1 x2 x3) (colSlice Q xs3) (ix2 (0 : Fin 1) (tileLocal Q q h))
        else xs3 (ix2 (0 : Fin 1) q) := by
  by_cases h : inTile Q q
  · rw [dif_pos h]
    have e := piece_D_colNum_in (F := F) c i arg3 harg3 arg4 harg4 arg5 harg5 arg6 harg6 arg7 harg7 arg8 harg8 arg9 harg9 arg10 harg10 arg11 harg11 arg12 harg12 x0 x1 x2 x3 xs2 xs3 hc0 hc1 hc2 hc3 Q hQ (tileLocal Q q h)
    rw [tileCol_tileLocal] at e
    exact e
  · rw [dif_neg h]
    exact piece_D_colNum_out (F := F) c i arg3 harg3 arg4 harg4 arg5 harg5 arg6 harg6 arg7 harg7 arg8 harg8 arg9 harg9 arg10 harg10 arg11 harg11 arg12 harg12 x0 x1 x2 x3 xs2 xs3 hc0 hc1 hc2 hc3 Q hQ q h

/-! ### Case A (P = 0, Q = 0) -/

/-- Case A: the first row accumulator after the body. -/
theorem piece_A_rowE (hc0 : cond0_0 i) (hc1 : cond0_1 i) (hc2 : ¬cond0_2 i) (hc3 : ¬cond0_3 i) :
    sout0_A_0 c i arg3 harg3 arg4 harg4 arg5 harg5 arg6 harg6 arg7 harg7 arg8 harg8 arg9 harg9 arg10 harg10 arg11 harg11 arg12 harg12 hc0 hc1 hc2 hc3 x0 x1 x2 x3 = k0_pay8 (k0_pay6 x0 x1) (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S512x1) hz2, View.readCov_unit_zero (S := S512x1) _ hz2]
  simp only [View.readAt_eq_ld, harg3.read_unread, harg4.read_unread, harg5.read_unread, harg6.read_unread,
    View.ld_unit_zero (S := S1x512x256) hz3, View.ld_unit_zero (S := S1x256x512) hz3, View.ld_unit_zero (S := S1x1x512) hz3]

/-- Case A: the second row accumulator after the body. -/
theorem piece_A_rowNum (hc0 : cond0_0 i) (hc1 : cond0_1 i) (hc2 : ¬cond0_2 i) (hc3 : ¬cond0_3 i) :
    sout0_A_1 c i arg3 harg3 arg4 harg4 arg5 harg5 arg6 harg6 arg7 harg7 arg8 harg8 arg9 harg9 arg10 harg10 arg11 harg11 arg12 harg12 hc0 hc1 hc2 hc3 x0 x1 x2 x3 = k0_pay9 (k0_pay7 x0 x1 x2 x3) (k0_pay3 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S512x1) hz2, View.readCov_unit_zero (S := S512x1) _ hz2]
  simp only [View.readAt_eq_ld, harg3.read_unread, harg4.read_unread, harg5.read_unread, harg6.read_unread,
    View.ld_unit_zero (S := S1x512x256) hz3, View.ld_unit_zero (S := S1x256x512) hz3, View.ld_unit_zero (S := S1x1x512) hz3]

/-- Case A: the first column accumulator after the body, at a column of the tile. -/
theorem piece_A_colE_in (hc0 : cond0_0 i) (hc1 : cond0_1 i) (hc2 : ¬cond0_2 i) (hc3 : ¬cond0_3 i) (Q : Fin 8) (hQ : (i 2).val = Q.val) (j : Fin 512) :
    sout0_A_2 c i arg3 harg3 arg4 harg4 arg5 harg5 arg6 harg6 arg7 harg7 arg8 harg8 arg9 harg9 arg10 harg10 arg11 harg11 arg12 harg12 hc0 hc1 hc2 hc3 x0 x1 x2 x3 (ix2 (0 : Fin 1) (tileCol Q j))
      = k0_pay10 (k0_pay6 x0 x1) (colSlice Q (k0_pay4 (F := F))) (ix2 (0 : Fin 1) j) := by
  have heq : k0_off1 i = ![0, 512 * Q.val] := by rw [k0_off1_eq, hQ]
  unfold sout0_A_2 kernelRun0_A
  dsimp only
  sl_unfold_words
  refine (read_tile_in (F := F) VS0_2 _ (k0_off1_inb i) _ _ Q heq j).trans ?_
  simp only [View.readAt_eq_ld, harg3.read_unread, harg4.read_unread, harg5.read_unread, harg6.read_unread,
    View.ld_unit_zero (S := S1x512x256) hz3, View.ld_unit_zero (S := S1x256x512) hz3, View.ld_unit_zero (S := S1x1x512) hz3,
    read_store_whole (F := F) (S := S1x4096) (e := .f32) arg11.view arg11.view.junk hz2]
  exact congrFun (congrArg (k0_pay10 (k0_pay6 x0 x1)) (ld_tile (F := F) (k0_off1_inb i) Q heq (k0_pay4 (F := F)))) (ix2 (0 : Fin 1) j)

/-- Case A: the first column accumulator after the body, at a column outside the tile. -/
theorem piece_A_colE_out (hc0 : cond0_0 i) (hc1 : cond0_1 i) (hc2 : ¬cond0_2 i) (hc3 : ¬cond0_3 i) (Q : Fin 8) (hQ : (i 2).val = Q.val) (q : Fin 4096) (hq : ¬inTile Q q) :
    sout0_A_2 c i arg3 harg3 arg4 harg4 arg5 harg5 arg6 harg6 arg7 harg7 arg8 harg8 arg9 harg9 arg10 harg10 arg11 harg11 arg12 harg12 hc0 hc1 hc2 hc3 x0 x1 x2 x3 (ix2 (0 : Fin 1) q) = (k0_pay4 (F := F)) (ix2 (0 : Fin 1) q) := by
  have heq : k0_off1 i = ![0, 512 * Q.val] := by rw [k0_off1_eq, hQ]
  unfold sout0_A_2 kernelRun0_A
  dsimp only
  sl_unfold_words
  refine (read_tile_out (F := F) VS0_2 _ (k0_off1_inb i) _ _ Q heq q hq).trans ?_
  exact congrFun (read_store_whole (F := F) (S := S1x4096) (e := .f32) VS0_2 VS0_2.junk hz2 _ (k0_pay4 (F := F))) (ix2 (0 : Fin 1) q)

/-- Case A: the first column accumulator after the body, column by column. -/
theorem piece_A_colE (hc0 : cond0_0 i) (hc1 : cond0_1 i) (hc2 : ¬cond0_2 i) (hc3 : ¬cond0_3 i) (Q : Fin 8) (hQ : (i 2).val = Q.val) (q : Fin 4096) :
    sout0_A_2 c i arg3 harg3 arg4 harg4 arg5 harg5 arg6 harg6 arg7 harg7 arg8 harg8 arg9 harg9 arg10 harg10 arg11 harg11 arg12 harg12 hc0 hc1 hc2 hc3 x0 x1 x2 x3 (ix2 (0 : Fin 1) q)
      = if h : inTile Q q then k0_pay10 (k0_pay6 x0 x1) (colSlice Q (k0_pay4 (F := F))) (ix2 (0 : Fin 1) (tileLocal Q q h))
        else (k0_pay4 (F := F)) (ix2 (0 : Fin 1) q) := by
  by_cases h : inTile Q q
  · rw [dif_pos h]
    have e := piece_A_colE_in (F := F) c i arg3 harg3 arg4 harg4 arg5 harg5 arg6 harg6 arg7 harg7 arg8 harg8 arg9 harg9 arg10 harg10 arg11 harg11 arg12 harg12 x0 x1 x2 x3 hc0 hc1 hc2 hc3 Q hQ (tileLocal Q q h)
    rw [tileCol_tileLocal] at e
    exact e
  · rw [dif_neg h]
    exact piece_A_colE_out (F := F) c i arg3 harg3 arg4 harg4 arg5 harg5 arg6 harg6 arg7 harg7 arg8 harg8 arg9 harg9 arg10 harg10 arg11 harg11 arg12 harg12 x0 x1 x2 x3 hc0 hc1 hc2 hc3 Q hQ q h

/-- Case A: the second column accumulator after the body, at a column of the tile. -/
theorem piece_A_colNum_in (hc0 : cond0_0 i) (hc1 : cond0_1 i) (hc2 : ¬cond0_2 i) (hc3 : ¬cond0_3 i) (Q : Fin 8) (hQ : (i 2).val = Q.val) (j : Fin 512) :
    sout0_A_3 c i arg3 harg3 arg4 harg4 arg5 harg5 arg6 harg6 arg7 harg7 arg8 harg8 arg9 harg9 arg10 harg10 arg11 harg11 arg12 harg12 hc0 hc1 hc2 hc3 x0 x1 x2 x3 (ix2 (0 : Fin 1) (tileCol Q j))
      = k0_pay11 (k0_pay7 x0 x1 x2 x3) (colSlice Q (k0_pay5 (F := F))) (ix2 (0 : Fin 1) j) := by
  have heq : k0_off1 i = ![0, 512 * Q.val] := by rw [k0_off1_eq, hQ]
  unfold sout0_A_3 kernelRun0_A
  dsimp only
  sl_unfold_words
  refine (read_tile_in (F := F) VS0_3 _ (k0_off1_inb i) _ _ Q heq j).trans ?_
  simp only [View.readAt_eq_ld, harg3.read_unread, harg4.read_unread, harg5.read_unread, harg6.read_unread,
    View.ld_unit_zero (S := S1x512x256) hz3, View.ld_unit_zero (S := S1x256x512) hz3, View.ld_unit_zero (S := S1x1x512) hz3,
    read_store_whole (F := F) (S := S1x4096) (e := .f32) arg12.view arg12.view.junk hz2]
  exact congrFun (congrArg (k0_pay11 (k0_pay7 x0 x1 x2 x3)) (ld_tile (F := F) (k0_off1_inb i) Q heq (k0_pay5 (F := F)))) (ix2 (0 : Fin 1) j)

/-- Case A: the second column accumulator after the body, at a column outside the tile. -/
theorem piece_A_colNum_out (hc0 : cond0_0 i) (hc1 : cond0_1 i) (hc2 : ¬cond0_2 i) (hc3 : ¬cond0_3 i) (Q : Fin 8) (hQ : (i 2).val = Q.val) (q : Fin 4096) (hq : ¬inTile Q q) :
    sout0_A_3 c i arg3 harg3 arg4 harg4 arg5 harg5 arg6 harg6 arg7 harg7 arg8 harg8 arg9 harg9 arg10 harg10 arg11 harg11 arg12 harg12 hc0 hc1 hc2 hc3 x0 x1 x2 x3 (ix2 (0 : Fin 1) q) = (k0_pay5 (F := F)) (ix2 (0 : Fin 1) q) := by
  have heq : k0_off1 i = ![0, 512 * Q.val] := by rw [k0_off1_eq, hQ]
  unfold sout0_A_3 kernelRun0_A
  dsimp only
  sl_unfold_words
  refine (read_tile_out (F := F) VS0_3 _ (k0_off1_inb i) _ _ Q heq q hq).trans ?_
  exact congrFun (read_store_whole (F := F) (S := S1x4096) (e := .f32) VS0_3 VS0_3.junk hz2 _ (k0_pay5 (F := F))) (ix2 (0 : Fin 1) q)

/-- Case A: the second column accumulator after the body, column by column. -/
theorem piece_A_colNum (hc0 : cond0_0 i) (hc1 : cond0_1 i) (hc2 : ¬cond0_2 i) (hc3 : ¬cond0_3 i) (Q : Fin 8) (hQ : (i 2).val = Q.val) (q : Fin 4096) :
    sout0_A_3 c i arg3 harg3 arg4 harg4 arg5 harg5 arg6 harg6 arg7 harg7 arg8 harg8 arg9 harg9 arg10 harg10 arg11 harg11 arg12 harg12 hc0 hc1 hc2 hc3 x0 x1 x2 x3 (ix2 (0 : Fin 1) q)
      = if h : inTile Q q then k0_pay11 (k0_pay7 x0 x1 x2 x3) (colSlice Q (k0_pay5 (F := F))) (ix2 (0 : Fin 1) (tileLocal Q q h))
        else (k0_pay5 (F := F)) (ix2 (0 : Fin 1) q) := by
  by_cases h : inTile Q q
  · rw [dif_pos h]
    have e := piece_A_colNum_in (F := F) c i arg3 harg3 arg4 harg4 arg5 harg5 arg6 harg6 arg7 harg7 arg8 harg8 arg9 harg9 arg10 harg10 arg11 harg11 arg12 harg12 x0 x1 x2 x3 hc0 hc1 hc2 hc3 Q hQ (tileLocal Q q h)
    rw [tileCol_tileLocal] at e
    exact e
  · rw [dif_neg h]
    exact piece_A_colNum_out (F := F) c i arg3 harg3 arg4 harg4 arg5 harg5 arg6 harg6 arg7 harg7 arg8 harg8 arg9 harg9 arg10 harg10 arg11 harg11 arg12 harg12 x0 x1 x2 x3 hc0 hc1 hc2 hc3 Q hQ q h

end PiecesAD

/-! ## At a point of the grid -/

variable (m : (ℓ : Loc nD τ sig) → Buf (Elt F) ℓ)

/-! ### Case D (P > 0, Q = 0) -/

theorem step_D_rowE (c : Dev nD) (t : Fin cfg0.N) (h0 : t.val % 8 = 0) (h1 : ¬t.val % 64 = 0) (h2 : ¬t.val % 8 = 7) (h3 : ¬t.val % 64 = 63) :
    (outsAt0 m c t.val t.isLt).2.2.1 = k0_pay8 (k0_pay6 (pblk0 m c t) (pblk1 m c t)) (k0_pay2 (F := F)) := by
  rw [outsAt0_D m c t h0 h1 h2 h3]
  dsimp only
  exact piece_D_rowE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 ((hcond0_0 t).mpr h0) (fun h => h1 ((hcond0_1 t).mp h)) (fun h => h2 ((hcond0_2 t).mp h)) (fun h => h3 ((hcond0_3 t).mp h))

theorem step_D_rowNum (c : Dev nD) (t : Fin cfg0.N) (h0 : t.val % 8 = 0) (h1 : ¬t.val % 64 = 0) (h2 : ¬t.val % 8 = 7) (h3 : ¬t.val % 64 = 63) :
    (outsAt0 m c t.val t.isLt).2.2.2.1 = k0_pay9 (k0_pay7 (pblk0 m c t) (pblk1 m c t) (pblk2 m c t) (pblk3 m c t)) (k0_pay3 (F := F)) := by
  rw [outsAt0_D m c t h0 h1 h2 h3]
  dsimp only
  exact piece_D_rowNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 ((hcond0_0 t).mpr h0) (fun h => h1 ((hcond0_1 t).mp h)) (fun h => h2 ((hcond0_2 t).mp h)) (fun h => h3 ((hcond0_3 t).mp h))

theorem step_D_colE (c : Dev nD) (t : Fin cfg0.N) (h0 : t.val % 8 = 0) (h1 : ¬t.val % 64 = 0) (h2 : ¬t.val % 8 = 7) (h3 : ¬t.val % 64 = 63) (q : Fin 4096) :
    (outsAt0 m c t.val t.isLt).2.2.2.2.1 (ix2 (0 : Fin 1) q)
      = if h : inTile (tileOf t) q then k0_pay10 (k0_pay6 (pblk0 m c t) (pblk1 m c t)) (colSlice (tileOf t) (prevOuts m c t).2.2.2.2.1) (ix2 (0 : Fin 1) (tileLocal (tileOf t) q h))
        else (prevOuts m c t).2.2.2.2.1 (ix2 (0 : Fin 1) q) := by
  rw [outsAt0_D m c t h0 h1 h2 h3]
  dsimp only
  exact piece_D_colE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 ((hcond0_0 t).mpr h0) (fun h => h1 ((hcond0_1 t).mp h)) (fun h => h2 ((hcond0_2 t).mp h)) (fun h => h3 ((hcond0_3 t).mp h)) (tileOf t) (coords_tile t) q

theorem step_D_colNum (c : Dev nD) (t : Fin cfg0.N) (h0 : t.val % 8 = 0) (h1 : ¬t.val % 64 = 0) (h2 : ¬t.val % 8 = 7) (h3 : ¬t.val % 64 = 63) (q : Fin 4096) :
    (outsAt0 m c t.val t.isLt).2.2.2.2.2 (ix2 (0 : Fin 1) q)
      = if h : inTile (tileOf t) q then k0_pay11 (k0_pay7 (pblk0 m c t) (pblk1 m c t) (pblk2 m c t) (pblk3 m c t)) (colSlice (tileOf t) (prevOuts m c t).2.2.2.2.2) (ix2 (0 : Fin 1) (tileLocal (tileOf t) q h))
        else (prevOuts m c t).2.2.2.2.2 (ix2 (0 : Fin 1) q) := by
  rw [outsAt0_D m c t h0 h1 h2 h3]
  dsimp only
  exact piece_D_colNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 ((hcond0_0 t).mpr h0) (fun h => h1 ((hcond0_1 t).mp h)) (fun h => h2 ((hcond0_2 t).mp h)) (fun h => h3 ((hcond0_3 t).mp h)) (tileOf t) (coords_tile t) q

/-! ### Case A (P = 0, Q = 0) -/

theorem step_A_rowE (c : Dev nD) (t : Fin cfg0.N) (h0 : t.val % 8 = 0) (h1 : t.val % 64 = 0) (h2 : ¬t.val % 8 = 7) (h3 : ¬t.val % 64 = 63) :
    (outsAt0 m c t.val t.isLt).2.2.1 = k0_pay8 (k0_pay6 (pblk0 m c t) (pblk1 m c t)) (k0_pay2 (F := F)) := by
  rw [outsAt0_A m c t h0 h1 h2 h3]
  dsimp only
  exact piece_A_rowE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) ((hcond0_0 t).mpr h0) ((hcond0_1 t).mpr h1) (fun h => h2 ((hcond0_2 t).mp h)) (fun h => h3 ((hcond0_3 t).mp h))

theorem step_A_rowNum (c : Dev nD) (t : Fin cfg0.N) (h0 : t.val % 8 = 0) (h1 : t.val % 64 = 0) (h2 : ¬t.val % 8 = 7) (h3 : ¬t.val % 64 = 63) :
    (outsAt0 m c t.val t.isLt).2.2.2.1 = k0_pay9 (k0_pay7 (pblk0 m c t) (pblk1 m c t) (pblk2 m c t) (pblk3 m c t)) (k0_pay3 (F := F)) := by
  rw [outsAt0_A m c t h0 h1 h2 h3]
  dsimp only
  exact piece_A_rowNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) ((hcond0_0 t).mpr h0) ((hcond0_1 t).mpr h1) (fun h => h2 ((hcond0_2 t).mp h)) (fun h => h3 ((hcond0_3 t).mp h))

theorem step_A_colE (c : Dev nD) (t : Fin cfg0.N) (h0 : t.val % 8 = 0) (h1 : t.val % 64 = 0) (h2 : ¬t.val % 8 = 7) (h3 : ¬t.val % 64 = 63) (q : Fin 4096) :
    (outsAt0 m c t.val t.isLt).2.2.2.2.1 (ix2 (0 : Fin 1) q)
      = if h : inTile (tileOf t) q then k0_pay10 (k0_pay6 (pblk0 m c t) (pblk1 m c t)) (colSlice (tileOf t) (k0_pay4 (F := F))) (ix2 (0 : Fin 1) (tileLocal (tileOf t) q h))
        else (k0_pay4 (F := F)) (ix2 (0 : Fin 1) q) := by
  rw [outsAt0_A m c t h0 h1 h2 h3]
  dsimp only
  exact piece_A_colE (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) ((hcond0_0 t).mpr h0) ((hcond0_1 t).mpr h1) (fun h => h2 ((hcond0_2 t).mp h)) (fun h => h3 ((hcond0_3 t).mp h)) (tileOf t) (coords_tile t) q

theorem step_A_colNum (c : Dev nD) (t : Fin cfg0.N) (h0 : t.val % 8 = 0) (h1 : t.val % 64 = 0) (h2 : ¬t.val % 8 = 7) (h3 : ¬t.val % 64 = 63) (q : Fin 4096) :
    (outsAt0 m c t.val t.isLt).2.2.2.2.2 (ix2 (0 : Fin 1) q)
      = if h : inTile (tileOf t) q then k0_pay11 (k0_pay7 (pblk0 m c t) (pblk1 m c t) (pblk2 m c t) (pblk3 m c t)) (colSlice (tileOf t) (k0_pay5 (F := F))) (ix2 (0 : Fin 1) (tileLocal (tileOf t) q h))
        else (k0_pay5 (F := F)) (ix2 (0 : Fin 1) q) := by
  rw [outsAt0_A m c t h0 h1 h2 h3]
  dsimp only
  exact piece_A_colNum (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (iblk m c 0 t) (iblk m c 1 t) (iblk m c 2 t) (iblk m c 3 t) ((hcond0_0 t).mpr h0) ((hcond0_1 t).mpr h1) (fun h => h2 ((hcond0_2 t).mp h)) (fun h => h3 ((hcond0_3 t).mp h)) (tileOf t) (coords_tile t) q

end Cert.Contrastive

end
-- ==== Proof.KCol.lean ====
/-
  The column half of the accumulator invariant: what one tile's update does to the row of 4096 column sums, and that it
  carries the column accumulators of one position of the walk to those of the next. Pure statements about vectors of
  extended reals and finite sums; the walk's position `t` enters only through its row tile and its column tile.
-/
import proofs.«168801_j41678362640816_1_alg».proof.Proof.Accum
import proofs.«168801_j41678362640816_1_alg».proof.Proof.KArrays
import proofs.«168801_j41678362640816_1_alg».proof.Proof.Pieces
import Idealize.ShloMosaic.Lib.ValueIdx
import Idealize.ShloMosaic.PureOps.Ideal
import Mathlib.Algebra.BigOperators.Group.Finset.Defs

noncomputable section

namespace Cert.Contrastive

open Cert.KernelIdeal Cert.KernelIdeal.Gen
open Idealize.ShloMosaic Idealize.ShloMosaic.ValueIdx

variable (g : Fin 4096 → Fin 4096 → EReal)

/-- A pixel lies in column tile `Q` exactly when its tile number is `Q`. -/
private theorem inTile_iff (Q : Fin 8) (q : Fin 4096) : inTile Q q ↔ q.val / 512 = Q.val := by
  unfold inTile; omega

/-- One tile's update of the row of column sums: the 512 columns of the walk's current column tile receive the column sums of
    the current 512 × 512 tile, every other column keeps its value. -/
theorem col_update (t : Fin cfg0.N) (tile : Vec Ideal S512x512 .f32)
    (htile : ∀ i j : Fin 512, tile (ix2 i j) = g (pix (pOf t) i) (pix (qOf t) j))
    (new old : Vec Ideal S1x4096 .f32) (upd slice : Vec Ideal S1x512 .f32)
    (hslice : ∀ j : Fin 512, slice (ix2 (0 : Fin 1) j) = old (ix2 (0 : Fin 1) (tileCol (tileOf t) j)))
    (hupd : ∀ j : Fin 512, upd (ix2 (0 : Fin 1) j) = slice (ix2 (0 : Fin 1) j) + ∑ i : Fin 512, tile (ix2 i j))
    (hnew : ∀ q : Fin 4096, new (ix2 (0 : Fin 1) q)
      = if h : inTile (tileOf t) q then upd (ix2 (0 : Fin 1) (tileLocal (tileOf t) q h)) else old (ix2 (0 : Fin 1) q))
    (q : Fin 4096) :
    new (ix2 (0 : Fin 1) q)
      = if q.val / 512 = (qOf t).val then old (ix2 (0 : Fin 1) q) + ∑ i : Fin 512, g (pix (pOf t) i) q
        else old (ix2 (0 : Fin 1) q) := by
  have hQ : (tileOf t).val = (qOf t).val := by rw [tileOf_val, qOf_val]
  rw [hnew q]
  by_cases hq : q.val / 512 = (qOf t).val
  · have hin : inTile (tileOf t) q := (inTile_iff _ _).2 (hq.trans hQ.symm)
    have hpix : pix (qOf t) (tileLocal (tileOf t) q hin) = q := by
      have h1 := hin.1
      apply Fin.ext
      rw [pix_val, tileLocal_val, ← hQ]
      omega
    rw [dif_pos hin, if_pos hq, hupd, hslice, tileCol_tileLocal]
    congr 1
    refine Fintype.sum_congr _ _ fun i => ?_
    rw [htile, hpix]
  · have hnin : ¬ inTile (tileOf t) q := fun h => hq (((inTile_iff _ _).1 h).trans hQ)
    rw [dif_neg hnin, if_neg hq]

/-- The first tile of a batch: from a row of zeros the update leaves the column accumulators of the walk's first position. -/
theorem col_first (t : Fin cfg0.N) (h1 : t.val % 64 = 0) (new old : Vec Ideal S1x4096 .f32)
    (hold : ∀ y, old y = 0)
    (hnew : ∀ q : Fin 4096, new (ix2 (0 : Fin 1) q)
      = if q.val / 512 = (qOf t).val then old (ix2 (0 : Fin 1) q) + ∑ i : Fin 512, g (pix (pOf t) i) q
        else old (ix2 (0 : Fin 1) q))
    (q : Fin 4096) : new (ix2 (0 : Fin 1) q) = colAcc g (pOf t).val (qOf t).val q := by
  have hpv : (pOf t).val = 0 := by rw [pOf_val]; omega
  have hqv : (qOf t).val = 0 := by rw [qOf_val]; omega
  have hp : pOf t = 0 := Fin.ext hpv
  rw [hnew q, hpv, hqv, colAcc_first, hp, hold, zero_add]

/-- The first column tile of a later row tile: from the accumulators at the end of the previous row tile the update leaves
    those of the new row tile's first position. -/
theorem col_next (t : Fin cfg0.N) (h0 : t.val % 8 = 0) (_h1 : ¬t.val % 64 = 0) (P' : ℕ) (hP' : P' + 1 = (pOf t).val)
    (new old : Vec Ideal S1x4096 .f32) (hold : ∀ q : Fin 4096, old (ix2 (0 : Fin 1) q) = colAcc g P' 7 q)
    (hnew : ∀ q : Fin 4096, new (ix2 (0 : Fin 1) q)
      = if q.val / 512 = (qOf t).val then old (ix2 (0 : Fin 1) q) + ∑ i : Fin 512, g (pix (pOf t) i) q
        else old (ix2 (0 : Fin 1) q))
    (q : Fin 4096) : new (ix2 (0 : Fin 1) q) = colAcc g (pOf t).val (qOf t).val q := by
  have hP : P' + 1 < 8 := by rw [hP']; exact (pOf t).isLt
  have hqv : (qOf t).val = 0 := by rw [qOf_val]; exact h0
  have hp : pOf t = ⟨P' + 1, hP⟩ := Fin.ext hP'.symm
  rw [hnew q, hold q, ← hP', hqv, colAcc_next g P' hP q, hp]

/-- A later column tile of a row tile: from the accumulators of the previous column tile the update leaves those of this one. -/
theorem col_cont (t : Fin cfg0.N) (_h0 : ¬t.val % 8 = 0) (Q' : ℕ) (hQ' : Q' + 1 = (qOf t).val)
    (new old : Vec Ideal S1x4096 .f32)
    (hold : ∀ q : Fin 4096, old (ix2 (0 : Fin 1) q) = colAcc g (pOf t).val Q' q)
    (hnew : ∀ q : Fin 4096, new (ix2 (0 : Fin 1) q)
      = if q.val / 512 = (qOf t).val then old (ix2 (0 : Fin 1) q) + ∑ i : Fin 512, g (pix (pOf t) i) q
        else old (ix2 (0 : Fin 1) q))
    (q : Fin 4096) : new (ix2 (0 : Fin 1) q) = colAcc g (pOf t).val (qOf t).val q := by
  have hQ : Q' + 1 < 8 := by rw [hQ']; exact (qOf t).isLt
  rw [hnew q, hold q, ← hQ', colAcc_succ g (pOf t).val (pOf t).isLt Q' hQ q]

end Cert.Contrastive

end
-- ==== Proof.KInv.lean ====
/-
  What the kernel's four accumulators hold after each grid point, and what the two outputs receive.

  The launch walks the grid (4, 8, 8) in row-major order: point t is batch n = t / 64, row tile P = t % 64 / 8, column
  tile Q = t % 8. Write E p q for the exponentiated similarity of batch n and EM p q for E p q times the label mask.
  After point t
    the row accumulators hold, for each of the 512 rows of row tile P, the sum of E (of EM) over the column tiles 0 … Q;
    the column accumulators hold, for each of the 4096 columns, the sum of E (of EM) over the row tiles before P, and over
    row tile P as well when the column's own tile is not after Q.
  Both follow by induction on t from one point's update: a row accumulator is reset at Q = 0 and otherwise continues from
  the point before; a column accumulator is reset only at P = Q = 0, and each point adds its tile's column sums to the
  512 columns of column tile Q. At Q = 7 a row's accumulators are complete and their quotient is the row ratio; at
  P = Q = 7 the columns' are, and their quotient is the column ratio.
-/
import proofs.«168801_j41678362640816_1_alg».proof.Proof.KArrays
import proofs.«168801_j41678362640816_1_alg».proof.Proof.Tile
import proofs.«168801_j41678362640816_1_alg».proof.Proof.Pieces
import proofs.«168801_j41678362640816_1_alg».proof.Proof.Accum
import proofs.«168801_j41678362640816_1_alg».proof.Proof.PiecesAD
import proofs.«168801_j41678362640816_1_alg».proof.Proof.KCol

noncomputable section

namespace Cert.Contrastive

open Cert.KernelIdeal Cert.KernelIdeal.Gen Idealize.ShloMosaic Idealize.ShloMosaic.ValueIdx

variable (m : (ℓ : Loc nD τ sig) → Buf (Elt Ideal) ℓ)

/-- The exponentiated similarity of batch `n`, over the arrays the region finds. -/
def kE (c : Dev nD) (n : Fin 4) : Fin 4096 → Fin 4096 → EReal := fun p q => expSim (ka m c) (kb m c) n p q

/-- The same, kept where the two pixels' labels agree. -/
def kEM (c : Dev nD) (n : Fin 4) : Fin 4096 → Fin 4096 → EReal :=
  fun p q => expSim (ka m c) (kb m c) n p q * same (kla m c) (klb m c) n p q

/-! ## Coordinates -/

/-- Column `j` of column tile `Q` is pixel `j` of tile `Q`. -/
theorem tileCol_eq_pix (Q : Fin 8) (j : Fin 512) : tileCol Q j = pix Q j := Fin.ext rfl

/-- A point's column tile, under its two names. -/
theorem tileOf_eq_qOf (t : Fin cfg0.N) : tileOf t = qOf t := Fin.ext rfl

/-- A column lies in column tile `Q` exactly when its quotient by 512 is `Q`. -/
theorem inTile_iff (Q : Fin 8) (q : Fin 4096) : inTile Q q ↔ q.val / 512 = Q.val := by
  unfold inTile
  constructor <;> intro h <;> omega

/-- A column of its own tile is the pixel its local index names. -/
theorem pix_tileLocal (Q : Fin 8) (q : Fin 4096) (h : inTile Q q) : pix Q (tileLocal Q q h) = q := by
  rw [← tileCol_eq_pix]; exact tileCol_tileLocal Q q h

/-! ## One tile -/

/-- The exponentiated tile of point `t`: entry (i, j) is E at row i of row tile P and column j of column tile Q. -/
theorem tileE (c : Dev nD) (t : Fin cfg0.N) (i j : Fin 512) :
    k0_pay6 (F := Ideal) (pblk0 m c t) (pblk1 m c t) (ix2 i j) = kE m c (nOf t) (pix (pOf t) i) (pix (qOf t) j) := by
  refine (pay6_apply (pblk0 m c t) (pblk1 m c t) i j).trans ?_
  have hs : (∑ ch : Fin 256, pblk0 m c t (ix3 (0 : Fin 1) i ch) * pblk1 m c t (ix3 (0 : Fin 1) ch j))
      = ∑ ch : Fin 256, ka m c (nOf t) ch (pix (pOf t) i) * kb m c (nOf t) ch (pix (qOf t) j) :=
    Finset.sum_congr rfl fun ch _ => by
      rw [show pblk0 m c t (ix3 (0 : Fin 1) i ch) = ka m c (nOf t) ch (pix (pOf t) i) from blk0 m c t i ch,
        show pblk1 m c t (ix3 (0 : Fin 1) ch j) = kb m c (nOf t) ch (pix (qOf t) j) from blk1 m c t ch j]
  rw [hs]; rfl

/-- The masked tile of point `t`. -/
theorem tileEM (c : Dev nD) (t : Fin cfg0.N) (i j : Fin 512) :
    k0_pay7 (F := Ideal) (pblk0 m c t) (pblk1 m c t) (pblk2 m c t) (pblk3 m c t) (ix2 i j)
      = kEM m c (nOf t) (pix (pOf t) i) (pix (qOf t) j) := by
  refine (pay7_apply (pblk0 m c t) (pblk1 m c t) (pblk2 m c t) (pblk3 m c t) i j).trans ?_
  rw [tileE m c t i j,
    show pblk2 m c t (ix3 (0 : Fin 1) (0 : Fin 1) i) = kla m c (nOf t) (pix (pOf t) i) from blk2 m c t i,
    show pblk3 m c t (ix3 (0 : Fin 1) (0 : Fin 1) j) = klb m c (nOf t) (pix (qOf t) j) from blk3 m c t j]
  rfl

/-! ## One point's update of a row accumulator and of a column accumulator

Stated once for an arbitrary tile `tile` with entries `g (pixel i of row tile P) (pixel j of column tile Q)` and an update
`pay` that adds the tile's row sums (column sums); used for the pair (exponentiated tile, E) and for (masked tile, EM). -/

/-- The point before `t` in the walk. -/
def prevPt (t : Fin cfg0.N) : Fin cfg0.N := ⟨t.val - 1, Nat.lt_of_le_of_lt (Nat.sub_le t.val 1) t.isLt⟩

theorem prevPt_val (t : Fin cfg0.N) : (prevPt t).val = t.val - 1 := rfl

/-- Inside a row tile the point before has the same batch and row tile, and the column tile before. -/
theorem prev_same_row (t : Fin cfg0.N) (h0 : ¬t.val % 8 = 0) :
    nOf (prevPt t) = nOf t ∧ pOf (prevPt t) = pOf t ∧ (qOf (prevPt t)).val + 1 = (qOf t).val := by
  have hN := lt_256 t
  refine ⟨Fin.ext ?_, Fin.ext ?_, ?_⟩
  · show (t.val - 1) / 64 = t.val / 64; omega
  · show (t.val - 1) % 64 / 8 = t.val % 64 / 8; omega
  · show (t.val - 1) % 8 + 1 = t.val % 8; omega

/-- At the first column tile of a later row tile the point before closed the row tile before, in the same batch. -/
theorem prev_row_before (t : Fin cfg0.N) (h0 : t.val % 8 = 0) (h1 : ¬t.val % 64 = 0) :
    nOf (prevPt t) = nOf t ∧ (pOf (prevPt t)).val + 1 = (pOf t).val ∧ (qOf (prevPt t)).val = 7 ∧ (qOf t).val = 0 := by
  have hN := lt_256 t
  refine ⟨Fin.ext ?_, ?_, ?_, ?_⟩
  · show (t.val - 1) / 64 = t.val / 64; omega
  · show (t.val - 1) % 64 / 8 + 1 = t.val % 64 / 8; omega
  · show (t.val - 1) % 8 = 7; omega
  · show t.val % 8 = 0; exact h0

variable (g : Fin 4096 → Fin 4096 → EReal)

/-- A row accumulator reset at this point: after it, the first column tile's share. -/
theorem row_reset (t : Fin cfg0.N) (h0 : t.val % 8 = 0) (tile : FVec Ideal S512x512 .f32)
    (htile : ∀ i j : Fin 512, tile (ix2 i j) = g (pix (pOf t) i) (pix (qOf t) j))
    (new zero : Vec Ideal S512x1 .f32) (hzero : ∀ y, zero y = 0)
    (hnew : ∀ i : Fin 512, new (ix2 i (0 : Fin 1)) = zero (ix2 i (0 : Fin 1)) + ∑ j : Fin 512, tile (ix2 i j)) (i : Fin 512) :
    new (ix2 i (0 : Fin 1)) = rowAcc g (pOf t) (qOf t).val i := by
  have hq : qOf t = 0 := Fin.ext (by show t.val % 8 = 0; exact h0)
  rw [hnew i, hzero, zero_add, hq]
  show _ = rowAcc g (pOf t) 0 i
  rw [rowAcc_zero]
  exact Finset.sum_congr rfl fun j _ => by rw [htile i j, hq]

/-- A row accumulator continued from the point before: one more column tile's share. -/
theorem row_cont (t : Fin cfg0.N) (h0 : ¬t.val % 8 = 0) (tile : FVec Ideal S512x512 .f32)
    (htile : ∀ i j : Fin 512, tile (ix2 i j) = g (pix (pOf t) i) (pix (qOf t) j))
    (new old : Vec Ideal S512x1 .f32)
    (hold : ∀ i : Fin 512, old (ix2 i (0 : Fin 1)) = rowAcc g (pOf (prevPt t)) (qOf (prevPt t)).val i)
    (hnew : ∀ i : Fin 512, new (ix2 i (0 : Fin 1)) = old (ix2 i (0 : Fin 1)) + ∑ j : Fin 512, tile (ix2 i j)) (i : Fin 512) :
    new (ix2 i (0 : Fin 1)) = rowAcc g (pOf t) (qOf t).val i := by
  obtain ⟨_, hp, hq⟩ := prev_same_row t h0
  have hQ : (qOf (prevPt t)).val + 1 < 8 := by rw [hq]; exact (qOf t).isLt
  rw [hnew i, hold i, hp, ← hq, rowAcc_succ g (pOf t) (qOf (prevPt t)).val hQ i]
  congr 1
  exact Finset.sum_congr rfl fun j _ => by
    rw [htile i j]; congr 2; exact Fin.ext hq.symm

/-! ## The invariant, case by case, and the induction -/

/-- What the invariant says at one point. -/
def Inv (c : Dev nD) (t : Fin cfg0.N) : Prop :=
  (∀ i : Fin 512, (outsAt0 m c t.val t.isLt).2.2.1 (ix2 i (0 : Fin 1)) = rowAcc (kE m c (nOf t)) (pOf t) (qOf t).val i)
  ∧ (∀ i : Fin 512, (outsAt0 m c t.val t.isLt).2.2.2.1 (ix2 i (0 : Fin 1)) = rowAcc (kEM m c (nOf t)) (pOf t) (qOf t).val i)
  ∧ (∀ q : Fin 4096, (outsAt0 m c t.val t.isLt).2.2.2.2.1 (ix2 (0 : Fin 1) q) = colAcc (kE m c (nOf t)) (pOf t).val (qOf t).val q)
  ∧ (∀ q : Fin 4096, (outsAt0 m c t.val t.isLt).2.2.2.2.2 (ix2 (0 : Fin 1) q) = colAcc (kEM m c (nOf t)) (pOf t).val (qOf t).val q)

/-- A point's update of the first column accumulator over `old`: the columns of its own column tile receive the tile's
    column sums of E, the others keep `old`. -/
theorem colE_upd (c : Dev nD) (t : Fin cfg0.N) (old : Vec Ideal S1x4096 .f32)
    (hstep : ∀ q : Fin 4096, (outsAt0 m c t.val t.isLt).2.2.2.2.1 (ix2 (0 : Fin 1) q)
      = if h : inTile (tileOf t) q then
          k0_pay10 (F := Ideal) (k0_pay6 (pblk0 m c t) (pblk1 m c t)) (colSlice (tileOf t) old) (ix2 (0 : Fin 1) (tileLocal (tileOf t) q h))
        else old (ix2 (0 : Fin 1) q)) (q : Fin 4096) :
    (outsAt0 m c t.val t.isLt).2.2.2.2.1 (ix2 (0 : Fin 1) q)
      = if q.val / 512 = (qOf t).val then old (ix2 (0 : Fin 1) q) + ∑ i : Fin 512, kE m c (nOf t) (pix (pOf t) i) q
        else old (ix2 (0 : Fin 1) q) :=
  col_update (kE m c (nOf t)) t (k0_pay6 (F := Ideal) (pblk0 m c t) (pblk1 m c t)) (tileE m c t)
    (outsAt0 m c t.val t.isLt).2.2.2.2.1 old
    (k0_pay10 (F := Ideal) (k0_pay6 (pblk0 m c t) (pblk1 m c t)) (colSlice (tileOf t) old)) (colSlice (tileOf t) old)
    (fun j => colSlice_apply (tileOf t) old j) (fun j => pay10_apply _ _ j) hstep q

/-- The same for the masked accumulator. -/
theorem colEM_upd (c : Dev nD) (t : Fin cfg0.N) (old : Vec Ideal S1x4096 .f32)
    (hstep : ∀ q : Fin 4096, (outsAt0 m c t.val t.isLt).2.2.2.2.2 (ix2 (0 : Fin 1) q)
      = if h : inTile (tileOf t) q then
          k0_pay11 (F := Ideal) (k0_pay7 (pblk0 m c t) (pblk1 m c t) (pblk2 m c t) (pblk3 m c t)) (colSlice (tileOf t) old)
            (ix2 (0 : Fin 1) (tileLocal (tileOf t) q h))
        else old (ix2 (0 : Fin 1) q)) (q : Fin 4096) :
    (outsAt0 m c t.val t.isLt).2.2.2.2.2 (ix2 (0 : Fin 1) q)
      = if q.val / 512 = (qOf t).val then old (ix2 (0 : Fin 1) q) + ∑ i : Fin 512, kEM m c (nOf t) (pix (pOf t) i) q
        else old (ix2 (0 : Fin 1) q) :=
  col_update (kEM m c (nOf t)) t (k0_pay7 (F := Ideal) (pblk0 m c t) (pblk1 m c t) (pblk2 m c t) (pblk3 m c t)) (tileEM m c t)
    (outsAt0 m c t.val t.isLt).2.2.2.2.2 old
    (k0_pay11 (F := Ideal) (k0_pay7 (pblk0 m c t) (pblk1 m c t) (pblk2 m c t) (pblk3 m c t)) (colSlice (tileOf t) old))
    (colSlice (tileOf t) old)
    (fun j => colSlice_apply (tileOf t) old j) (fun j => pay11_apply _ _ j) hstep q

/-- Inside a row tile (not its first column tile): all four accumulators continue from the point before. -/
theorem inv_cont (c : Dev nD) (t : Fin cfg0.N) (h0 : ¬t.val % 8 = 0)
    (sRE : (outsAt0 m c t.val t.isLt).2.2.1 = k0_pay8 (k0_pay6 (pblk0 m c t) (pblk1 m c t)) (prevOuts m c t).2.2.1)
    (sRN : (outsAt0 m c t.val t.isLt).2.2.2.1
      = k0_pay9 (k0_pay7 (pblk0 m c t) (pblk1 m c t) (pblk2 m c t) (pblk3 m c t)) (prevOuts m c t).2.2.2.1)
    (sCE : ∀ q : Fin 4096, (outsAt0 m c t.val t.isLt).2.2.2.2.1 (ix2 (0 : Fin 1) q)
      = if h : inTile (tileOf t) q then
          k0_pay10 (F := Ideal) (k0_pay6 (pblk0 m c t) (pblk1 m c t)) (colSlice (tileOf t) (prevOuts m c t).2.2.2.2.1)
            (ix2 (0 : Fin 1) (tileLocal (tileOf t) q h))
        else (prevOuts m c t).2.2.2.2.1 (ix2 (0 : Fin 1) q))
    (sCN : ∀ q : Fin 4096, (outsAt0 m c t.val t.isLt).2.2.2.2.2 (ix2 (0 : Fin 1) q)
      = if h : inTile (tileOf t) q then
          k0_pay11 (F := Ideal) (k0_pay7 (pblk0 m c t) (pblk1 m c t) (pblk2 m c t) (pblk3 m c t))
            (colSlice (tileOf t) (prevOuts m c t).2.2.2.2.2) (ix2 (0 : Fin 1) (tileLocal (tileOf t) q h))
        else (prevOuts m c t).2.2.2.2.2 (ix2 (0 : Fin 1) q))
    (ih : Inv m c (prevPt t)) : Inv m c t := by
  obtain ⟨hn, hp, hq⟩ := prev_same_row t h0
  obtain ⟨iRE, iRN, iCE, iCN⟩ := ih
  rw [hn, hp] at iRE iRN iCE iCN
  refine ⟨fun i => ?_, fun i => ?_, fun q => ?_, fun q => ?_⟩
  · refine row_cont (kE m c (nOf t)) t h0 (k0_pay6 (F := Ideal) (pblk0 m c t) (pblk1 m c t)) (tileE m c t) _
      (prevOuts m c t).2.2.1 (fun i => ?_) (fun i => ?_) i
    · rw [hp]; exact iRE i
    · rw [sRE]; exact pay8_apply _ _ i
  · refine row_cont (kEM m c (nOf t)) t h0 (k0_pay7 (F := Ideal) (pblk0 m c t) (pblk1 m c t) (pblk2 m c t) (pblk3 m c t))
      (tileEM m c t) _ (prevOuts m c t).2.2.2.1 (fun i => ?_) (fun i => ?_) i
    · rw [hp]; exact iRN i
    · rw [sRN]; exact pay9_apply _ _ i
  · exact col_cont (kE m c (nOf t)) t h0 (qOf (prevPt t)).val hq _ (prevOuts m c t).2.2.2.2.1 iCE
      (colE_upd m c t _ sCE) q
  · exact col_cont (kEM m c (nOf t)) t h0 (qOf (prevPt t)).val hq _ (prevOuts m c t).2.2.2.2.2 iCN
      (colEM_upd m c t _ sCN) q

/-- At the first column tile of a later row tile: the row accumulators restart, the column accumulators continue. -/
theorem inv_next (c : Dev nD) (t : Fin cfg0.N) (h0 : t.val % 8 = 0) (h1 : ¬t.val % 64 = 0)
    (sRE : (outsAt0 m c t.val t.isLt).2.2.1 = k0_pay8 (k0_pay6 (pblk0 m c t) (pblk1 m c t)) (k0_pay2 (F := Ideal)))
    (sRN : (outsAt0 m c t.val t.isLt).2.2.2.1
      = k0_pay9 (k0_pay7 (pblk0 m c t) (pblk1 m c t) (pblk2 m c t) (pblk3 m c t)) (k0_pay3 (F := Ideal)))
    (sCE : ∀ q : Fin 4096, (outsAt0 m c t.val t.isLt).2.2.2.2.1 (ix2 (0 : Fin 1) q)
      = if h : inTile (tileOf t) q then
          k0_pay10 (F := Ideal) (k0_pay6 (pblk0 m c t) (pblk1 m c t)) (colSlice (tileOf t) (prevOuts m c t).2.2.2.2.1)
            (ix2 (0 : Fin 1) (tileLocal (tileOf t) q h))
        else (prevOuts m c t).2.2.2.2.1 (ix2 (0 : Fin 1) q))
    (sCN : ∀ q : Fin 4096, (outsAt0 m c t.val t.isLt).2.2.2.2.2 (ix2 (0 : Fin 1) q)
      = if h : inTile (tileOf t) q then
          k0_pay11 (F := Ideal) (k0_pay7 (pblk0 m c t) (pblk1 m c t) (pblk2 m c t) (pblk3 m c t))
            (colSlice (tileOf t) (prevOuts m c t).2.2.2.2.2) (ix2 (0 : Fin 1) (tileLocal (tileOf t) q h))
        else (prevOuts m c t).2.2.2.2.2 (ix2 (0 : Fin 1) q))
    (ih : Inv m c (prevPt t)) : Inv m c t := by
  obtain ⟨hn, hp, hq7, _⟩ := prev_row_before t h0 h1
  obtain ⟨_, _, iCE, iCN⟩ := ih
  rw [hn, hq7] at iCE iCN
  refine ⟨fun i => ?_, fun i => ?_, fun q => ?_, fun q => ?_⟩
  · exact row_reset (kE m c (nOf t)) t h0 (k0_pay6 (F := Ideal) (pblk0 m c t) (pblk1 m c t)) (tileE m c t) _
      (k0_pay2 (F := Ideal)) pay2_apply (fun i => by rw [sRE]; exact pay8_apply _ _ i) i
  · exact row_reset (kEM m c (nOf t)) t h0 (k0_pay7 (F := Ideal) (pblk0 m c t) (pblk1 m c t) (pblk2 m c t) (pblk3 m c t))
      (tileEM m c t) _ (k0_pay3 (F := Ideal)) pay3_apply (fun i => by rw [sRN]; exact pay9_apply _ _ i) i
  · exact col_next (kE m c (nOf t)) t h0 h1 (pOf (prevPt t)).val hp _ (prevOuts m c t).2.2.2.2.1 iCE
      (colE_upd m c t _ sCE) q
  · exact col_next (kEM m c (nOf t)) t h0 h1 (pOf (prevPt t)).val hp _ (prevOuts m c t).2.2.2.2.2 iCN
      (colEM_upd m c t _ sCN) q

/-- At the first tile of a batch everything restarts. -/
theorem inv_first (c : Dev nD) (t : Fin cfg0.N) (h0 : t.val % 8 = 0) (h1 : t.val % 64 = 0)
    (sRE : (outsAt0 m c t.val t.isLt).2.2.1 = k0_pay8 (k0_pay6 (pblk0 m c t) (pblk1 m c t)) (k0_pay2 (F := Ideal)))
    (sRN : (outsAt0 m c t.val t.isLt).2.2.2.1
      = k0_pay9 (k0_pay7 (pblk0 m c t) (pblk1 m c t) (pblk2 m c t) (pblk3 m c t)) (k0_pay3 (F := Ideal)))
    (sCE : ∀ q : Fin 4096, (outsAt0 m c t.val t.isLt).2.2.2.2.1 (ix2 (0 : Fin 1) q)
      = if h : inTile (tileOf t) q then
          k0_pay10 (F := Ideal) (k0_pay6 (pblk0 m c t) (pblk1 m c t)) (colSlice (tileOf t) (k0_pay4 (F := Ideal)))
            (ix2 (0 : Fin 1) (tileLocal (tileOf t) q h))
        else (k0_pay4 (F := Ideal)) (ix2 (0 : Fin 1) q))
    (sCN : ∀ q : Fin 4096, (outsAt0 m c t.val t.isLt).2.2.2.2.2 (ix2 (0 : Fin 1) q)
      = if h : inTile (tileOf t) q then
          k0_pay11 (F := Ideal) (k0_pay7 (pblk0 m c t) (pblk1 m c t) (pblk2 m c t) (pblk3 m c t))
            (colSlice (tileOf t) (k0_pay5 (F := Ideal))) (ix2 (0 : Fin 1) (tileLocal (tileOf t) q h))
        else (k0_pay5 (F := Ideal)) (ix2 (0 : Fin 1) q)) : Inv m c t := by
  refine ⟨fun i => ?_, fun i => ?_, fun q => ?_, fun q => ?_⟩
  · exact row_reset (kE m c (nOf t)) t h0 (k0_pay6 (F := Ideal) (pblk0 m c t) (pblk1 m c t)) (tileE m c t) _
      (k0_pay2 (F := Ideal)) pay2_apply (fun i => by rw [sRE]; exact pay8_apply _ _ i) i
  · exact row_reset (kEM m c (nOf t)) t h0 (k0_pay7 (F := Ideal) (pblk0 m c t) (pblk1 m c t) (pblk2 m c t) (pblk3 m c t))
      (tileEM m c t) _ (k0_pay3 (F := Ideal)) pay3_apply (fun i => by rw [sRN]; exact pay9_apply _ _ i) i
  · exact col_first (kE m c (nOf t)) t h1 _ (k0_pay4 (F := Ideal)) pay4_apply (colE_upd m c t _ sCE) q
  · exact col_first (kEM m c (nOf t)) t h1 _ (k0_pay5 (F := Ideal)) pay5_apply (colEM_upd m c t _ sCN) q

/-- The invariant at every point, by induction along the walk. -/
theorem inv_all (c : Dev nD) : ∀ (n : ℕ) (t : Fin cfg0.N), t.val = n → Inv m c t := by
  intro n
  induction n with
  | zero =>
    intro t ht
    have h0 : t.val % 8 = 0 := by omega
    have h1 : t.val % 64 = 0 := by omega
    have h2 : ¬t.val % 8 = 7 := by omega
    have h3 : ¬t.val % 64 = 63 := by omega
    exact inv_first m c t h0 h1 (step_A_rowE m c t h0 h1 h2 h3) (step_A_rowNum m c t h0 h1 h2 h3)
      (step_A_colE m c t h0 h1 h2 h3) (step_A_colNum m c t h0 h1 h2 h3)
  | succ n ih =>
    intro t ht
    have hN := lt_256 t
    have ihp : Inv m c (prevPt t) := ih (prevPt t) (by rw [prevPt_val]; omega)
    by_cases h0 : t.val % 8 = 0
    · have h2 : ¬t.val % 8 = 7 := by omega
      have h3 : ¬t.val % 64 = 63 := by omega
      by_cases h1 : t.val % 64 = 0
      · exact inv_first m c t h0 h1 (step_A_rowE m c t h0 h1 h2 h3) (step_A_rowNum m c t h0 h1 h2 h3)
          (step_A_colE m c t h0 h1 h2 h3) (step_A_colNum m c t h0 h1 h2 h3)
      · exact inv_next m c t h0 h1 (step_D_rowE m c t h0 h1 h2 h3) (step_D_rowNum m c t h0 h1 h2 h3)
          (step_D_colE m c t h0 h1 h2 h3) (step_D_colNum m c t h0 h1 h2 h3) ihp
    · have h1 : ¬t.val % 64 = 0 := by omega
      by_cases h2 : t.val % 8 = 7
      · by_cases h3 : t.val % 64 = 63
        · exact inv_cont m c t h0 (step_E_rowE m c t h0 h1 h2 h3) (step_E_rowNum m c t h0 h1 h2 h3)
            (step_E_colE m c t h0 h1 h2 h3) (step_E_colNum m c t h0 h1 h2 h3) ihp
        · exact inv_cont m c t h0 (step_C_rowE m c t h0 h1 h2 h3) (step_C_rowNum m c t h0 h1 h2 h3)
            (step_C_colE m c t h0 h1 h2 h3) (step_C_colNum m c t h0 h1 h2 h3) ihp
      · have h3 : ¬t.val % 64 = 63 := by omega
        exact inv_cont m c t h0 (step_B_rowE m c t h0 h1 h2 h3) (step_B_rowNum m c t h0 h1 h2 h3)
          (step_B_colE m c t h0 h1 h2 h3) (step_B_colNum m c t h0 h1 h2 h3) ihp

/-! ## The invariant and the two outputs -/

/-- The accumulators after point `t`. -/
theorem inv (c : Dev nD) (t : Fin cfg0.N) :
    (∀ i : Fin 512, (outsAt0 m c t.val t.isLt).2.2.1 (ix2 i (0 : Fin 1)) = rowAcc (kE m c (nOf t)) (pOf t) (qOf t).val i)
    ∧ (∀ i : Fin 512, (outsAt0 m c t.val t.isLt).2.2.2.1 (ix2 i (0 : Fin 1)) = rowAcc (kEM m c (nOf t)) (pOf t) (qOf t).val i)
    ∧ (∀ q : Fin 4096, (outsAt0 m c t.val t.isLt).2.2.2.2.1 (ix2 (0 : Fin 1) q) = colAcc (kE m c (nOf t)) (pOf t).val (qOf t).val q)
    ∧ (∀ q : Fin 4096, (outsAt0 m c t.val t.isLt).2.2.2.2.2 (ix2 (0 : Fin 1) q) = colAcc (kEM m c (nOf t)) (pOf t).val (qOf t).val q) :=
  inv_all m c t.val t rfl

/-- At the last column tile of a row tile the first output's block receives the row ratios of that row tile. -/
theorem out4_at (c : Dev nD) (t : Fin cfg0.N) (h : t.val % 8 = 7) (i : Fin 512) :
    (outsAt0 m c t.val t.isLt).1 (ix3 (0 : Fin 1) (0 : Fin 1) i)
      = rowRatio (ka m c) (kb m c) (kla m c) (klb m c) (nOf t) (pix (pOf t) i) := by
  have hN := lt_256 t
  have h0 : ¬t.val % 8 = 0 := by omega
  have h1 : ¬t.val % 64 = 0 := by omega
  have hstep : (outsAt0 m c t.val t.isLt).1
      = k0_pay12 (outsAt0 m c t.val t.isLt).2.2.2.1 (outsAt0 m c t.val t.isLt).2.2.1 := by
    by_cases h3 : t.val % 64 = 63
    · exact step_E_out4 m c t h0 h1 h h3
    · exact step_C_out4 m c t h0 h1 h h3
  obtain ⟨hE, hEM, _, _⟩ := inv m c t
  have hq : (qOf t).val = 7 := h
  rw [hstep]
  refine (pay12_apply _ _ i).trans ?_
  rw [hEM i, hE i, hq, rowAcc_last, rowAcc_last]
  rfl

/-- At the last tile of a batch the second output's block receives the batch's column ratios. -/
theorem out5_at (c : Dev nD) (t : Fin cfg0.N) (h : t.val % 64 = 63) (q : Fin 4096) :
    (outsAt0 m c t.val t.isLt).2.1 (ix3 (0 : Fin 1) (0 : Fin 1) q)
      = colRatio (ka m c) (kb m c) (kla m c) (klb m c) (nOf t) q := by
  have hN := lt_256 t
  have h0 : ¬t.val % 8 = 0 := by omega
  have h1 : ¬t.val % 64 = 0 := by omega
  have h2 : t.val % 8 = 7 := by omega
  obtain ⟨_, _, hE, hEM⟩ := inv m c t
  have hp : (pOf t).val = 7 := by show t.val % 64 / 8 = 7; omega
  have hq : (qOf t).val = 7 := h2
  rw [step_E_out5 m c t h0 h1 h2 h]
  refine (pay1_apply _ _ q).trans ?_
  rw [hEM q, hE q, hp, hq, colAcc_last, colAcc_last]
  rfl

end Cert.Contrastive

end
-- ==== Proof.Blocks.lean ====
/-
  The two output arrays after the kernel region has run.

  The region walks the 4096 × 4096 matrix of each of the 4 batches in 8 × 8 tiles of 512 × 512, row tile by row tile and
  inside a row tile column tile by column tile: point t has batch n = t / 64, row tile P = (t mod 64) / 8 and column tile
  Q = t mod 8. The first output array, [4, 1, 4096], is written back in blocks [1, 1, 512] at block index (n, 0, P), at
  the points that finish a row tile (Q = 7); the second, [4, 1, 4096], in blocks [1, 1, 4096] at block index (n, 0, 0), at
  the points that finish a batch (P = Q = 7). What such a point writes back is the row ratios of its row tile, respectively
  the column ratios of its batch; a block's coordinate on an axis is the block index times the block's extent plus the
  coordinate inside the block, so every write-back is the matching block of ONE array-wide function, and since the blocks
  written back fill the arrays, each array ends holding that function: the row ratios and the column ratios.
-/
import proofs.«168801_j41678362640816_1_alg».proof.Proof.Gen.KernelIdeal.Frame
import proofs.«168801_j41678362640816_1_alg».proof.Proof.KArrays
import proofs.«168801_j41678362640816_1_alg».proof.Proof.KInv
import Idealize.ShloMosaic.Lib.Pipeline.Value
import Idealize.ShloMosaic.Lib.ValueIdx

noncomputable section

namespace Cert.Contrastive

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The two output arrays after the walk

Window 4 writes a row tile's 512 ratios back each time the walk finishes a row tile (the points whose column tile is the
last); window 5 writes a batch's 4096 column ratios back when the walk finishes the batch (the point whose row and column
tiles are both the last). Each write-back is the matching block of one array-wide function, and the blocks written back
fill the array, so each array ends holding that function. -/

/-- What output array 4 ends holding: at (n, 0, p) the row ratio of pixel p of batch n. -/
def G4 (c : Dev nD) : Buf (Elt Ideal) ((cfg0.win 4).arr.view.loc (c.tc : Thread nD τ)) :=
  (fun y => rowRatio (ka m c) (kb m c) (kla m c) (klb m c) (y 0) (y 2) : S4x1x4096.Idx → EReal)

/-- What output array 5 ends holding: at (n, 0, q) the column ratio of pixel q of batch n. -/
def G5 (c : Dev nD) : Buf (Elt Ideal) ((cfg0.win 5).arr.view.loc (c.tc : Thread nD τ)) :=
  (fun y => colRatio (ka m c) (kb m c) (kla m c) (klb m c) (y 0) (y 2) : S4x1x4096.Idx → EReal)

theorem G4_apply (c : Dev nD) (n : Fin 4) (z : Fin 1) (s : Fin 4096) :
    (G4 m c : S4x1x4096.Idx → EReal) (ix3 n z s) = rowRatio (ka m c) (kb m c) (kla m c) (klb m c) n s := rfl

theorem G5_apply (c : Dev nD) (n : Fin 4) (z : Fin 1) (s : Fin 4096) :
    (G5 m c : S4x1x4096.Idx → EReal) (ix3 n z s) = colRatio (ka m c) (kb m c) (kla m c) (klb m c) n s := rfl

/-! ## Where a point's blocks sit -/

/-- The block indices of output window 4 at a point: (batch, 0, row tile). -/
theorem idx4 : ∀ t : Fin cfg0.N, win0_4.index t (0 : Fin 3) = t.val / 64
    ∧ win0_4.index t (1 : Fin 3) = 0
    ∧ win0_4.index t (2 : Fin 3) = t.val % 64 / 8 :=
  (by decide +kernel : ∀ t : Fin grid0.N, _)

/-- The block indices of output window 5 at a point: (batch, 0, 0). -/
theorem idx5 : ∀ t : Fin cfg0.N, win0_5.index t (0 : Fin 3) = t.val / 64
    ∧ win0_5.index t (1 : Fin 3) = 0
    ∧ win0_5.index t (2 : Fin 3) = 0 :=
  (by decide +kernel : ∀ t : Fin grid0.N, _)

/-- Element (0, 0, i) of window 4's block at point t is element (n, 0, 512·P + i) of the array. -/
theorem emb4 (t : Fin cfg0.N) (z z' : Fin 1) (i : Fin 512) :
    (((cfg0.win 4).blk t).view.emb (ix3 z z' i) : S4x1x4096.Idx) = ix3 (nOf t) 0 (pix (pOf t) i) := by
  obtain ⟨e0, e1, e2⟩ := idx4 t
  funext a; apply Fin.ext
  match a with
  | ⟨0, _⟩ => show win0_4.index t (0 : Fin 3) * 1 + 1 * z.val = t.val / 64; have := z.isLt; omega
  | ⟨1, _⟩ => show win0_4.index t (1 : Fin 3) * 1 + 1 * z'.val = 0; have := z'.isLt; omega
  | ⟨2, _⟩ => show win0_4.index t (2 : Fin 3) * 512 + 1 * i.val = 512 * (t.val % 64 / 8) + i.val; omega

/-- Element (0, 0, q) of window 5's block at point t is element (n, 0, q) of the array. -/
theorem emb5 (t : Fin cfg0.N) (z z' : Fin 1) (q : Fin 4096) :
    (((cfg0.win 5).blk t).view.emb (ix3 z z' q) : S4x1x4096.Idx) = ix3 (nOf t) 0 q := by
  obtain ⟨e0, e1, e2⟩ := idx5 t
  funext a; apply Fin.ext
  match a with
  | ⟨0, _⟩ => show win0_5.index t (0 : Fin 3) * 1 + 1 * z.val = t.val / 64; have := z.isLt; omega
  | ⟨1, _⟩ => show win0_5.index t (1 : Fin 3) * 1 + 1 * z'.val = 0; have := z'.isLt; omega
  | ⟨2, _⟩ => show win0_5.index t (2 : Fin 3) * 4096 + 1 * q.val = q.val; omega

/-! ## What a point writes back -/

/-- At a point that finishes a row tile, each element of window 4's staging buffer is `G4` at the element's place in the array. -/
theorem out4_blk (c : Dev nD) (t : Fin cfg0.N) (h : t.val % 8 = 7) (j : S1x1x512.Idx) :
    (outsAt0 m c t.val t.isLt).1 j = (G4 m c : S4x1x4096.Idx → EReal) (((cfg0.win 4).blk t).view.emb j) := by
  obtain ⟨z, z', i, rfl⟩ : ∃ (z z' : Fin 1) (i : Fin 512), j = ix3 z z' i := ⟨j 0, j 1, j 2, eq_ix3 (n0 := 1) (n1 := 1) (n2 := 512) j⟩
  obtain rfl : z = 0 := Subsingleton.elim _ _
  obtain rfl : z' = 0 := Subsingleton.elim _ _
  rw [emb4, G4_apply]
  exact out4_at m c t h i

/-- An array read through window 4's block at a point: element j of the block is the array's element at j's place. -/
theorem read_blk4 (G : S4x1x4096.Idx → EReal) (t : Fin cfg0.N) (j : S1x1x512.Idx) :
    ((cfg0.win 4).blk t).view.read (Elt Ideal) G j = G (((cfg0.win 4).blk t).view.emb j) := rfl

/-- A point that finishes a row tile writes back that tile's block of `G4`. -/
theorem flushed4_eq (c : Dev nD) (t : Fin cfg0.N) (h : t.val % 8 = 7) :
    (dats m 0 c).flushed 4 t = ((cfg0.win 4).blk t).view.read (Elt Ideal) (G4 m c) := by
  show (cfg0.win 4).cut (grid0.coords t) ((dats m 0 c).after 4 t) = _
  rw [after0_4]
  funext j
  exact (out4_blk m c t h j).trans (read_blk4 (G4 m c) t j).symm

/-- At the point that finishes a batch, each element of window 5's staging buffer is `G5` at the element's place in the array. -/
theorem out5_blk (c : Dev nD) (t : Fin cfg0.N) (h : t.val % 64 = 63) (j : S1x1x4096.Idx) :
    (outsAt0 m c t.val t.isLt).2.1 j = (G5 m c : S4x1x4096.Idx → EReal) (((cfg0.win 5).blk t).view.emb j) := by
  obtain ⟨z, z', q, rfl⟩ : ∃ (z z' : Fin 1) (q : Fin 4096), j = ix3 z z' q := ⟨j 0, j 1, j 2, eq_ix3 (n0 := 1) (n1 := 1) (n2 := 4096) j⟩
  obtain rfl : z = 0 := Subsingleton.elim _ _
  obtain rfl : z' = 0 := Subsingleton.elim _ _
  rw [emb5, G5_apply]
  exact out5_at m c t h q

/-- An array read through window 5's block at a point: element j of the block is the array's element at j's place. -/
theorem read_blk5 (G : S4x1x4096.Idx → EReal) (t : Fin cfg0.N) (j : S1x1x4096.Idx) :
    ((cfg0.win 5).blk t).view.read (Elt Ideal) G j = G (((cfg0.win 5).blk t).view.emb j) := rfl

/-- The point that finishes a batch writes back that batch's block of `G5`. -/
theorem flushed5_eq (c : Dev nD) (t : Fin cfg0.N) (h : t.val % 64 = 63) :
    (dats m 0 c).flushed 5 t = ((cfg0.win 5).blk t).view.read (Elt Ideal) (G5 m c) := by
  show (cfg0.win 5).cut (grid0.coords t) ((dats m 0 c).after 5 t) = _
  rw [after0_5]
  funext j
  exact (out5_blk m c t h j).trans (read_blk5 (G5 m c) t j).symm

/-! ## The blocks written back fill the arrays -/

/-- An index of array 4 is in point t's block iff each coordinate is in the block's range on its axis. -/
theorem mem_blk4 (t : Fin cfg0.N) (i : S4x1x4096.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v25_0).slice (win0_4.rect t)).set ↔ _
  rw [View.set_slice_whole, Rect.mem_set_unit]
  exact Iff.rfl

/-- An index of array 5 is in point t's block iff each coordinate is in the block's range on its axis. -/
theorem mem_blk5 (t : Fin cfg0.N) (i : S4x1x4096.Idx) :
    i ∈ ((cfg0.win 5).blk t).view.set ↔ ∀ a : Fin 3, win0_5.index t a * S1x1x4096.size a ≤ (i a).val ∧ (i a).val < win0_5.index t a * S1x1x4096.size a + S1x1x4096.size a := by
  show i ∈ ((View.whole main_v25_1).slice (win0_5.rect t)).set ↔ _
  rw [View.set_slice_whole, Rect.mem_set_unit]
  exact Iff.rfl

/-- Element (n, 0, s) of array 4 is written back by the point that finishes row tile s / 512 of batch n. -/
theorem cover4 (i : S4x1x4096.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 4096 := (i 2).isLt
  have hN : cfg0.N = 256 := N_0
  obtain ⟨t, ht⟩ : ∃ t : Fin cfg0.N, t.val = 64 * (i 0).val + 8 * ((i 2).val / 512) + 7 :=
    ⟨⟨64 * (i 0).val + 8 * ((i 2).val / 512) + 7, by rw [hN]; omega⟩, rfl⟩
  obtain ⟨e0, e1, e2⟩ := idx4 t
  refine ⟨t, (flush0_4 t).mpr (by rw [ht]; omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 512 ≤ (i 2).val ∧ (i 2).val < win0_4.index t (2 : Fin 3) * 512 + 512; omega

/-- Element (n, 0, s) of array 5 is written back by the point that finishes batch n. -/
theorem cover5 (i : S4x1x4096.Idx) :
    ∃ t : Fin cfg0.N, (cfg0.win 5).flush t = true ∧ i ∈ ((cfg0.win 5).blk t).view.set := by
  have h0 : (i 0).val < 4 := (i 0).isLt
  have h1 : (i 1).val < 1 := (i 1).isLt
  have h2 : (i 2).val < 4096 := (i 2).isLt
  have hN : cfg0.N = 256 := N_0
  obtain ⟨t, ht⟩ : ∃ t : Fin cfg0.N, t.val = 64 * (i 0).val + 63 :=
    ⟨⟨64 * (i 0).val + 63, by rw [hN]; omega⟩, rfl⟩
  obtain ⟨e0, e1, e2⟩ := idx5 t
  refine ⟨t, (flush0_5 t).mpr (by rw [ht]; omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 4096 ≤ (i 2).val ∧ (i 2).val < win0_5.index t (2 : Fin 3) * 4096 + 4096; omega

/-! ## The arrays after the run -/

/-- Output array 4 ends holding the row ratios. -/
theorem final4 (c : Dev nD) : (dats m 0 c).arrAt 4 cfg0.N = G4 m c :=
  (dats m 0 c).arrAt_eq_of_cover 4 (G4 m c) (fun t hf => flushed4_eq m c t ((flush0_4 t).mp hf)) cover4

/-- Output array 5 ends holding the column ratios. -/
theorem final5 (c : Dev nD) : (dats m 0 c).arrAt 5 cfg0.N = G5 m c :=
  (dats m 0 c).arrAt_eq_of_cover 5 (G5 m c) (fun t hf => flushed5_eq m c t ((flush0_5 t).mp hf)) cover5

end Cert.Contrastive

end
-- ==== Proof.Tail.lean ====
import proofs.«168801_j41678362640816_1_alg».proof.Proof.Gen.KernelIdeal.Launch
import proofs.«168801_j41678362640816_1_alg».proof.Proof.Gen.ReferenceIdeal.Read

/-!
# The loss after the two ratio arrays

Both programs finish in the same way.  From the row ratios and the column ratios (each a `[4, 4096]` array of
floats) and the two label arrays (each `[4, 4096]` integers) they

* stack the two ratio arrays into one `[8, 4096]` array, and the two label arrays likewise;
* keep a ratio where its label is positive and replace it by zero elsewhere (multiplication by the float of
  `label > 0`);
* take `-log` of every kept ratio that is not zero, and `0` at the others (the logarithm is evaluated at `1`
  there, and its value discarded);
* add up all `8 · 4096` entries, count the nonzero kept ratios, and divide the sum by the count, the count
  replaced by `1` when it is smaller.

`lossTail` is that function of the four arrays, written once with the kernel program's shape names.  It is never
opened: the reference's result is `lossTail` of its own four stages by unfolding the stages' definitions (the two
programs' shape names are different names of the same literals), and the kernel's result is stated over the same
function, so that the two results agree as soon as the four arguments do.
-/

noncomputable section

namespace Cert.Contrastive

open Idealize.ShloMosaic Idealize.SL.Sem
open Cert.KernelIdeal Cert.KernelIdeal.Gen

/-- The mean of `-log` over the nonzero entries of the label-masked stack of the two ratio arrays
    (`r_rgb` above `r_ir`, masked by `rm` above `im` being positive); the divisor is at least `1`. -/
def lossTail (r_rgb r_ir : (⟨S4x4096, .f32⟩ : BufTy).Contents (Elt Ideal))
    (rm im : (⟨S4x4096, .i32⟩ : BufTy).Contents (Elt Ideal)) : (⟨S_, .f32⟩ : BufTy).Contents (Elt Ideal) :=
  -- the two label arrays stacked, compared with zero: 1 where the label is positive
  let pos : (⟨S8x4096, .i1⟩ : BufTy).Contents (Elt Ideal) :=
    cmpi .sgt
      (concatenate S8x4096 0 [⟨S4x4096, rm⟩, ⟨S4x4096, im⟩] concatenates_S4x4096_S4x4096_S8x4096_d0)
      (broadcastInDim S8x4096 ![] bcast_S_S8x4096 (constantI S_ 32 0#32))
  -- the two ratio arrays stacked, kept where the label is positive and zeroed elsewhere
  let x : (⟨S8x4096, .f32⟩ : BufTy).Contents (Elt Ideal) :=
    mulf
      (concatenate S8x4096 0 [⟨S4x4096, r_rgb⟩, ⟨S4x4096, r_ir⟩] concatenates_S4x4096_S4x4096_S8x4096_d0)
      (uitofp (F := Ideal) .f32 pos)
  -- 1 where the kept ratio is not zero
  let nz : (⟨S8x4096, .i1⟩ : BufTy).Contents (Elt Ideal) :=
    cmpf (F := Ideal) .une x (broadcastInDim S8x4096 ![] bcast_S_S8x4096 (constant (F := Ideal) S_ .f32 0x00000000#32))
  -- minus the logarithm of the ratio where it is not zero (the logarithm is taken of 1 elsewhere), and 0 elsewhere
  let nl : (⟨S8x4096, .f32⟩ : BufTy).Contents (Elt Ideal) :=
    select nz
      (Host.negf (F := Ideal) (Host.log (F := Ideal)
        (select nz x (broadcastInDim S8x4096 ![] bcast_S_S8x4096 (id (constant (F := Ideal) S_ .f32 0x3F800000#32))))))
      (broadcastInDim S8x4096 ![] bcast_S_S8x4096 (id (constant (F := Ideal) S_ .f32 0x00000000#32)))
  -- the sum of all entries, over the number of nonzero entries (at least 1)
  Host.divf (F := Ideal)
    (Host.reduceAdd (F := Ideal) nl (constant (F := Ideal) S_ .f32 0x00000000#32) reducesTo_S8x4096_S_d0_1 h_S_)
    (maximumf (F := Ideal)
      (sitofp (F := Ideal) .f32
        (Host.reduce IntOp.addi (extui 32 nz natLt_1_32) (constantI S_ 32 0#32) reducesTo_S8x4096_S_d0_1 h_S_))
      (constant (F := Ideal) S_ .f32 0x3F800000#32))

/-- The reference's result is `lossTail` of its row ratios, its column ratios and its two reshaped label arrays:
    its last stages are, one by one, the operations of `lossTail`. -/
theorem ref_result (x0 x1 : (⟨Cert.ReferenceIdeal.S4x256x64x64, .f32⟩ : BufTy).Contents (Elt Ideal))
    (x2 x3 : (⟨Cert.ReferenceIdeal.S4x64x64, .i32⟩ : BufTy).Contents (Elt Ideal)) :
    Cert.ReferenceIdeal.Read.val_main_v59 (F := Ideal) x0 x1 x2 x3
      = lossTail (Cert.ReferenceIdeal.Read.val_main_v39 (F := Ideal) x0 x1 x2 x3)
          (Cert.ReferenceIdeal.Read.val_main_v44 (F := Ideal) x0 x1 x2 x3)
          (Cert.ReferenceIdeal.Read.val_main_v18 (F := Ideal) x2)
          (Cert.ReferenceIdeal.Read.val_main_v19 (F := Ideal) x3) := rfl

end Cert.Contrastive

end
-- ==== Proof.KernelTail.lean ====
import proofs.«168801_j41678362640816_1_alg».proof.Proof.Gen.KernelIdeal.Frame
import proofs.«168801_j41678362640816_1_alg».proof.Proof.Tail

/-!
# The kernel program's result as the loss of its two output arrays

After its region the kernel program flattens the region's two output arrays (the row ratios and the column
ratios, each `[4, 1, 4096]`) to `[4, 4096]` and then runs, on them and on the two flattened label arrays computed
before the region, exactly the operations of `lossTail`.  From any contents of the buffers the lines after the
region therefore leave, in the result buffer, `lossTail` of what the four buffers held (`tail_after`).  The region
leaves its two output arrays at the contents the write-backs built and every other buffer as it was at the
region's entry, which gives the program's result (`kernel_result`).  What the two output arrays hold is not looked
at here.
-/

noncomputable section

namespace Cert.Contrastive

open Idealize.ShloMosaic Idealize.ShloMosaic.TcCoe Idealize.SL.Sem
open Cert.KernelIdeal Cert.KernelIdeal.Gen

/-- From any buffer contents `W`, the lines after the region leave in the result buffer the loss of the two
    flattened output arrays and the two flattened label arrays as `W` has them. -/
theorem tail_after (W : Valuation τ sig (Elt Ideal)) :
    StableHlo.after (List.flatten [hostOps1 (F := Ideal), hostOps1_1, hostOps1_2, hostOps1_3, hostOps1_4]) W
        (Proc.devRef .tc main_v45)
      = lossTail
          (shapeCast (s := S4x1x4096) S4x4096 (W (Proc.devRef .tc main_v25_0)) shapeCasts_S4x1x4096_S4x4096)
          (shapeCast (s := S4x1x4096) S4x4096 (W (Proc.devRef .tc main_v25_1)) shapeCasts_S4x1x4096_S4x4096)
          (W (Proc.devRef .tc main_v21)) (W (Proc.devRef .tc main_v22)) := by
  simp only [hostOps1, hostOps1_1, hostOps1_2, hostOps1_3, hostOps1_4, List.flatten_cons, List.flatten_nil,
    List.append_nil, List.cons_append, List.nil_append]
  after_results_simp
  rfl

variable (m : (ℓ : Loc nD τ sig) → Buf (Elt Ideal) ℓ)

/-- The kernel program's result: the loss of its region's two output arrays, flattened, and of the two flattened
    label arrays computed before the region. -/
theorem kernel_result (c : Dev nD) :
    Pipeline.afterTail₀ cfgs (Gen.dats m) 0 (Gen.V0 m) [hostOps1, hostOps1_1, hostOps1_2, hostOps1_3, hostOps1_4] c main_v45
      = lossTail
          (shapeCast (s := S4x1x4096) S4x4096 ((Gen.dats m 0 c).arrAt 4 cfg0.N) shapeCasts_S4x1x4096_S4x4096)
          (shapeCast (s := S4x1x4096) S4x4096 ((Gen.dats m 0 c).arrAt 5 cfg0.N) shapeCasts_S4x1x4096_S4x4096)
          (Gen.V m c main_v21) (Gen.V m c main_v22) := by
  -- the region's two output arrays are at the written-back contents, the label buffers as at the region's entry
  have e4 : Pipeline.withArrays spec0 c (Gen.V0 m c) (fun w => (Gen.dats m 0 c).arrAt w cfg0.N) (Proc.devRef .tc main_v25_0)
      = (Gen.dats m 0 c).arrAt 4 cfg0.N :=
    Pipeline.withArrays_arr spec0 launch0.win.arr_inj c (Gen.V0 m c) (fun w => (Gen.dats m 0 c).arrAt w cfg0.N) 4
  have e5 : Pipeline.withArrays spec0 c (Gen.V0 m c) (fun w => (Gen.dats m 0 c).arrAt w cfg0.N) (Proc.devRef .tc main_v25_1)
      = (Gen.dats m 0 c).arrAt 5 cfg0.N :=
    Pipeline.withArrays_arr spec0 launch0.win.arr_inj c (Gen.V0 m c) (fun w => (Gen.dats m 0 c).arrAt w cfg0.N) 5
  have e21 : Pipeline.withArrays spec0 c (Gen.V0 m c) (fun w => (Gen.dats m 0 c).arrAt w cfg0.N) (Proc.devRef .tc main_v21)
      = Gen.V m c main_v21 :=
    Pipeline.withArrays_of_ne spec0 c (Gen.V0 m c) (fun w => (Gen.dats m 0 c).arrAt w cfg0.N) main_v21 (by decide)
  have e22 : Pipeline.withArrays spec0 c (Gen.V0 m c) (fun w => (Gen.dats m 0 c).arrAt w cfg0.N) (Proc.devRef .tc main_v22)
      = Gen.V m c main_v22 :=
    Pipeline.withArrays_of_ne spec0 c (Gen.V0 m c) (fun w => (Gen.dats m 0 c).arrAt w cfg0.N) main_v22 (by decide)
  show StableHlo.after (List.flatten [hostOps1 (F := Ideal), hostOps1_1, hostOps1_2, hostOps1_3, hostOps1_4])
      (Pipeline.withArrays spec0 c (Gen.V0 m c) (fun w => (Gen.dats m 0 c).arrAt w cfg0.N)) (Proc.devRef .tc main_v45) = _
  rw [tail_after, e4, e5, e21, e22]

end Cert.Contrastive

end
-- ==== Proof.Cross.lean ====
import proofs.«168801_j41678362640816_1_alg».proof.Proof.Gen.KernelIdeal.Frame
import proofs.«168801_j41678362640816_1_alg».proof.Proof.Gen.ReferenceIdeal.Read

/-!
# The arrays the kernel region finds are the reference's stages of the same arguments

Before its region the kernel program normalises the two feature arguments exactly as the reference does (square,
sum over the channels, square root, maximum with a small constant, divide) and flattens the two pixel axes; it
flattens the two label arguments.  These four values are therefore, term for term, the reference's stages of the
same four arguments.  The four arrays the region reads are layout images of them:

* the first feature array is the transpose (pixel before channel) of the first normalised array, narrowed to
  bf16 — and narrowing is the identity over the extended reals;
* the second feature array is the second normalised array, narrowed likewise;
* each label array is the flattened label argument with a unit axis inserted in the middle.

Each is read here at an index.
-/

noncomputable section

namespace Cert.Contrastive.Cross

open Idealize.ShloMosaic Idealize.ShloMosaic.TcCoe Idealize.SL.Sem
open Idealize.ShloMosaic.ValueIdx
open Cert.KernelIdeal Cert.KernelIdeal.Gen

/-! ## Two layout operations at the literal shapes, read at an index -/

/-- The transpose that exchanges the last two axes of a `[4, 256, 4096]` array, read at `(n, s, ch)`, is the array
    at `(n, ch, s)`. -/
theorem transpose_021_apply {α : Type} (x : S4x256x4096.Idx → α) (h : S4x256x4096.Transposes [0, 2, 1] S4x4096x256)
    (n : Fin 4) (s : Fin 4096) (ch : Fin 256) :
    transpose S4x4096x256 [0, 2, 1] x h (ix3 n s ch) = x (ix3 n ch s) :=
  transpose_apply [0, 2, 1] x h (ix3 n s ch) (ix3 n ch s) (fun b => match b with
    | ⟨0, _⟩ => rfl
    | ⟨1, _⟩ => rfl
    | ⟨2, _⟩ => rfl)

/-- A `[4, 4096]` array recast to `[4, 1, 4096]`, read at `(n, 0, s)`, is the array at `(n, s)`: both indices have
    the row-major position `4096 n + s`. -/
theorem addMiddleUnit_apply {α : Type} (x : S4x4096.Idx → α) (h : S4x4096.ShapeCasts S4x1x4096) (n : Fin 4) (s : Fin 4096) :
    shapeCast S4x1x4096 x h (ix3 n (0 : Fin 1) s) = x (ix2 n s) :=
  shapeCast_apply x h (ix3 n (0 : Fin 1) s) (ix2 n s) (by
    rw [Shape.rowMajor_val_two, Shape.rowMajor_val_three]
    show n.val * 4096 + s.val = (n.val * 1 + 0) * 4096 + s.val
    omega)

variable (m : (ℓ : Loc nD τ sig) → Buf (Elt Ideal) ℓ)

/-! ## The four values computed before the region are the reference's stages -/

/-- The first normalised feature array is the reference's, of the first argument. -/
theorem V_v8 (c : Dev nD) :
    Gen.V m c main_v8 = Cert.ReferenceIdeal.Read.val_main_v8 (F := Ideal) (m ((c.tc : Thread nD τ).loc main_arg0)) := by
  dsimp only [Gen.V, Gen.V0]
  simp only [Gen.hostOps0, List.flatten_cons, List.flatten_nil, List.append_nil]
  after_results
  rfl

/-- The second normalised feature array is the reference's, of the second argument. -/
theorem V_v17 (c : Dev nD) :
    Gen.V m c main_v17 = Cert.ReferenceIdeal.Read.val_main_v17 (F := Ideal) (m ((c.tc : Thread nD τ).loc main_arg1)) := by
  dsimp only [Gen.V, Gen.V0]
  simp only [Gen.hostOps0, List.flatten_cons, List.flatten_nil, List.append_nil]
  after_results
  rfl

/-- The first flattened label array is the reference's, of the third argument. -/
theorem V_v21 (c : Dev nD) :
    Gen.V m c main_v21 = Cert.ReferenceIdeal.Read.val_main_v18 (F := Ideal) (m ((c.tc : Thread nD τ).loc main_arg2)) := by
  dsimp only [Gen.V, Gen.V0]
  simp only [Gen.hostOps0, List.flatten_cons, List.flatten_nil, List.append_nil]
  after_results
  rfl

/-- The second flattened label array is the reference's, of the fourth argument. -/
theorem V_v22 (c : Dev nD) :
    Gen.V m c main_v22 = Cert.ReferenceIdeal.Read.val_main_v19 (F := Ideal) (m ((c.tc : Thread nD τ).loc main_arg3)) := by
  dsimp only [Gen.V, Gen.V0]
  simp only [Gen.hostOps0, List.flatten_cons, List.flatten_nil, List.append_nil]
  after_results
  rfl

/-! ## The region's four input arrays as layout images of the reference's stages -/

/-- The region's first array is the narrowed transpose of the reference's first normalised array. -/
theorem V_v19_eq (c : Dev nD) :
    Gen.V m c main_v19 = truncf (F := Ideal) (s := S4x4096x256) (φ := .f32) .bf16
      (transpose (s := S4x256x4096) S4x4096x256 [0, 2, 1]
        (Cert.ReferenceIdeal.Read.val_main_v8 (F := Ideal) (m ((c.tc : Thread nD τ).loc main_arg0)))
        transposes_S4x256x4096_S4x4096x256_0_2_1) bitsLt_bf16_f32 := by
  dsimp only [Gen.V, Gen.V0]
  simp only [Gen.hostOps0, List.flatten_cons, List.flatten_nil, List.append_nil]
  after_results
  rfl

/-- The region's first array at `(n, s, ch)` — pixel before channel — is the reference's first normalised array
    at `(n, ch, s)`. -/
theorem V_v19_ref (c : Dev nD) (n : Fin 4) (s : Fin 4096) (ch : Fin 256) :
    Gen.V m c main_v19 (ix3 n s ch)
      = Cert.ReferenceIdeal.Read.val_main_v8 (F := Ideal) (m ((c.tc : Thread nD τ).loc main_arg0)) (ix3 n ch s) :=
  (congrFun (V_v19_eq m c) (ix3 n s ch)).trans
    (transpose_021_apply (Cert.ReferenceIdeal.Read.val_main_v8 (F := Ideal) (m ((c.tc : Thread nD τ).loc main_arg0)))
      transposes_S4x256x4096_S4x4096x256_0_2_1 n s ch)

/-- The region's second array is the narrowed second normalised array of the reference. -/
theorem V_v20_eq (c : Dev nD) :
    Gen.V m c main_v20 = truncf (F := Ideal) (s := S4x256x4096) (φ := .f32) .bf16
      (Cert.ReferenceIdeal.Read.val_main_v17 (F := Ideal) (m ((c.tc : Thread nD τ).loc main_arg1))) bitsLt_bf16_f32 := by
  dsimp only [Gen.V, Gen.V0]
  simp only [Gen.hostOps0, List.flatten_cons, List.flatten_nil, List.append_nil]
  after_results
  rfl

/-- Entry by entry the region's second array is the reference's second normalised array. -/
theorem V_v20_ref (c : Dev nD) (n : Fin 4) (ch : Fin 256) (s : Fin 4096) :
    Gen.V m c main_v20 (ix3 n ch s)
      = Cert.ReferenceIdeal.Read.val_main_v17 (F := Ideal) (m ((c.tc : Thread nD τ).loc main_arg1)) (ix3 n ch s) :=
  congrFun (V_v20_eq m c) (ix3 n ch s)

/-- The region's third array is the reference's first flattened label array with a unit axis inserted. -/
theorem V_v23_eq (c : Dev nD) :
    Gen.V m c main_v23 = shapeCast (s := S4x4096) S4x1x4096
      (Cert.ReferenceIdeal.Read.val_main_v18 (F := Ideal) (m ((c.tc : Thread nD τ).loc main_arg2))) shapeCasts_S4x4096_S4x1x4096 := by
  dsimp only [Gen.V, Gen.V0]
  simp only [Gen.hostOps0, List.flatten_cons, List.flatten_nil, List.append_nil]
  after_results
  rfl

/-- The region's third array at `(n, 0, s)` is the reference's first flattened label array at `(n, s)`. -/
theorem V_v23_ref (c : Dev nD) (n : Fin 4) (s : Fin 4096) :
    Gen.V m c main_v23 (ix3 n (0 : Fin 1) s)
      = Cert.ReferenceIdeal.Read.val_main_v18 (F := Ideal) (m ((c.tc : Thread nD τ).loc main_arg2)) (ix2 n s) :=
  (congrFun (V_v23_eq m c) (ix3 n (0 : Fin 1) s)).trans
    (addMiddleUnit_apply (Cert.ReferenceIdeal.Read.val_main_v18 (F := Ideal) (m ((c.tc : Thread nD τ).loc main_arg2)))
      shapeCasts_S4x4096_S4x1x4096 n s)

/-- The region's fourth array is the reference's second flattened label array with a unit axis inserted. -/
theorem V_v24_eq (c : Dev nD) :
    Gen.V m c main_v24 = shapeCast (s := S4x4096) S4x1x4096
      (Cert.ReferenceIdeal.Read.val_main_v19 (F := Ideal) (m ((c.tc : Thread nD τ).loc main_arg3))) shapeCasts_S4x4096_S4x1x4096 := by
  dsimp only [Gen.V, Gen.V0]
  simp only [Gen.hostOps0, List.flatten_cons, List.flatten_nil, List.append_nil]
  after_results
  rfl

/-- The region's fourth array at `(n, 0, s)` is the reference's second flattened label array at `(n, s)`. -/
theorem V_v24_ref (c : Dev nD) (n : Fin 4) (s : Fin 4096) :
    Gen.V m c main_v24 (ix3 n (0 : Fin 1) s)
      = Cert.ReferenceIdeal.Read.val_main_v19 (F := Ideal) (m ((c.tc : Thread nD τ).loc main_arg3)) (ix2 n s) :=
  (congrFun (V_v24_eq m c) (ix3 n (0 : Fin 1) s)).trans
    (addMiddleUnit_apply (Cert.ReferenceIdeal.Read.val_main_v19 (F := Ideal) (m ((c.tc : Thread nD τ).loc main_arg3)))
      shapeCasts_S4x4096_S4x1x4096 n s)

/-! ## The same four arrays over the values computed before the region -/

/-- The region's first array at `(n, s, ch)` is the first normalised array at `(n, ch, s)`. -/
theorem V_v19_apply (c : Dev nD) (n : Fin 4) (s : Fin 4096) (ch : Fin 256) :
    Gen.V m c main_v19 (ix3 n s ch) = Gen.V m c main_v8 (ix3 n ch s) :=
  (V_v19_ref m c n s ch).trans (congrFun (V_v8 m c) (ix3 n ch s)).symm

/-- The region's second array at `(n, ch, s)` is the second normalised array there. -/
theorem V_v20_apply (c : Dev nD) (n : Fin 4) (ch : Fin 256) (s : Fin 4096) :
    Gen.V m c main_v20 (ix3 n ch s) = Gen.V m c main_v17 (ix3 n ch s) :=
  (V_v20_ref m c n ch s).trans (congrFun (V_v17 m c) (ix3 n ch s)).symm

/-- The region's third array at `(n, 0, s)` is the first flattened label array at `(n, s)`. -/
theorem V_v23_apply (c : Dev nD) (n : Fin 4) (s : Fin 4096) :
    Gen.V m c main_v23 (ix3 n (0 : Fin 1) s) = Gen.V m c main_v21 (ix2 n s) :=
  (V_v23_ref m c n s).trans (congrFun (V_v21 m c) (ix2 n s)).symm

/-- The region's fourth array at `(n, 0, s)` is the second flattened label array at `(n, s)`. -/
theorem V_v24_apply (c : Dev nD) (n : Fin 4) (s : Fin 4096) :
    Gen.V m c main_v24 (ix3 n (0 : Fin 1) s) = Gen.V m c main_v22 (ix2 n s) :=
  (V_v24_ref m c n s).trans (congrFun (V_v22 m c) (ix2 n s)).symm

end Cert.Contrastive.Cross

end
-- ==== Proof.RefMid.lean ====
/-
  The reference's two ratio stages read at an index.

  The reference normalises the two feature maps (stages `val_main_v8`, `val_main_v17`: [4, 256, 4096], batch, channel,
  pixel), reshapes the two label maps (`val_main_v18`, `val_main_v19`: [4, 4096]) and then, for every batch `n` and every
  pair of pixels `p, q`: contracts the channels, clips the result to [-1, 1] (a maximum with -1, then a minimum with 1),
  divides by the single-precision word of 0.05, exponentiates, and multiplies by the label mask (the comparison of the two
  broadcast labels, converted to a float: 1 where they agree, 0 elsewhere). The row stage `val_main_v39` sums the masked and
  the plain exponentials over `q` and divides; the column stage `val_main_v44` does the same over `p`.

  Read at an index these are the specification's `rowRatio` and `colRatio` of those four stages: each sum starts from the
  zero word, which denotes 0, and the quotient by the word of 0.05 is the product with the inverse temperature on every
  extended real (`scale_eq_div`).
-/
import proofs.«168801_j41678362640816_1_alg».proof.Proof.Gen.ReferenceIdeal.Read
import proofs.«168801_j41678362640816_1_alg».proof.Proof.Spec
import Idealize.ShloMosaic.PureOps.Ideal
import Idealize.ShloMosaic.PureOps.Ideal.Laws
import Idealize.ShloMosaic.Lib.ValueIdx

noncomputable section

namespace Cert.Contrastive

open Cert.ReferenceIdeal Cert.ReferenceIdeal.Read Idealize.ShloMosaic Idealize.ShloMosaic.ValueIdx

/-! ## The four arrays the ratios are taken of -/

/-- The first normalised feature map, by batch, channel and pixel. -/
def ra (x0 : (⟨S4x256x64x64, .f32⟩ : BufTy).Contents (Elt Ideal)) : Fin 4 → Fin 256 → Fin 4096 → EReal :=
  fun n ch s => Read.val_main_v8 (F := Ideal) x0 (ix3 n ch s)

/-- The second normalised feature map. -/
def rb (x1 : (⟨S4x256x64x64, .f32⟩ : BufTy).Contents (Elt Ideal)) : Fin 4 → Fin 256 → Fin 4096 → EReal :=
  fun n ch s => Read.val_main_v17 (F := Ideal) x1 (ix3 n ch s)

/-- The first label map, by batch and pixel. -/
def rla (x2 : (⟨S4x64x64, .i32⟩ : BufTy).Contents (Elt Ideal)) : Fin 4 → Fin 4096 → BitVec 32 :=
  fun n s => Read.val_main_v18 (F := Ideal) x2 (ix2 n s)

/-- The second label map. -/
def rlb (x3 : (⟨S4x64x64, .i32⟩ : BufTy).Contents (Elt Ideal)) : Fin 4 → Fin 4096 → BitVec 32 :=
  fun n s => Read.val_main_v19 (F := Ideal) x3 (ix2 n s)

/-! ## The temperature -/

/-- The single-precision word of 0.05 denotes 13421773 / 2^28: exponent field 122, significand 2^23 + 5033165. -/
theorem ref_ofBits_temp : Ideal.ofBits .f32 0x3D4CCCCD#32 = temp := by
  unfold temp
  simp [Ideal.ofBits, Ideal.ieee, -EReal.coe_mul]; norm_num

/-- A quotient by the word of 0.05 is the product with the inverse temperature, on every extended real: the divisor is a
    nonzero real, so the quotient is the product with its reciprocal, and 1 / (13421773 / 2^28) = 2^28 / 13421773. -/
theorem scale_eq_div (x : EReal) : Ideal.div x (Ideal.ofBits .f32 0x3D4CCCCD#32) = x * invTemp := by
  rw [ref_ofBits_temp]
  unfold temp invTemp
  rw [Ideal.div_coe (by norm_num)]
  norm_num

/-! ## The label mask -/

/-- A one-bit comparison word converted to a float is 1 where the two words agree and 0 elsewhere. -/
theorem ref_mask_eq (u v : BitVec 32) :
    FloatOps.uitofp (F := Ideal) .f32 (IntOp.cmpi .eq u v) = if u = v then (1 : EReal) else 0 := by
  show (((IntOp.cmpi .eq u v).toNat : ℝ) : EReal) = _
  by_cases h : u = v
  · rw [if_pos h]; simp [IntOp.cmpi, h]
  · rw [if_neg h]; simp [IntOp.cmpi, h]

/-! ## Where each stage reads its operands -/

/-- The contraction reads the first map at (batch, channel, row pixel) … -/
theorem ref_lidx_v29 (n : Fin 4) (p q : Fin 4096) (k : Fin 256) : lidx_main_v29 (ix3 n p q) k = ix3 n k p :=
  funext fun a => Fin.ext (by match a with | ⟨0, _⟩ => rfl | ⟨1, _⟩ => rfl | ⟨2, _⟩ => rfl)

/-- … and the second at (batch, channel, column pixel). -/
theorem ref_ridx_v29 (n : Fin 4) (p q : Fin 4096) (k : Fin 256) : ridx_main_v29 (ix3 n p q) k = ix3 n k q :=
  funext fun a => Fin.ext (by match a with | ⟨0, _⟩ => rfl | ⟨1, _⟩ => rfl | ⟨2, _⟩ => rfl)

/-- The first label's two broadcasts read it at (batch, row pixel) … -/
theorem ref_idx_v20_v22 (n : Fin 4) (p q : Fin 4096) : idx_main_v20 (idx_main_v22 (ix3 n p q)) = ix2 n p :=
  funext fun a => Fin.ext (by match a with | ⟨0, _⟩ => rfl | ⟨1, _⟩ => rfl)

/-- … and the second label's at (batch, column pixel). -/
theorem ref_idx_v21_v23 (n : Fin 4) (p q : Fin 4096) : idx_main_v21 (idx_main_v23 (ix3 n p q)) = ix2 n q :=
  funext fun a => Fin.ext (by match a with | ⟨0, _⟩ => rfl | ⟨1, _⟩ => rfl)

/-- A row sum runs over the column pixel … -/
theorem ref_idx_v35 (n : Fin 4) (p k : Fin 4096) : idx_main_v35 (ix2 n p) k = ix3 n p k :=
  funext fun a => Fin.ext (by match a with | ⟨0, _⟩ => rfl | ⟨1, _⟩ => rfl | ⟨2, _⟩ => rfl)
theorem ref_idx_v36 (n : Fin 4) (p k : Fin 4096) : idx_main_v36 (ix2 n p) k = ix3 n p k :=
  funext fun a => Fin.ext (by match a with | ⟨0, _⟩ => rfl | ⟨1, _⟩ => rfl | ⟨2, _⟩ => rfl)

/-- … and a column sum over the row pixel. -/
theorem ref_idx_v40 (n : Fin 4) (q k : Fin 4096) : idx_main_v40 (ix2 n q) k = ix3 n k q :=
  funext fun a => Fin.ext (by match a with | ⟨0, _⟩ => rfl | ⟨1, _⟩ => rfl | ⟨2, _⟩ => rfl)
theorem ref_idx_v41 (n : Fin 4) (q k : Fin 4096) : idx_main_v41 (ix2 n q) k = ix3 n k q :=
  funext fun a => Fin.ext (by match a with | ⟨0, _⟩ => rfl | ⟨1, _⟩ => rfl | ⟨2, _⟩ => rfl)

/-! ## One element of the exponential and of the mask -/

/-- The exponential stage at (n, p, q) is the specification's clipped, scaled and exponentiated similarity. -/
theorem ref_exp_at (x0 x1 : (⟨S4x256x64x64, .f32⟩ : BufTy).Contents (Elt Ideal)) (n : Fin 4) (p q : Fin 4096) :
    Read.val_main_v33 (F := Ideal) x0 x1 (ix3 n p q) = expSim (ra x0) (rb x1) n p q := by
  rw [val_main_v33_apply, val_main_v32_apply, val_main_v30_apply, val_main_call0_v4_apply, val_main_call0_v3_apply,
    val_main_cst_4_apply, val_main_call0_v2_apply, val_main_call0_v1_apply, val_main_call0_v0_apply, val_main_cst_3_apply,
    val_main_v29_apply, val_main_v31_apply, val_main_cst_5_apply]
  simp only [ref_lidx_v29, ref_ridx_v29, Ideal.hostUnary_exp_def, Ideal.hostDivf_def, Ideal.minimumf_def, Ideal.maximumf_def,
    Ideal.ofBits_def, scale_eq_div]
  rfl

/-- The mask stage at (n, p, q) is 1 where the labels of the two pixels agree and 0 elsewhere. -/
theorem ref_mask_at (x2 x3 : (⟨S4x64x64, .i32⟩ : BufTy).Contents (Elt Ideal)) (n : Fin 4) (p q : Fin 4096) :
    Read.val_main_v25 (F := Ideal) x2 x3 (ix3 n p q) = same (rla x2) (rlb x3) n p q := by
  rw [val_main_v25_apply, val_main_v24_apply, val_main_v22_apply, val_main_v20_apply, val_main_v23_apply,
    val_main_v21_apply, ref_idx_v20_v22, ref_idx_v21_v23, ref_mask_eq]
  rfl

/-! ## The two ratios -/

/-- The reference's row stage at (n, p) is the row ratio. -/
theorem ref_row (x0 x1 : (⟨S4x256x64x64, .f32⟩ : BufTy).Contents (Elt Ideal))
    (x2 x3 : (⟨S4x64x64, .i32⟩ : BufTy).Contents (Elt Ideal)) (n : Fin 4) (p : Fin 4096) :
    Read.val_main_v39 (F := Ideal) x0 x1 x2 x3 (ix2 n p) = rowRatio (ra x0) (rb x1) (rla x2) (rlb x3) n p := by
  rw [val_main_v39_apply, val_main_v35_apply, val_main_v38_apply, val_main_v36_apply, val_main_v37_apply,
    val_main_cst_6_apply, val_main_cst_7_apply, val_main_cst_8_apply]
  simp only [val_main_v34_apply, ref_idx_v35, ref_idx_v36, ref_exp_at, ref_mask_at, Ideal.hostDivf_def, Ideal.addf_def, Ideal.mulf_def,
    Ideal.ofBits_def, Ideal.ofBits_zero_f32, zero_add]
  rfl

/-- The reference's column stage at (n, q) is the column ratio. -/
theorem ref_col (x0 x1 : (⟨S4x256x64x64, .f32⟩ : BufTy).Contents (Elt Ideal))
    (x2 x3 : (⟨S4x64x64, .i32⟩ : BufTy).Contents (Elt Ideal)) (n : Fin 4) (q : Fin 4096) :
    Read.val_main_v44 (F := Ideal) x0 x1 x2 x3 (ix2 n q) = colRatio (ra x0) (rb x1) (rla x2) (rlb x3) n q := by
  rw [val_main_v44_apply, val_main_v40_apply, val_main_v43_apply, val_main_v41_apply, val_main_v42_apply,
    val_main_cst_9_apply, val_main_cst_10_apply, val_main_cst_11_apply]
  simp only [val_main_v34_apply, ref_idx_v40, ref_idx_v41, ref_exp_at, ref_mask_at, Ideal.hostDivf_def, Ideal.addf_def, Ideal.mulf_def,
    Ideal.ofBits_def, Ideal.ofBits_zero_f32, zero_add]
  rfl

end Cert.Contrastive

end
-- ==== Proof.Final.lean ====
/-
  The kernel program's result, stated over the reference's own stages.

  The region's first output array holds the row ratios and its second the column ratios of the arrays the region finds
  (Blocks); those arrays are the reference's normalised features and flattened labels of the same arguments (Cross),
  and the reference's two ratio stages are the same ratios of them (RefMid). Flattening [4, 1, 4096] to [4, 4096] keeps
  the entry at (n, 0, p) at (n, p). So the two arrays the kernel's closing operations consume are, entry by entry, the
  reference's ratio stages, and the kernel's result is the closing operations' value on them.
-/
import proofs.«168801_j41678362640816_1_alg».proof.Proof.Blocks
import proofs.«168801_j41678362640816_1_alg».proof.Proof.KernelTail
import proofs.«168801_j41678362640816_1_alg».proof.Proof.Cross
import proofs.«168801_j41678362640816_1_alg».proof.Proof.RefMid
import Idealize.ShloMosaic.Lib.Pipeline.Value

noncomputable section

namespace Cert.Contrastive

open Idealize.ShloMosaic Idealize.ShloMosaic.TcCoe Idealize.SL.Sem
open Idealize.ShloMosaic.ValueIdx
open Cert.KernelIdeal Cert.KernelIdeal.Gen

/-- A [4, 1, 4096] array recast to [4, 4096], read at (n, s), is the array at (n, 0, s): both indices have the
    row-major position 4096 n + s. -/
theorem dropMiddleUnit_apply {α : Type} (x : S4x1x4096.Idx → α) (h : S4x1x4096.ShapeCasts S4x4096) (n : Fin 4)
    (s : Fin 4096) : shapeCast S4x4096 x h (ix2 n s) = x (ix3 n (0 : Fin 1) s) :=
  shapeCast_apply x h (ix2 n s) (ix3 n (0 : Fin 1) s) (by
    rw [Shape.rowMajor_val_two, Shape.rowMajor_val_three]
    show (n.val * 1 + 0) * 4096 + s.val = n.val * 4096 + s.val
    omega)

variable (m : (ℓ : Loc nD τ sig) → Buf (Elt Ideal) ℓ)

/-! ## The arrays the region finds are the reference's stages of the same arguments -/

theorem ka_eq (c : Dev nD) : ka m c = ra (m ((c.tc : Thread nD τ).loc main_arg0)) :=
  funext fun n => funext fun ch => funext fun s => Cross.V_v19_ref m c n s ch

theorem kb_eq (c : Dev nD) : kb m c = rb (m ((c.tc : Thread nD τ).loc main_arg1)) :=
  funext fun n => funext fun ch => funext fun s => Cross.V_v20_ref m c n ch s

theorem kla_eq (c : Dev nD) : kla m c = rla (m ((c.tc : Thread nD τ).loc main_arg2)) :=
  funext fun n => funext fun s => Cross.V_v23_ref m c n s

theorem klb_eq (c : Dev nD) : klb m c = rlb (m ((c.tc : Thread nD τ).loc main_arg3)) :=
  funext fun n => funext fun s => Cross.V_v24_ref m c n s

/-! ## The two flattened output arrays are the reference's ratio stages -/

/-- The first output array, flattened, is the reference's row-ratio stage. -/
theorem rows_eq (c : Dev nD) :
    shapeCast (s := S4x1x4096) S4x4096 ((Gen.dats m 0 c).arrAt 4 cfg0.N) shapeCasts_S4x1x4096_S4x4096
      = Cert.ReferenceIdeal.Read.val_main_v39 (F := Ideal) (m ((c.tc : Thread nD τ).loc main_arg0))
          (m ((c.tc : Thread nD τ).loc main_arg1)) (m ((c.tc : Thread nD τ).loc main_arg2))
          (m ((c.tc : Thread nD τ).loc main_arg3)) := by
  funext j
  obtain ⟨n, p, rfl⟩ : ∃ (n : Fin 4) (p : Fin 4096), j = ix2 n p := ⟨j 0, j 1, eq_ix2 j⟩
  rw [dropMiddleUnit_apply, final4 m c, G4_apply, ref_row, ka_eq, kb_eq, kla_eq, klb_eq]

/-- The second output array, flattened, is the reference's column-ratio stage. -/
theorem cols_eq (c : Dev nD) :
    shapeCast (s := S4x1x4096) S4x4096 ((Gen.dats m 0 c).arrAt 5 cfg0.N) shapeCasts_S4x1x4096_S4x4096
      = Cert.ReferenceIdeal.Read.val_main_v44 (F := Ideal) (m ((c.tc : Thread nD τ).loc main_arg0))
          (m ((c.tc : Thread nD τ).loc main_arg1)) (m ((c.tc : Thread nD τ).loc main_arg2))
          (m ((c.tc : Thread nD τ).loc main_arg3)) := by
  funext j
  obtain ⟨n, q, rfl⟩ : ∃ (n : Fin 4) (q : Fin 4096), j = ix2 n q := ⟨j 0, j 1, eq_ix2 j⟩
  rw [dropMiddleUnit_apply, final5 m c, G5_apply, ref_col, ka_eq, kb_eq, kla_eq, klb_eq]

/-! ## The kernel program's run -/

/-- Every weakly fair execution of the kernel program terminates with its result at the closing operations' value on the
    reference's two ratio stages and two flattened label arrays of the same arguments, and its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v45)
        = lossTail
            (Cert.ReferenceIdeal.Read.val_main_v39 (F := Ideal) (m ((c.tc : Thread nD τ).loc main_arg0))
              (m ((c.tc : Thread nD τ).loc main_arg1)) (m ((c.tc : Thread nD τ).loc main_arg2))
              (m ((c.tc : Thread nD τ).loc main_arg3)))
            (Cert.ReferenceIdeal.Read.val_main_v44 (F := Ideal) (m ((c.tc : Thread nD τ).loc main_arg0))
              (m ((c.tc : Thread nD τ).loc main_arg1)) (m ((c.tc : Thread nD τ).loc main_arg2))
              (m ((c.tc : Thread nD τ).loc main_arg3)))
            (Cert.ReferenceIdeal.Read.val_main_v18 (F := Ideal) (m ((c.tc : Thread nD τ).loc main_arg2)))
            (Cert.ReferenceIdeal.Read.val_main_v19 (F := Ideal) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v45 (Pipeline.mem_restRefs_of main_v45 (by decide) (by decide))).trans
        ((kernel_result m c).trans (by rw [rows_eq m c, cols_eq m c, Cross.V_v21 m c, Cross.V_v22 m c])),
      ((h c).2 main_arg0 (Pipeline.mem_restRefs_of main_arg0 (by decide) (by decide))).trans (W_main_arg0 m (Gen.dats m) c),
      ((h c).2 main_arg1 (Pipeline.mem_restRefs_of main_arg1 (by decide) (by decide))).trans (W_main_arg1 m (Gen.dats m) c),
      ((h c).2 main_arg2 (Pipeline.mem_restRefs_of main_arg2 (by decide) (by decide))).trans (W_main_arg2 m (Gen.dats m) c),
      ((h c).2 main_arg3 (Pipeline.mem_restRefs_of main_arg3 (by decide) (by decide))).trans (W_main_arg3 m (Gen.dats m) c)⟩)
    (Gen.run_main m ρ)

end Cert.Contrastive

end
-- ==== Proof.lean ====
/-
  The certificate of the cross-pixel contrastive loss: a tiled kernel against its whole-array reference.

  Both programs L2-normalise the two feature maps along the channels, form for every batch the 4096 × 4096 matrix of
  inner products, clip it to [-1, 1], divide by the temperature and exponentiate; with the matrix masked where the two
  pixels' labels agree they take, for every row and every column, the quotient of the masked sum by the whole sum plus a
  guard, and finish with the mean of minus the logarithm over the nonzero entries on foreground pixels. The reference
  does this on whole arrays. The kernel walks the matrix in 8 × 8 tiles of 512 × 512, adding each tile's row sums into
  per-row-tile accumulators and its column sums into a whole-width accumulator, and writes a row tile's ratios after its
  last column tile and the column ratios after the last tile of the batch.

  Over the extended reals the two agree: sums are commutative and associative, so the tiling does not matter
  (Accum, KInv, KCol); a change of float format is the identity; and the kernel's product with its inverse temperature,
  named the exact reciprocal of the single-precision word of 0.05, is the reference's quotient by that word on every
  extended real (RefMid.scale_eq_div). No finiteness of the inputs is used by the value claim.
-/
import proofs.«168801_j41678362640816_1_alg».proof.Defs
import proofs.«168801_j41678362640816_1_alg».proof.Proof.Gen.Kernel
import proofs.«168801_j41678362640816_1_alg».proof.Proof.Gen.Kernel.Frame
import proofs.«168801_j41678362640816_1_alg».proof.Proof.Gen.KernelIdeal
import proofs.«168801_j41678362640816_1_alg».proof.Proof.Gen.KernelIdeal.Frame
import proofs.«168801_j41678362640816_1_alg».proof.Proof.Gen.ReferenceIdeal
import proofs.«168801_j41678362640816_1_alg».proof.Proof.Gen.Pre_finite_inputs
import proofs.«168801_j41678362640816_1_alg».proof.Proof.Gen.ReferenceIdeal.Run
import proofs.«168801_j41678362640816_1_alg».proof.Proof.Gen.ReferenceIdeal.Read
import proofs.«168801_j41678362640816_1_alg».proof.Proof.Final
import Idealize.ShloMosaic.PureOps.IdealRules
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The one rewrite of the idealization: the kernel's scale 20.0 is named the exact reciprocal of the single-precision
    word of 0.05, and over the extended reals the name denotes that rational. -/
theorem preserves : Cert.preserves_Kernel_KernelIdeal :=
  IdealRules.named_const.statement Cert.KernelIdeal.κ "fold_c_268435456_13421773" .f32 0x41A00000#32
    ((268435456 / 13421773 : ℝ) : EReal) rfl

/-- Over the extended reals, from memories agreeing on the arguments, both programs end with the closing operations'
    value on the same two ratio arrays and the same two flattened label arrays: the kernel's by its run (Final), the
    reference's by its generated run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Contrastive.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2]
  exact Cert.Contrastive.ref_result _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
